-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x248 : Shape := ⟨2, ![10000, 248]⟩
abbrev S2x100000 : Shape := ⟨2, ![2, 100000]⟩
abbrev S248x248 : Shape := ⟨2, ![248, 248]⟩
abbrev S512x248 : Shape := ⟨2, ![512, 248]⟩
abbrev S512 : Shape := ⟨1, ![512]⟩
abbrev S248x512 : Shape := ⟨2, ![248, 512]⟩
abbrev S248 : Shape := ⟨1, ![248]⟩
abbrev S2480 : Shape := ⟨1, ![2480]⟩
abbrev S_ : Shape := ⟨0, ![]⟩

class Facts : Prop where
  bcast_S_S10000x248 : S_.BroadcastsInDim S10000x248 (![] : Fin 0 → Fin S10000x248.rank)
  reducesTo_S10000x248_S_d0_1 : S10000x248.ReducesTo [0, 1] S_
  h_S_ : 0 < S_.numel
  bcast_S_S248x248 : S_.BroadcastsInDim S248x248 (![] : Fin 0 → Fin S248x248.rank)
  reducesTo_S248x248_S_d0_1 : S248x248.ReducesTo [0, 1] S_
  bcast_S_S512x248 : S_.BroadcastsInDim S512x248 (![] : Fin 0 → Fin S512x248.rank)
  reducesTo_S512x248_S_d0_1 : S512x248.ReducesTo [0, 1] S_
  bcast_S_S512 : S_.BroadcastsInDim S512 (![] : Fin 0 → Fin S512.rank)
  reducesTo_S512_S_d0 : S512.ReducesTo [0] S_
  bcast_S_S248x512 : S_.BroadcastsInDim S248x512 (![] : Fin 0 → Fin S248x512.rank)
  reducesTo_S248x512_S_d0_1 : S248x512.ReducesTo [0, 1] S_
  bcast_S_S248 : S_.BroadcastsInDim S248 (![] : Fin 0 → Fin S248.rank)
  reducesTo_S248_S_d0 : S248.ReducesTo [0] S_
  bcast_S_S2480 : S_.BroadcastsInDim S2480 (![] : Fin 0 → Fin S2480.rank)
  reducesTo_S2480_S_d0 : S2480.ReducesTo [0] S_

variable [Facts]

def fn_part3 {F : FTy → Type} [FloatOps F] (main_arg10 : IVec S2480 32) (main_arg11 : IVec S2480 32) (main_v50 : IVec S_ 1) : IVec S_ 1 :=
  let main_c_19 : IVec S_ 32 := constantI S_ 32 0#32
  let main_v51 : IVec S2480 32 := broadcastInDim S2480 ![] bcast_S_S2480 main_c_19
  let main_v52 : IVec S2480 1 := cmpi .sge main_arg10 main_v51
  let main_c_20 : IVec S_ 32 := constantI S_ 32 248#32
  let main_v53 : IVec S2480 32 := broadcastInDim S2480 ![] bcast_S_S2480 main_c_20
  let main_v54 : IVec S2480 1 := cmpi .slt main_arg10 main_v53
  let main_v55 : IVec S2480 1 := andi main_v52 main_v54
  let main_c_21 : IVec S_ 1 := constantI S_ 1 1#1
  let main_v56 : IVec S_ 1 := (fun x v => Host.reduce IntOp.andi x v reducesTo_S2480_S_d0 h_S_) main_v55 main_c_21
  let main_v57 : IVec S_ 1 := andi main_v50 main_v56
  let main_c_22 : IVec S_ 32 := constantI S_ 32 0#32
  let main_v58 : IVec S2480 32 := broadcastInDim S2480 ![] bcast_S_S2480 main_c_22
  let main_v59 : IVec S2480 1 := cmpi .sge main_arg11 main_v58
  let main_c_23 : IVec S_ 32 := constantI S_ 32 248#32
  let main_v60 : IVec S2480 32 := broadcastInDim S2480 ![] bcast_S_S2480 main_c_23
  let main_v61 : IVec S2480 1 := cmpi .slt main_arg11 main_v60
  let main_v62 : IVec S2480 1 := andi main_v59 main_v61
  let main_c_24 : IVec S_ 1 := constantI S_ 1 1#1
  let main_v63 : IVec S_ 1 := (fun x v => Host.reduce IntOp.andi x v reducesTo_S2480_S_d0 h_S_) main_v62 main_c_24
  let main_v64 : IVec S_ 1 := andi main_v57 main_v63
  main_v64

def fn_part2 {F : FTy → Type} [FloatOps F] (main_arg8 : FVec F S248 .f32) (main_arg9 : IVec S2480 32) (main_arg10 : IVec S2480 32) (main_arg11 : IVec S2480 32) (main_arg12 : FVec F S2480 .f32) (main_v33 : IVec S_ 1) : IVec S_ 1 :=
  let main_v34 : FVec F S248 .f32 := Host.absf main_arg8
  let main_cst_12 : FVec F S_ .f32 := constant S_ .f32 0x7F800000#32
  let main_v35 : FVec F S248 .f32 := broadcastInDim S248 ![] bcast_S_S248 main_cst_12
  let main_v36 : IVec S248 1 := cmpf .olt main_v34 main_v35
  let main_c_13 : IVec S_ 1 := constantI S_ 1 1#1
  let main_v37 : IVec S_ 1 := (fun x v => Host.reduce IntOp.andi x v reducesTo_S248_S_d0 h_S_) main_v36 main_c_13
  let main_v38 : IVec S_ 1 := andi main_v33 main_v37
  let main_v39 : FVec F S2480 .f32 := Host.absf main_arg12
  let main_cst_14 : FVec F S_ .f32 := constant S_ .f32 0x7F800000#32
  let main_v40 : FVec F S2480 .f32 := broadcastInDim S2480 ![] bcast_S_S2480 main_cst_14
  let main_v41 : IVec S2480 1 := cmpf .olt main_v39 main_v40
  let main_c_15 : IVec S_ 1 := constantI S_ 1 1#1
  let main_v42 : IVec S_ 1 := (fun x v => Host.reduce IntOp.andi x v reducesTo_S2480_S_d0 h_S_) main_v41 main_c_15
  let main_v43 : IVec S_ 1 := andi main_v38 main_v42
  let main_c_16 : IVec S_ 32 := constantI S_ 32 0#32
  let main_v44 : IVec S2480 32 := broadcastInDim S2480 ![] bcast_S_S2480 main_c_16
  let main_v45 : IVec S2480 1 := cmpi .sge main_arg9 main_v44
  let main_c_17 : IVec S_ 32 := constantI S_ 32 248#32
  let main_v46 : IVec S2480 32 := broadcastInDim S2480 ![] bcast_S_S2480 main_c_17
  let main_v47 : IVec S2480 1 := cmpi .slt main_arg9 main_v46
  let main_v48 : IVec S2480 1 := andi main_v45 main_v47
  let main_c_18 : IVec S_ 1 := constantI S_ 1 1#1
  let main_v49 : IVec S_ 1 := (fun x v => Host.reduce IntOp.andi x v reducesTo_S2480_S_d0 h_S_) main_v48 main_c_18
  let main_v50 : IVec S_ 1 := andi main_v43 main_v49
  fn_part3 (F := F) main_arg10 main_arg11 main_v50

def fn_part1 {F : FTy → Type} [FloatOps F] (main_arg5 : FVec F S248x512 .f32) (main_arg6 : FVec F S248 .f32) (main_arg7 : FVec F S248 .f32) (main_arg8 : FVec F S248 .f32) (main_arg9 : IVec S2480 32) (main_arg10 : IVec S2480 32) (main_arg11 : IVec S2480 32) (main_arg12 : FVec F S2480 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S248x512 .f32 := Host.absf main_arg5
  let main_cst_6 : FVec F S_ .f32 := constant S_ .f32 0x7F800000#32
  let main_v20 : FVec F S248x512 .f32 := broadcastInDim S248x512 ![] bcast_S_S248x512 main_cst_6
  let main_v21 : IVec S248x512 1 := cmpf .olt main_v19 main_v20
  let main_c_7 : IVec S_ 1 := constantI S_ 1 1#1
  let main_v22 : IVec S_ 1 := (fun x v => Host.reduce IntOp.andi x v reducesTo_S248x512_S_d0_1 h_S_) main_v21 main_c_7
  let main_v23 : IVec S_ 1 := andi main_v18 main_v22
  let main_v24 : FVec F S248 .f32 := Host.absf main_arg6
  let main_cst_8 : FVec F S_ .f32 := constant S_ .f32 0x7F800000#32
  let main_v25 : FVec F S248 .f32 := broadcastInDim S248 ![] bcast_S_S248 main_cst_8
  let main_v26 : IVec S248 1 := cmpf .olt main_v24 main_v25
  let main_c_9 : IVec S_ 1 := constantI S_ 1 1#1
  let main_v27 : IVec S_ 1 := (fun x v => Host.reduce IntOp.andi x v reducesTo_S248_S_d0 h_S_) main_v26 main_c_9
  let main_v28 : IVec S_ 1 := andi main_v23 main_v27
  let main_v29 : FVec F S248 .f32 := Host.absf main_arg7
  let main_cst_10 : FVec F S_ .f32 := constant S_ .f32 0x7F800000#32
  let main_v30 : FVec F S248 .f32 := broadcastInDim S248 ![] bcast_S_S248 main_cst_10
  let main_v31 : IVec S248 1 := cmpf .olt main_v29 main_v30
  let main_c_11 : IVec S_ 1 := constantI S_ 1 1#1
  let main_v32 : IVec S_ 1 := (fun x v => Host.reduce IntOp.andi x v reducesTo_S248_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S10000x248 .f32) (main_arg1 : IVec S2x100000 32) (main_arg2 : FVec F S248x248 .f32) (main_arg3 : FVec F S512x248 .f32) (main_arg4 : FVec F S512 .f32) (main_arg5 : FVec F S248x512 .f32) (main_arg6 : FVec F S248 .f32) (main_arg7 : FVec F S248 .f32) (main_arg8 : FVec F S248 .f32) (main_arg9 : IVec S2480 32) (main_arg10 : IVec S2480 32) (main_arg11 : IVec S2480 32) (main_arg12 : FVec F S2480 .f32) : IVec S_ 1 :=
  let main_v0 : FVec F S10000x248 .f32 := Host.absf main_arg0
  let main_cst : FVec F S_ .f32 := constant S_ .f32 0x7F800000#32
  let main_v1 : FVec F S10000x248 .f32 := broadcastInDim S10000x248 ![] bcast_S_S10000x248 main_cst
  let main_v2 : IVec S10000x248 1 := cmpf .olt main_v0 main_v1
  let main_c : IVec S_ 1 := constantI S_ 1 1#1
  let main_v3 : IVec S_ 1 := (fun x v => Host.reduce IntOp.andi x v reducesTo_S10000x248_S_d0_1 h_S_) main_v2 main_c
  let main_v4 : FVec F S248x248 .f32 := Host.absf main_arg2
  let main_cst_0 : FVec F S_ .f32 := constant S_ .f32 0x7F800000#32
  let main_v5 : FVec F S248x248 .f32 := broadcastInDim S248x248 ![] bcast_S_S248x248 main_cst_0
  let main_v6 : IVec S248x248 1 := cmpf .olt main_v4 main_v5
  let main_c_1 : IVec S_ 1 := constantI S_ 1 1#1
  let main_v7 : IVec S_ 1 := (fun x v => Host.reduce IntOp.andi x v reducesTo_S248x248_S_d0_1 h_S_) main_v6 main_c_1
  let main_v8 : IVec S_ 1 := andi main_v3 main_v7
  let main_v9 : FVec F S512x248 .f32 := Host.absf main_arg3
  let main_cst_2 : FVec F S_ .f32 := constant S_ .f32 0x7F800000#32
  let main_v10 : FVec F S512x248 .f32 := broadcastInDim S512x248 ![] bcast_S_S512x248 main_cst_2
  let main_v11 : IVec S512x248 1 := cmpf .olt main_v9 main_v10
  let main_c_3 : IVec S_ 1 := constantI S_ 1 1#1
  let main_v12 : IVec S_ 1 := (fun x v => Host.reduce IntOp.andi x v reducesTo_S512x248_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_arg9 main_arg10 main_arg11 main_arg12 main_v13 main_v16
-- ==== Kernel.lean ====
abbrev S10000x248 : Shape := ⟨2, ![10000, 248]⟩
abbrev S2x100000 : Shape := ⟨2, ![2, 100000]⟩
abbrev S248x248 : Shape := ⟨2, ![248, 248]⟩
abbrev S512x248 : Shape := ⟨2, ![512, 248]⟩
abbrev S512 : Shape := ⟨1, ![512]⟩
abbrev S248x512 : Shape := ⟨2, ![248, 512]⟩
abbrev S248 : Shape := ⟨1, ![248]⟩
abbrev S2480 : Shape := ⟨1, ![2480]⟩
abbrev S1x100000 : Shape := ⟨2, ![1, 100000]⟩
abbrev S100000 : Shape := ⟨1, ![100000]⟩
abbrev S_ : Shape := ⟨0, ![]⟩
abbrev S100000x1 : Shape := ⟨2, ![100000, 1]⟩
abbrev S100000x248 : Shape := ⟨2, ![100000, 248]⟩
abbrev S2480x1 : Shape := ⟨2, ![2480, 1]⟩
abbrev S1x248 : Shape := ⟨2, ![1, 248]⟩
abbrev S2480x248 : Shape := ⟨2, ![2480, 248]⟩
abbrev S248x2480 : Shape := ⟨2, ![248, 2480]⟩
abbrev S248x2560 : Shape := ⟨2, ![248, 2560]⟩
abbrev S2560x248 : Shape := ⟨2, ![2560, 248]⟩
abbrev S2000x248 : Shape := ⟨2, ![2000, 248]⟩
abbrev S248x256 : Shape := ⟨2, ![248, 256]⟩
abbrev S256x248 : Shape := ⟨2, ![256, 248]⟩
abbrev S2000x256 : Shape := ⟨2, ![2000, 256]⟩
abbrev S1x512 : Shape := ⟨2, ![1, 512]⟩
abbrev S1000x248 : Shape := ⟨2, ![1000, 248]⟩
abbrev S1000x512 : Shape := ⟨2, ![1000, 512]⟩
abbrev S1000 : Shape := ⟨1, ![1000]⟩
abbrev S1000x1 : Shape := ⟨2, ![1000, 1]⟩

abbrev nBuf : Space → Nat
  | .hbm => 88
  | .vmem => 27
  | .smem => 0
  | _ => 0

abbrev bufTy : (tb : Table) → Fin (tcTables nBuf tb) → BufTy
  | .hbm, ⟨0, _⟩ => ⟨S10000x248, .f32⟩
  | .hbm, ⟨1, _⟩ => ⟨S2x100000, .i32⟩
  | .hbm, ⟨2, _⟩ => ⟨S248x248, .f32⟩
  | .hbm, ⟨3, _⟩ => ⟨S512x248, .f32⟩
  | .hbm, ⟨4, _⟩ => ⟨S512, .f32⟩
  | .hbm, ⟨5, _⟩ => ⟨S248x512, .f32⟩
  | .hbm, ⟨6, _⟩ => ⟨S248, .f32⟩
  | .hbm, ⟨7, _⟩ => ⟨S248, .f32⟩
  | .hbm, ⟨8, _⟩ => ⟨S248, .f32⟩
  | .hbm, ⟨9, _⟩ => ⟨S2480, .i32⟩
  | .hbm, ⟨10, _⟩ => ⟨S2480, .i32⟩
  | .hbm, ⟨11, _⟩ => ⟨S2480, .i32⟩
  | .hbm, ⟨12, _⟩ => ⟨S2480, .f32⟩
  | .hbm, ⟨13, _⟩ => ⟨S1x100000, .i32⟩
  | .hbm, ⟨14, _⟩ => ⟨S100000, .i32⟩
  | .hbm, ⟨15, _⟩ => ⟨S1x100000, .i32⟩
  | .hbm, ⟨16, _⟩ => ⟨S100000, .i32⟩
  | .hbm, ⟨17, _⟩ => ⟨S_, .i32⟩
  | .hbm, ⟨18, _⟩ => ⟨S100000, .i32⟩
  | .hbm, ⟨19, _⟩ => ⟨S100000, .i1⟩
  | .hbm, ⟨20, _⟩ => ⟨S_, .i32⟩
  | .hbm, ⟨21, _⟩ => ⟨S100000, .i32⟩
  | .hbm, ⟨22, _⟩ => ⟨S100000, .i32⟩
  | .hbm, ⟨23, _⟩ => ⟨S100000, .i32⟩
  | .hbm, ⟨24, _⟩ => ⟨S100000x1, .i32⟩
  | .hbm, ⟨25, _⟩ => ⟨S100000x248, .f32⟩
  | .hbm, ⟨26, _⟩ => ⟨S_, .i32⟩
  | .hbm, ⟨27, _⟩ => ⟨S100000, .i32⟩
  | .hbm, ⟨28, _⟩ => ⟨S100000, .i1⟩
  | .hbm, ⟨29, _⟩ => ⟨S_, .i32⟩
  | .hbm, ⟨30, _⟩ => ⟨S100000, .i32⟩
  | .hbm, ⟨31, _⟩ => ⟨S100000, .i32⟩
  | .hbm, ⟨32, _⟩ => ⟨S100000, .i32⟩
  | .hbm, ⟨33, _⟩ => ⟨S100000x1, .i32⟩
  | .hbm, ⟨34, _⟩ => ⟨S100000x248, .f32⟩
  | .hbm, ⟨35, _⟩ => ⟨S100000x248, .bf16⟩
  | .hbm, ⟨36, _⟩ => ⟨S100000x248, .bf16⟩
  | .hbm, ⟨37, _⟩ => ⟨S2480x1, .i32⟩
  | .hbm, ⟨38, _⟩ => ⟨S1x248, .i32⟩
  | .hbm, ⟨39, _⟩ => ⟨S2480x248, .i32⟩
  | .hbm, ⟨40, _⟩ => ⟨S2480x248, .i32⟩
  | .hbm, ⟨41, _⟩ => ⟨S2480x248, .i1⟩
  | .hbm, ⟨42, _⟩ => ⟨S2480x248, .f32⟩
  | .hbm, ⟨43, _⟩ => ⟨S2480x1, .i32⟩
  | .hbm, ⟨44, _⟩ => ⟨S1x248, .i32⟩
  | .hbm, ⟨45, _⟩ => ⟨S2480x248, .i32⟩
  | .hbm, ⟨46, _⟩ => ⟨S2480x248, .i32⟩
  | .hbm, ⟨47, _⟩ => ⟨S2480x248, .i1⟩
  | .hbm, ⟨48, _⟩ => ⟨S2480x248, .f32⟩
  | .hbm, ⟨49, _⟩ => ⟨S2480x1, .i32⟩
  | .hbm, ⟨50, _⟩ => ⟨S1x248, .i32⟩
  | .hbm, ⟨51, _⟩ => ⟨S2480x248, .i32⟩
  | .hbm, ⟨52, _⟩ => ⟨S2480x248, .i32⟩
  | .hbm, ⟨53, _⟩ => ⟨S2480x248, .i1⟩
  | .hbm, ⟨54, _⟩ => ⟨S2480x248, .f32⟩
  | .hbm, ⟨55, _⟩ => ⟨S248x2480, .f32⟩
  | .hbm, ⟨56, _⟩ => ⟨S_, .i32⟩
  | .hbm, ⟨57, _⟩ => ⟨S_, .f32⟩
  | .hbm, ⟨58, _⟩ => ⟨S248x2560, .f32⟩
  | .hbm, ⟨59, _⟩ => ⟨S248x2560, .bf16⟩
  | .hbm, ⟨60, _⟩ => ⟨S248x2480, .f32⟩
  | .hbm, ⟨61, _⟩ => ⟨S_, .i32⟩
  | .hbm, ⟨62, _⟩ => ⟨S_, .f32⟩
  | .hbm, ⟨63, _⟩ => ⟨S248x2560, .f32⟩
  | .hbm, ⟨64, _⟩ => ⟨S248x2560, .bf16⟩
  | .hbm, ⟨65, _⟩ => ⟨S2480x1, .f32⟩
  | .hbm, ⟨66, _⟩ => ⟨S2480x248, .f32⟩
  | .hbm, ⟨67, _⟩ => ⟨S2480x248, .f32⟩
  | .hbm, ⟨68, _⟩ => ⟨S_, .i32⟩
  | .hbm, ⟨69, _⟩ => ⟨S_, .f32⟩
  | .hbm, ⟨70, _⟩ => ⟨S2560x248, .f32⟩
  | .hbm, ⟨71, _⟩ => ⟨S2560x248, .bf16⟩
  | .hbm, ⟨72, _⟩ => ⟨S248x248, .f32⟩
  | .hbm, ⟨73, _⟩ => ⟨S248x248, .bf16⟩
  | .hbm, ⟨74, _⟩ => ⟨S100000x248, .f32⟩
  | .hbm, ⟨75, _⟩ => ⟨S_, .f32⟩
  | .hbm, ⟨76, _⟩ => ⟨S10000x248, .f32⟩
  | .hbm, ⟨77, _⟩ => ⟨S100000x1, .i32⟩
  | .hbm, ⟨78, _⟩ => ⟨S10000x248, .f32⟩
  | .hbm, ⟨79, _⟩ => ⟨S248x512, .f32⟩
  | .hbm, ⟨80, _⟩ => ⟨S248x512, .bf16⟩
  | .hbm, ⟨81, _⟩ => ⟨S512x248, .f32⟩
  | .hbm, ⟨82, _⟩ => ⟨S512x248, .bf16⟩
  | .hbm, ⟨83, _⟩ => ⟨S1x512, .f32⟩
  | .hbm, ⟨84, _⟩ => ⟨S1x248, .f32⟩
  | .hbm, ⟨85, _⟩ => ⟨S1x248, .f32⟩
  | .hbm, ⟨86, _⟩ => ⟨S1x248, .f32⟩
  | .hbm, ⟨87, _⟩ => ⟨S10000x248, .f32⟩
  | .local _ .vmem, ⟨0, _⟩ => ⟨S2000x248, .bf16⟩
  | .local _ .vmem, ⟨1, _⟩ => ⟨S2000x248, .bf16⟩
  | .local _ .vmem, ⟨2, _⟩ => ⟨S2000x248, .bf16⟩
  | .local _ .vmem, ⟨3, _⟩ => ⟨S2000x248, .bf16⟩
  | .local _ .vmem, ⟨4, _⟩ => ⟨S248x248, .bf16⟩
  | .local _ .vmem, ⟨5, _⟩ => ⟨S248x256, .bf16⟩
  | .local _ .vmem, ⟨6, _⟩ => ⟨S248x256, .bf16⟩
  | .local _ .vmem, ⟨7, _⟩ => ⟨S248x256, .bf16⟩
  | .local _ .vmem, ⟨8, _⟩ => ⟨S248x256, .bf16⟩
  | .local _ .vmem, ⟨9, _⟩ => ⟨S256x248, .bf16⟩
  | .local _ .vmem, ⟨10, _⟩ => ⟨S256x248, .bf16⟩
  | .local _ .vmem, ⟨11, _⟩ => ⟨S2000x248, .f32⟩
  | .local _ .vmem, ⟨12, _⟩ => ⟨S2000x248, .f32⟩
  | .local _ .vmem, ⟨13, _⟩ => ⟨S2000x248, .f32⟩
  | .local _ .vmem, ⟨14, _⟩ => ⟨S2000x248, .bf16⟩
  | .local _ .vmem, ⟨15, _⟩ => ⟨S1000x248, .f32⟩
  | .local _ .vmem, ⟨16, _⟩ => ⟨S1000x248, .f32⟩
  | .local _ .vmem, ⟨17, _⟩ => ⟨S1000x248, .f32⟩
  | .local _ .vmem, ⟨18, _⟩ => ⟨S1000x248, .f32⟩
  | .local _ .vmem, ⟨19, _⟩ => ⟨S248x512, .bf16⟩
  | .local _ .vmem, ⟨20, _⟩ => ⟨S1x512, .f32⟩
  | .local _ .vmem, ⟨21, _⟩ => ⟨S512x248, .bf16⟩
  | .local _ .vmem, ⟨22, _⟩ => ⟨S1x248, .f32⟩
  | .local _ .vmem, ⟨23, _⟩ => ⟨S1x248, .f32⟩
  | .local _ .vmem, ⟨24, _⟩ => ⟨S1x248, .f32⟩
  | .local _ .vmem, ⟨25, _⟩ => ⟨S1000x248, .f32⟩
  | .local _ .vmem, ⟨26, _⟩ => ⟨S1000x248, .f32⟩
  | _, _ => ⟨S10000x248, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v20 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v21 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v22 : Ref sig .tc := ⟨.hbm, 54, rfl⟩
abbrev main_v23 : Ref sig .tc := ⟨.hbm, 55, rfl⟩
abbrev main_c_3 : Ref sig .tc := ⟨.hbm, 56, rfl⟩
abbrev main_call3_v0 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_c_4 : Ref sig .tc := ⟨.hbm, 61, rfl⟩
abbrev main_call4_v0 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_c_5 : Ref sig .tc := ⟨.hbm, 68, rfl⟩
abbrev main_call5_v0 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg8_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem8_1 : DmaSem sig := 24

abbrev nD : Nat := 1
abbrev τ : Topo := Topo.v7x

variable {F : FTy → Type} [FloatOps F]

abbrev grid0 : Pipeline.Grid := ⟨2, ![50, 10], ![false, false]⟩

def k0_cond2 (i : grid0.Coords) : BitVec 1 :=
  let arg1 : BitVec 32 := BitVec.ofNat 32 (i 1).val
  let c9_i32 : BitVec 32 := 9#32
  let v22 : BitVec 1 := Scalar.cmpi .eq arg1 c9_i32
  let v23 : BitVec 32 := Scalar.extui v22
  let c0_i32_16 : BitVec 32 := 0#32
  let v24 : BitVec 1 := Scalar.cmpi .ne v23 c0_i32_16
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2000x248 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2000x248 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S248x248 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S248x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S248x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x248 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2000x248 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x248 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x248 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S248x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x248 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x248 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x248 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x248 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1000x248 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S_S100000 : S_.BroadcastsInDim S100000 (![] : Fin 0 → Fin S100000.rank)
  bcast_S100000_S100000x1_0 : S100000.BroadcastsInDim S100000x1 (![0] : Fin 1 → Fin S100000x1.rank)
  bitsLt_bf16_f32 : FTy.bits .bf16 < FTy.bits .f32
  bcast_S2480_S2480x1_0 : S2480.BroadcastsInDim S2480x1 (![0] : Fin 1 → Fin S2480x1.rank)
  bcast_S2480x1_S2480x248_0_1 : S2480x1.BroadcastsInDim S2480x248 (![0, 1] : Fin 2 → Fin S2480x248.rank)
  bcast_S1x248_S2480x248_0_1 : S1x248.BroadcastsInDim S2480x248 (![0, 1] : Fin 2 → Fin S2480x248.rank)
  transposes_S2480x248_S248x2480_1_0 : S2480x248.Transposes [1, 0] S248x2480
  pads_S248x2480_S248x2560_000_0800 : S248x2480.Pads (![0, 0] : Fin 2 → Nat) ![0, 80] ![0, 0] S248x2560
  h_S_ : 0 < S_.numel
  pads_S2480x248_S2560x248_0800_000 : S2480x248.Pads (![0, 0] : Fin 2 → Nat) ![80, 0] ![0, 0] S2560x248
  transposes_S248x248_S248x248_1_0 : S248x248.Transposes [1, 0] S248x248
  inb_S2000x248_S2000x248_0_0 : ∀ a, (![0, 0] : Fin 2 → Nat) a + S2000x248.size a ≤ S2000x248.size a
  h_S2000x248 : 0 < S2000x248.numel
  shapeCasts_S2000x248_S2000x248 : S2000x248.ShapeCasts S2000x248
  inb_S248x248_S248x248_0_0 : ∀ a, (![0, 0] : Fin 2 → Nat) a + S248x248.size a ≤ S248x248.size a
  h_S248x248 : 0 < S248x248.numel
  shapeCasts_S248x248_S248x248 : S248x248.ShapeCasts S248x248
  packedbf16_S2000x248_S2000x248_0_0 : (Rect.unit (s := S2000x248) ![0, 0] S2000x248.size inb_S2000x248_S2000x248_0_0).PackedRows (EltTy.packing .bf16)
  inb_S248x256_S248x256_0_0 : ∀ a, (![0, 0] : Fin 2 → Nat) a + S248x256.size a ≤ S248x256.size a
  h_S248x256 : 0 < S248x256.numel
  shapeCasts_S248x256_S248x256 : S248x256.ShapeCasts S248x256
  inb_S256x248_S256x248_0_0 : ∀ a, (![0, 0] : Fin 2 → Nat) a + S256x248.size a ≤ S256x248.size a
  h_S256x248 : 0 < S256x248.numel
  shapeCasts_S256x248_S256x248 : S256x248.ShapeCasts S256x248
  bcast_S_S10000x248 : S_.BroadcastsInDim S10000x248 (![] : Fin 0 → Fin S10000x248.rank)
  transposes_S512x248_S248x512_1_0 : S512x248.Transposes [1, 0] S248x512
  transposes_S248x512_S512x248_1_0 : S248x512.Transposes [1, 0] S512x248
  shapeCasts_S512_S1x512 : S512.ShapeCasts S1x512
  shapeCasts_S248_S1x248 : S248.ShapeCasts S1x248
  inb_S1000x248_S1000x248_0_0 : ∀ a, (![0, 0] : Fin 2 → Nat) a + S1000x248.size a ≤ S1000x248.size a
  h_S1000x248 : 0 < S1000x248.numel
  shapeCasts_S1000x248_S1000x248 : S1000x248.ShapeCasts S1000x248
  inb_S248x512_S248x512_0_0 : ∀ a, (![0, 0] : Fin 2 → Nat) a + S248x512.size a ≤ S248x512.size a
  h_S248x512 : 0 < S248x512.numel
  shapeCasts_S248x512_S248x512 : S248x512.ShapeCasts S248x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S512x248_S512x248_0_0 : ∀ a, (![0, 0] : Fin 2 → Nat) a + S512x248.size a ≤ S512x248.size a
  h_S512x248 : 0 < S512x248.numel
  shapeCasts_S512x248_S512x248 : S512x248.ShapeCasts S512x248
  inb_S1x248_S1x248_0_0 : ∀ a, (![0, 0] : Fin 2 → Nat) a + S1x248.size a ≤ S1x248.size a
  h_S1x248 : 0 < S1x248.numel
  shapeCasts_S1x248_S1x248 : S1x248.ShapeCasts S1x248
  broadcasts_S1x248_S1000x248 : S1x248.Broadcasts S1000x248
  reduces_S1000x248_S1000 : S1000x248.Reduces [1] S1000
  shapeCasts_S1000_S1000x1 : S1000.ShapeCasts S1000x1
  broadcasts_S1000x1_S1000x248 : S1000x1.Broadcasts S1000x248
  gather_S10000x248_S100000x1_S100000x248_1_0_n_n_0_1_1248_wf : GatherDims.WF S10000x248 S100000x1 S100000x248 [1] [0] [] [0] [] 1 ![1, 248]
  dot_S2000x248_S248x248_S2000x248_1_0_0_1_n_n_wf : DotDims.WF S2000x248 S248x248 S2000x248 [1] [0] [0] [1] [] []
  dot_S2000x248_S248x256_S2000x256_1_0_0_1_n_n_wf : DotDims.WF S2000x248 S248x256 S2000x256 [1] [0] [0] [1] [] []
  dot_S2000x256_S256x248_S2000x248_1_0_0_1_n_n_wf : DotDims.WF S2000x256 S256x248 S2000x248 [1] [0] [0] [1] [] []
  scatter_S10000x248_S100000x1_S100000x248_1_0_0_1_wf : ScatterDims.WF S10000x248 S100000x1 S100000x248 [1] [0] [0] 1
  dot_S1000x248_S248x512_S1000x512_1_0_0_1_n_n_wf : DotDims.WF S1000x248 S248x512 S1000x512 [1] [0] [0] [1] [] []
  dot_S1000x512_S512x248_S1000x248_1_0_0_1_n_n_wf : DotDims.WF S1000x512 S512x248 S1000x248 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x248.size a ≤ S100000x248.size a
  hwx0_0 : ∀ i : grid0.Coords, EltTy.bits .bf16 = 32 ∨ (Rect.block (s := S100000x248) S2000x248.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x248.size a ≤ S100000x248.size a
  hwx0_1 : ∀ i : grid0.Coords, EltTy.bits .bf16 = 32 ∨ (Rect.block (s := S100000x248) S2000x248.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S248x248.size a ≤ S248x248.size a
  hwx0_2 : ∀ i : grid0.Coords, EltTy.bits .bf16 = 32 ∨ (Rect.block (s := S248x248) S248x248.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S248x256.size a ≤ S248x2560.size a
  hwx0_3 : ∀ i : grid0.Coords, EltTy.bits .bf16 = 32 ∨ (Rect.block (s := S248x2560) S248x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S248x256.size a ≤ S248x2560.size a
  hwx0_4 : ∀ i : grid0.Coords, EltTy.bits .bf16 = 32 ∨ (Rect.block (s := S248x2560) S248x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x248.size a ≤ S2560x248.size a
  hwx0_5 : ∀ i : grid0.Coords, EltTy.bits .bf16 = 32 ∨ (Rect.block (s := S2560x248) S256x248.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x248.size a ≤ S100000x248.size a
  hwx0_6 : ∀ i : grid0.Coords, EltTy.bits .f32 = 32 ∨ (Rect.block (s := S100000x248) S2000x248.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x248.size a ≤ S10000x248.size a
  hwx1_0 : ∀ i : grid1.Coords, EltTy.bits .f32 = 32 ∨ (Rect.block (s := S10000x248) S1000x248.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x248.size a ≤ S10000x248.size a
  hwx1_1 : ∀ i : grid1.Coords, EltTy.bits .f32 = 32 ∨ (Rect.block (s := S10000x248) S1000x248.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S248x512.size a ≤ S248x512.size a
  hwx1_2 : ∀ i : grid1.Coords, EltTy.bits .bf16 = 32 ∨ (Rect.block (s := S248x512) S248x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x248.size a ≤ S512x248.size a
  hwx1_4 : ∀ i : grid1.Coords, EltTy.bits .bf16 = 32 ∨ (Rect.block (s := S512x248) S512x248.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x248.size a ≤ S1x248.size a
  hwx1_5 : ∀ i : grid1.Coords, EltTy.bits .f32 = 32 ∨ (Rect.block (s := S1x248) S1x248.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x248.size a ≤ S1x248.size a
  hwx1_6 : ∀ i : grid1.Coords, EltTy.bits .f32 = 32 ∨ (Rect.block (s := S1x248) S1x248.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x248.size a ≤ S1x248.size a
  hwx1_7 : ∀ i : grid1.Coords, EltTy.bits .f32 = 32 ∨ (Rect.block (s := S1x248) S1x248.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1000x248.size a ≤ S10000x248.size a
  hwx1_8 : ∀ i : grid1.Coords, EltTy.bits .f32 = 32 ∨ (Rect.block (s := S10000x248) S1000x248.size (cc1_transform_8 i) (hinb1_8 i)).WholeWords (EltTy.packing .f32)

variable [Facts₀]

def gather_S10000x248_S100000x1_S100000x248_1_0_n_n_0_1_1248 : GatherDims S10000x248 S100000x1 S100000x248 where
  offsetDims := [1]
  collapsedSliceDims := [0]
  operandBatchingDims := []
  startIndicesBatchingDims := []
  startIndexMap := [0]
  indexVectorDim := 1
  sliceSizes := ![1, 248]
  wf := gather_S10000x248_S100000x1_S100000x248_1_0_n_n_0_1_1248_wf
def dot_S2000x248_S248x248_S2000x248_1_0_0_1_n_n : DotDims S2000x248 S248x248 S2000x248 where
  lhsContracting := [1]
  rhsContracting := [0]
  lhsNonContracting := [0]
  rhsNonContracting := [1]
  lhsBatch := []
  rhsBatch := []
  wf := dot_S2000x248_S248x248_S2000x248_1_0_0_1_n_n_wf
def dot_S2000x248_S248x256_S2000x256_1_0_0_1_n_n : DotDims S2000x248 S248x256 S2000x256 where
  lhsContracting := [1]
  rhsContracting := [0]
  lhsNonContracting := [0]
  rhsNonContracting := [1]
  lhsBatch := []
  rhsBatch := []
  wf := dot_S2000x248_S248x256_S2000x256_1_0_0_1_n_n_wf
def dot_S2000x256_S256x248_S2000x248_1_0_0_1_n_n : DotDims S2000x256 S256x248 S2000x248 where
  lhsContracting := [1]
  rhsContracting := [0]
  lhsNonContracting := [0]
  rhsNonContracting := [1]
  lhsBatch := []
  rhsBatch := []
  wf := dot_S2000x256_S256x248_S2000x248_1_0_0_1_n_n_wf
def scatter_S10000x248_S100000x1_S100000x248_1_0_0_1 : ScatterDims S10000x248 S100000x1 S100000x248 where
  updateWindowDims := [1]
  insertedWindowDims := [0]
  scatterDimsToOperandDims := [0]
  indexVectorDim := 1
  wf := scatter_S10000x248_S100000x1_S100000x248_1_0_0_1_wf
def dot_S1000x248_S248x512_S1000x512_1_0_0_1_n_n : DotDims S1000x248 S248x512 S1000x512 where
  lhsContracting := [1]
  rhsContracting := [0]
  lhsNonContracting := [0]
  rhsNonContracting := [1]
  lhsBatch := []
  rhsBatch := []
  wf := dot_S1000x248_S248x512_S1000x512_1_0_0_1_n_n_wf
def dot_S1000x512_S512x248_S1000x248_1_0_0_1_n_n : DotDims S1000x512 S512x248 S1000x248 where
  lhsContracting := [1]
  rhsContracting := [0]
  lhsNonContracting := [0]
  rhsNonContracting := [1]
  lhsBatch := []
  rhsBatch := []
  wf := dot_S1000x512_S512x248_S1000x248_1_0_0_1_n_n_wf

abbrev win0_0 : Pipeline.Window sig grid0 :=
  Pipeline.Window.ofSpec (Memref.whole main_v18) S2000x248.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S2000x248.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S248x248.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S248x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28) S248x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v33) S256x248.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v36) S2000x248.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v39) S1000x248.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1000x248.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S248x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S512x248.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S1x248.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S1x248.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v47) S1x248.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v48) S1000x248.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S10000x248 : Shape := ⟨2, ![10000, 248]⟩
abbrev S2x100000 : Shape := ⟨2, ![2, 100000]⟩
abbrev S248x248 : Shape := ⟨2, ![248, 248]⟩
abbrev S512x248 : Shape := ⟨2, ![512, 248]⟩
abbrev S512 : Shape := ⟨1, ![512]⟩
abbrev S248x512 : Shape := ⟨2, ![248, 512]⟩
abbrev S248 : Shape := ⟨1, ![248]⟩
abbrev S2480 : Shape := ⟨1, ![2480]⟩
abbrev S1x100000 : Shape := ⟨2, ![1, 100000]⟩
abbrev S100000 : Shape := ⟨1, ![100000]⟩
abbrev S_ : Shape := ⟨0, ![]⟩
abbrev S100000x1 : Shape := ⟨2, ![100000, 1]⟩
abbrev S100000x248 : Shape := ⟨2, ![100000, 248]⟩
abbrev S2480x1 : Shape := ⟨2, ![2480, 1]⟩
abbrev S100000x2480 : Shape := ⟨2, ![100000, 2480]⟩
abbrev S1x2480 : Shape := ⟨2, ![1, 2480]⟩
abbrev S10000x512 : Shape := ⟨2, ![10000, 512]⟩
abbrev S1x512 : Shape := ⟨2, ![1, 512]⟩
abbrev S1x248 : Shape := ⟨2, ![1, 248]⟩
abbrev S10000 : Shape := ⟨1, ![10000]⟩
abbrev S10000x1 : Shape := ⟨2, ![10000, 1]⟩

abbrev nBuf : Space → Nat
  | .hbm => 121
  | .vmem => 0
  | .smem => 0
  | _ => 0

abbrev bufTy : (tb : Table) → Fin (tcTables nBuf tb) → BufTy
  | .hbm, ⟨0, _⟩ => ⟨S10000x248, .f32⟩
  | .hbm, ⟨1, _⟩ => ⟨S2x100000, .i32⟩
  | .hbm, ⟨2, _⟩ => ⟨S248x248, .f32⟩
  | .hbm, ⟨3, _⟩ => ⟨S512x248, .f32⟩
  | .hbm, ⟨4, _⟩ => ⟨S512, .f32⟩
  | .hbm, ⟨5, _⟩ => ⟨S248x512, .f32⟩
  | .hbm, ⟨6, _⟩ => ⟨S248, .f32⟩
  | .hbm, ⟨7, _⟩ => ⟨S248, .f32⟩
  | .hbm, ⟨8, _⟩ => ⟨S248, .f32⟩
  | .hbm, ⟨9, _⟩ => ⟨S2480, .i32⟩
  | .hbm, ⟨10, _⟩ => ⟨S2480, .i32⟩
  | .hbm, ⟨11, _⟩ => ⟨S2480, .i32⟩
  | .hbm, ⟨12, _⟩ => ⟨S2480, .f32⟩
  | .hbm, ⟨13, _⟩ => ⟨S1x100000, .i32⟩
  | .hbm, ⟨14, _⟩ => ⟨S100000, .i32⟩
  | .hbm, ⟨15, _⟩ => ⟨S1x100000, .i32⟩
  | .hbm, ⟨16, _⟩ => ⟨S100000, .i32⟩
  | .hbm, ⟨17, _⟩ => ⟨S_, .i32⟩
  | .hbm, ⟨18, _⟩ => ⟨S100000, .i32⟩
  | .hbm, ⟨19, _⟩ => ⟨S100000, .i1⟩
  | .hbm, ⟨20, _⟩ => ⟨S_, .i32⟩
  | .hbm, ⟨21, _⟩ => ⟨S100000, .i32⟩
  | .hbm, ⟨22, _⟩ => ⟨S100000, .i32⟩
  | .hbm, ⟨23, _⟩ => ⟨S100000, .i32⟩
  | .hbm, ⟨24, _⟩ => ⟨S100000x1, .i32⟩
  | .hbm, ⟨25, _⟩ => ⟨S100000x248, .f32⟩
  | .hbm, ⟨26, _⟩ => ⟨S248x248, .f32⟩
  | .hbm, ⟨27, _⟩ => ⟨S100000x248, .f32⟩
  | .hbm, ⟨28, _⟩ => ⟨S_, .i32⟩
  | .hbm, ⟨29, _⟩ => ⟨S100000, .i32⟩
  | .hbm, ⟨30, _⟩ => ⟨S100000, .i1⟩
  | .hbm, ⟨31, _⟩ => ⟨S_, .i32⟩
  | .hbm, ⟨32, _⟩ => ⟨S100000, .i32⟩
  | .hbm, ⟨33, _⟩ => ⟨S100000, .i32⟩
  | .hbm, ⟨34, _⟩ => ⟨S100000, .i32⟩
  | .hbm, ⟨35, _⟩ => ⟨S100000x1, .i32⟩
  | .hbm, ⟨36, _⟩ => ⟨S100000x248, .f32⟩
  | .hbm, ⟨37, _⟩ => ⟨S_, .i32⟩
  | .hbm, ⟨38, _⟩ => ⟨S2480, .i32⟩
  | .hbm, ⟨39, _⟩ => ⟨S2480, .i1⟩
  | .hbm, ⟨40, _⟩ => ⟨S_, .i32⟩
  | .hbm, ⟨41, _⟩ => ⟨S2480, .i32⟩
  | .hbm, ⟨42, _⟩ => ⟨S2480, .i32⟩
  | .hbm, ⟨43, _⟩ => ⟨S2480, .i32⟩
  | .hbm, ⟨44, _⟩ => ⟨S2480x1, .i32⟩
  | .hbm, ⟨45, _⟩ => ⟨S100000x2480, .f32⟩
  | .hbm, ⟨46, _⟩ => ⟨S_, .i32⟩
  | .hbm, ⟨47, _⟩ => ⟨S2480, .i32⟩
  | .hbm, ⟨48, _⟩ => ⟨S2480, .i1⟩
  | .hbm, ⟨49, _⟩ => ⟨S_, .i32⟩
  | .hbm, ⟨50, _⟩ => ⟨S2480, .i32⟩
  | .hbm, ⟨51, _⟩ => ⟨S2480, .i32⟩
  | .hbm, ⟨52, _⟩ => ⟨S2480, .i32⟩
  | .hbm, ⟨53, _⟩ => ⟨S2480x1, .i32⟩
  | .hbm, ⟨54, _⟩ => ⟨S100000x2480, .f32⟩
  | .hbm, ⟨55, _⟩ => ⟨S100000x2480, .f32⟩
  | .hbm, ⟨56, _⟩ => ⟨S1x2480, .f32⟩
  | .hbm, ⟨57, _⟩ => ⟨S100000x2480, .f32⟩
  | .hbm, ⟨58, _⟩ => ⟨S100000x2480, .f32⟩
  | .hbm, ⟨59, _⟩ => ⟨S_, .f32⟩
  | .hbm, ⟨60, _⟩ => ⟨S100000x248, .f32⟩
  | .hbm, ⟨61, _⟩ => ⟨S_, .i32⟩
  | .hbm, ⟨62, _⟩ => ⟨S2480, .i32⟩
  | .hbm, ⟨63, _⟩ => ⟨S2480, .i1⟩
  | .hbm, ⟨64, _⟩ => ⟨S_, .i32⟩
  | .hbm, ⟨65, _⟩ => ⟨S2480, .i32⟩
  | .hbm, ⟨66, _⟩ => ⟨S2480, .i32⟩
  | .hbm, ⟨67, _⟩ => ⟨S2480, .i32⟩
  | .hbm, ⟨68, _⟩ => ⟨S2480x1, .i32⟩
  | .hbm, ⟨69, _⟩ => ⟨S100000x248, .f32⟩
  | .hbm, ⟨70, _⟩ => ⟨S_, .f32⟩
  | .hbm, ⟨71, _⟩ => ⟨S10000x248, .f32⟩
  | .hbm, ⟨72, _⟩ => ⟨S100000x1, .i32⟩
  | .hbm, ⟨73, _⟩ => ⟨S10000x248, .f32⟩
  | .hbm, ⟨74, _⟩ => ⟨S248x512, .f32⟩
  | .hbm, ⟨75, _⟩ => ⟨S10000x512, .f32⟩
  | .hbm, ⟨76, _⟩ => ⟨S1x512, .f32⟩
  | .hbm, ⟨77, _⟩ => ⟨S10000x512, .f32⟩
  | .hbm, ⟨78, _⟩ => ⟨S10000x512, .f32⟩
  | .hbm, ⟨79, _⟩ => ⟨S10000x512, .f32⟩
  | .hbm, ⟨80, _⟩ => ⟨S10000x512, .f32⟩
  | .hbm, ⟨81, _⟩ => ⟨S_, .f32⟩
  | .hbm, ⟨82, _⟩ => ⟨S10000x512, .f32⟩
  | .hbm, ⟨83, _⟩ => ⟨S10000x512, .f32⟩
  | .hbm, ⟨84, _⟩ => ⟨S_, .f32⟩
  | .hbm, ⟨85, _⟩ => ⟨S10000x512, .f32⟩
  | .hbm, ⟨86, _⟩ => ⟨S10000x512, .f32⟩
  | .hbm, ⟨87, _⟩ => ⟨S10000x512, .f32⟩
  | .hbm, ⟨88, _⟩ => ⟨S512x248, .f32⟩
  | .hbm, ⟨89, _⟩ => ⟨S10000x248, .f32⟩
  | .hbm, ⟨90, _⟩ => ⟨S1x248, .f32⟩
  | .hbm, ⟨91, _⟩ => ⟨S10000x248, .f32⟩
  | .hbm, ⟨92, _⟩ => ⟨S10000x248, .f32⟩
  | .hbm, ⟨93, _⟩ => ⟨S10000x248, .f32⟩
  | .hbm, ⟨94, _⟩ => ⟨S_, .f32⟩
  | .hbm, ⟨95, _⟩ => ⟨S10000, .f32⟩
  | .hbm, ⟨96, _⟩ => ⟨S10000x1, .f32⟩
  | .hbm, ⟨97, _⟩ => ⟨S_, .f32⟩
  | .hbm, ⟨98, _⟩ => ⟨S10000x1, .f32⟩
  | .hbm, ⟨99, _⟩ => ⟨S10000x1, .f32⟩
  | .hbm, ⟨100, _⟩ => ⟨S10000x248, .f32⟩
  | .hbm, ⟨101, _⟩ => ⟨S10000x248, .f32⟩
  | .hbm, ⟨102, _⟩ => ⟨S10000x248, .f32⟩
  | .hbm, ⟨103, _⟩ => ⟨S_, .f32⟩
  | .hbm, ⟨104, _⟩ => ⟨S10000, .f32⟩
  | .hbm, ⟨105, _⟩ => ⟨S10000x1, .f32⟩
  | .hbm, ⟨106, _⟩ => ⟨S_, .f32⟩
  | .hbm, ⟨107, _⟩ => ⟨S10000x1, .f32⟩
  | .hbm, ⟨108, _⟩ => ⟨S10000x1, .f32⟩
  | .hbm, ⟨109, _⟩ => ⟨S_, .f32⟩
  | .hbm, ⟨110, _⟩ => ⟨S10000x1, .f32⟩
  | .hbm, ⟨111, _⟩ => ⟨S10000x1, .f32⟩
  | .hbm, ⟨112, _⟩ => ⟨S10000x1, .f32⟩
  | .hbm, ⟨113, _⟩ => ⟨S10000x248, .f32⟩
  | .hbm, ⟨114, _⟩ => ⟨S10000x248, .f32⟩
  | .hbm, ⟨115, _⟩ => ⟨S1x248, .f32⟩
  | .hbm, ⟨116, _⟩ => ⟨S10000x248, .f32⟩
  | .hbm, ⟨117, _⟩ => ⟨S10000x248, .f32⟩
  | .hbm, ⟨118, _⟩ => ⟨S1x248, .f32⟩
  | .hbm, ⟨119, _⟩ => ⟨S10000x248, .f32⟩
  | .hbm, ⟨120, _⟩ => ⟨S10000x248, .f32⟩
  | _, _ => ⟨S10000x248, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_1 : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst : Ref sig .tc := ⟨.hbm, 59, rfl⟩
abbrev main_v38 : Ref sig .tc := ⟨.hbm, 60, rfl⟩
abbrev main_c_7 : Ref sig .tc := ⟨.hbm, 61, rfl⟩
abbrev main_v39 : Ref sig .tc := ⟨.hbm, 62, rfl⟩
abbrev main_v40 : Ref sig .tc := ⟨.hbm, 63, rfl⟩
abbrev main_c_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_call0_v0 : Ref sig .tc := ⟨.hbm, 79, rfl⟩
abbrev main_call0_v1 : Ref sig .tc := ⟨.hbm, 80, rfl⟩
abbrev main_call0_cst : Ref sig .tc := ⟨.hbm, 81, rfl⟩
abbrev main_call0_v2 : Ref sig .tc := ⟨.hbm, 82, rfl⟩
abbrev main_call0_v3 : Ref sig .tc := ⟨.hbm, 83, rfl⟩
abbrev main_call0_cst_0 : Ref sig .tc := ⟨.hbm, 84, rfl⟩
abbrev main_call0_v4 : Ref sig .tc := ⟨.hbm, 85, rfl⟩
abbrev main_call0_v5 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_10 : Ref sig .tc := ⟨.hbm, 94, rfl⟩
abbrev main_v61 : Ref sig .tc := ⟨.hbm, 95, rfl⟩
abbrev main_v62 : Ref sig .tc := ⟨.hbm, 96, rfl⟩
abbrev main_cst_11 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_12 : Ref sig .tc := ⟨.hbm, 103, rfl⟩
abbrev main_v68 : Ref sig .tc := ⟨.hbm, 104, rfl⟩
abbrev main_v69 : Ref sig .tc := ⟨.hbm, 105, rfl⟩
abbrev main_cst_13 : Ref sig .tc := ⟨.hbm, 106, rfl⟩
abbrev main_v70 : Ref sig .tc := ⟨.hbm, 107, rfl⟩
abbrev main_v71 : Ref sig .tc := ⟨.hbm, 108, rfl⟩
abbrev main_cst_14 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩

abbrev nD : Nat := 1
abbrev τ : Topo := Topo.v7x

variable {F : FTy → Type} [FloatOps F]

class Facts₀ : Prop where
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S_S100000 : S_.BroadcastsInDim S100000 (![] : Fin 0 → Fin S100000.rank)
  bcast_S100000_S100000x1_0 : S100000.BroadcastsInDim S100000x1 (![0] : Fin 1 → Fin S100000x1.rank)
  transposes_S248x248_S248x248_1_0 : S248x248.Transposes [1, 0] S248x248
  bcast_S_S2480 : S_.BroadcastsInDim S2480 (![] : Fin 0 → Fin S2480.rank)
  bcast_S2480_S2480x1_0 : S2480.BroadcastsInDim S2480x1 (![0] : Fin 1 → Fin S2480x1.rank)
  bcast_S2480_S1x2480_1 : S2480.BroadcastsInDim S1x2480 (![1] : Fin 1 → Fin S1x2480.rank)
  bcast_S1x2480_S100000x2480_0_1 : S1x2480.BroadcastsInDim S100000x2480 (![0, 1] : Fin 2 → Fin S100000x2480.rank)
  bcast_S_S100000x248 : S_.BroadcastsInDim S100000x248 (![] : Fin 0 → Fin S100000x248.rank)
  bcast_S_S10000x248 : S_.BroadcastsInDim S10000x248 (![] : Fin 0 → Fin S10000x248.rank)
  transposes_S512x248_S248x512_1_0 : S512x248.Transposes [1, 0] S248x512
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  transposes_S248x512_S512x248_1_0 : S248x512.Transposes [1, 0] S512x248
  bcast_S248_S1x248_1 : S248.BroadcastsInDim S1x248 (![1] : Fin 1 → Fin S1x248.rank)
  bcast_S1x248_S10000x248_0_1 : S1x248.BroadcastsInDim S10000x248 (![0, 1] : Fin 2 → Fin S10000x248.rank)
  reducesTo_S10000x248_S10000_d1 : S10000x248.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x248_0_1 : S10000x1.BroadcastsInDim S10000x248 (![0, 1] : Fin 2 → Fin S10000x248.rank)
  gather_S10000x248_S100000x1_S100000x248_1_0_n_n_0_1_1248_wf : GatherDims.WF S10000x248 S100000x1 S100000x248 [1] [0] [] [0] [] 1 ![1, 248]
  dot_S100000x248_S248x248_S100000x248_1_0_0_1_n_n_wf : DotDims.WF S100000x248 S248x248 S100000x248 [1] [0] [0] [1] [] []
  gather_S100000x248_S2480x1_S100000x2480_0_1_n_n_1_1_1000001_wf : GatherDims.WF S100000x248 S2480x1 S100000x2480 [0] [1] [] [1] [] 1 ![100000, 1]
  scatter_S100000x248_S2480x1_S100000x2480_0_1_1_1_wf : ScatterDims.WF S100000x248 S2480x1 S100000x2480 [0] [1] [1] 1
  scatter_S10000x248_S100000x1_S100000x248_1_0_0_1_wf : ScatterDims.WF S10000x248 S100000x1 S100000x248 [1] [0] [0] 1
  dot_S10000x248_S248x512_S10000x512_1_0_0_1_n_n_wf : DotDims.WF S10000x248 S248x512 S10000x512 [1] [0] [0] [1] [] []
  dot_S10000x512_S512x248_S10000x248_1_0_0_1_n_n_wf : DotDims.WF S10000x512 S512x248 S10000x248 [1] [0] [0] [1] [] []

variable [Facts₀]

def gather_S10000x248_S100000x1_S100000x248_1_0_n_n_0_1_1248 : GatherDims S10000x248 S100000x1 S100000x248 where
  offsetDims := [1]
  collapsedSliceDims := [0]
  operandBatchingDims := []
  startIndicesBatchingDims := []
  startIndexMap := [0]
  indexVectorDim := 1
  sliceSizes := ![1, 248]
  wf := gather_S10000x248_S100000x1_S100000x248_1_0_n_n_0_1_1248_wf
def dot_S100000x248_S248x248_S100000x248_1_0_0_1_n_n : DotDims S100000x248 S248x248 S100000x248 where
  lhsContracting := [1]
  rhsContracting := [0]
  lhsNonContracting := [0]
  rhsNonContracting := [1]
  lhsBatch := []
  rhsBatch := []
  wf := dot_S100000x248_S248x248_S100000x248_1_0_0_1_n_n_wf
def gather_S100000x248_S2480x1_S100000x2480_0_1_n_n_1_1_1000001 : GatherDims S100000x248 S2480x1 S100000x2480 where
  offsetDims := [0]
  collapsedSliceDims := [1]
  operandBatchingDims := []
  startIndicesBatchingDims := []
  startIndexMap := [1]
  indexVectorDim := 1
  sliceSizes := ![100000, 1]
  wf := gather_S100000x248_S2480x1_S100000x2480_0_1_n_n_1_1_1000001_wf
def scatter_S100000x248_S2480x1_S100000x2480_0_1_1_1 : ScatterDims S100000x248 S2480x1 S100000x2480 where
  updateWindowDims := [0]
  insertedWindowDims := [1]
  scatterDimsToOperandDims := [1]
  indexVectorDim := 1
  wf := scatter_S100000x248_S2480x1_S100000x2480_0_1_1_1_wf
def scatter_S10000x248_S100000x1_S100000x248_1_0_0_1 : ScatterDims S10000x248 S100000x1 S100000x248 where
  updateWindowDims := [1]
  insertedWindowDims := [0]
  scatterDimsToOperandDims := [0]
  indexVectorDim := 1
  wf := scatter_S10000x248_S100000x1_S100000x248_1_0_0_1_wf
def dot_S10000x248_S248x512_S10000x512_1_0_0_1_n_n : DotDims S10000x248 S248x512 S10000x512 where
  lhsContracting := [1]
  rhsContracting := [0]
  lhsNonContracting := [0]
  rhsNonContracting := [1]
  lhsBatch := []
  rhsBatch := []
  wf := dot_S10000x248_S248x512_S10000x512_1_0_0_1_n_n_wf
def dot_S10000x512_S512x248_S10000x248_1_0_0_1_n_n : DotDims S10000x512 S512x248 S10000x248 where
  lhsContracting := [1]
  rhsContracting := [0]
  lhsNonContracting := [0]
  rhsNonContracting := [1]
  lhsBatch := []
  rhsBatch := []
  wf := dot_S10000x512_S512x248_S10000x248_1_0_0_1_n_n_wf

class Facts : Prop extends Facts₀ where

variable [Facts]
-- ==== Proof.KR0Body.lean ====
import proofs.«425772_j3977139716372_1_alg».proof.Proof.Gen.Kernel.Launch
import proofs.«425772_j3977139716372_1_alg».proof.Proof.Gen.Kernel.Skeleton
import proofs.«425772_j3977139716372_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Tactic

/-!
# Region 0 of @main: the body of the first pallas_call, point by point

The grid is 50 × 10; the second coordinate `k` is the reduction axis. At `k = 0` the body zeroes the
f32 accumulator (scratch `arg9`) and fills the bf16 scratch `arg10` with the product of windows 0 and 2;
at every point it adds to the accumulator the contribution `k0_pay3` of the point's blocks; at `k = 9`
it copies the accumulator to the output window's staging buffer, which is written back there and idle
elsewhere. This module states what the three buffers hold after each point, the proof data of the
pipeline over an arbitrary valuation `V` of the TensorCore's buffers at region entry, and the body
obligation.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditionals, in closed form over the grid -/

/-- The first conditional's condition (`k = 0`), from the grid coordinates. -/
abbrev cond1 (i : grid0.Coords) : Prop :=
  (Scalar.cmpi .ne (Scalar.extui (Scalar.cmpi .eq (BitVec.ofNat 32 (i 1).val) 0#32)) 0#32) = 1#1
/-- It holds exactly at the points with `k = 0`. -/
theorem hcond1 : ∀ t : Fin cfg0.N, cond1 (grid0.coords t) ↔ t.val % 10 = 0 :=
  (by decide +kernel : ∀ t : Fin grid0.N, cond1 (grid0.coords t) ↔ t.val % 10 = 0)

/-- The second conditional's condition (`k = 9`). -/
abbrev cond2 (i : grid0.Coords) : Prop := k0_cond2 i = 1#1
/-- It holds exactly at the points with `k = 9`. -/
theorem hcond2 : ∀ t : Fin cfg0.N, cond2 (grid0.coords t) ↔ t.val % 10 = 9 :=
  (by decide +kernel : ∀ t : Fin grid0.N, cond2 (grid0.coords t) ↔ t.val % 10 = 9)

/-- The output window is idle exactly off `k = 9`, and is not written back there. -/
theorem idle0_6 : ∀ t : Fin cfg0.N, ¬t.val % 10 = 9 → cfg0.idle 6 (grid0.coords t) = true := by decide +kernel
theorem live0_6 : ∀ t : Fin cfg0.N, t.val % 10 = 9 → cfg0.idle 6 (grid0.coords t) = false := by decide +kernel
theorem noFlush0_6 : ∀ t : Fin cfg0.N, ¬t.val % 10 = 9 → (cfg0.win 6).flush t = false := by decide +kernel

/-! ## Loads and stores through a whole buffer -/

/-- The zero offsets of a rank-2 rectangle, as the body spells them. -/
theorem zeros2 : (![0, 0] : Fin 2 → ℕ) = fun _ => 0 := by
  funext a; fin_cases a <;> rfl

/-- A load of a whole buffer that reads `X`, through the whole-shape rectangle at zero offsets, is `X`. -/
theorem load_whole {S : Shape} {e : EltTy} {m : Memref sig .tc .vmem S e} (h : m.IsWhole)
    {off : Fin S.rank → ℕ} (hz : off = fun _ => 0) (inb : ∀ a, off a + S.size a ≤ S.size a) (X : S.Idx → Elt F e) :
    View.readAt (Elt F) m.view (Rect.unit off S.size inb).toLoadRect (h.unread X) = X := by
  rw [View.readAt_eq_ld, h.read_unread, View.ld_unit_zero hz]

/-- After a store through the whole-shape rectangle at zero offsets, whatever was stored before, the buffer reads the payload. -/
theorem read_store_whole {S : Shape} {e : EltTy} (v : View sig .tc .vmem S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero hz inb y⟩),
    View.canon_cons_unit_zero hz]

/-! ## The body on any whole memrefs, one run per control case

Each run holds the six input buffers at contents `x0 … x5`, the output buffer at `xo`, the accumulator at `s9`
and the bf16 scratch at `s10`, and hands the continuation the inputs as they were and the three others at what
the case's stores leave, named through the payloads. -/

set_option maxHeartbeats 1000000 in
/-- `k = 0`: both scratch buffers are refilled (what they held is not read), the output buffer is left as found. -/
theorem run_first (c : Dev nD) (i : grid0.Coords)
    (a2 : Memref sig .tc .vmem S2000x248 .bf16) (h2 : a2.IsWhole) (a3 : Memref sig .tc .vmem S2000x248 .bf16) (h3 : a3.IsWhole)
    (a4 : Memref sig .tc .vmem S248x248 .bf16) (h4 : a4.IsWhole) (a5 : Memref sig .tc .vmem S248x256 .bf16) (h5 : a5.IsWhole)
    (a6 : Memref sig .tc .vmem S248x256 .bf16) (h6 : a6.IsWhole) (a7 : Memref sig .tc .vmem S256x248 .bf16) (h7 : a7.IsWhole)
    (a8 : Memref sig .tc .vmem S2000x248 .f32) (h8 : a8.IsWhole) (a9 : Memref sig .tc .vmem S2000x248 .f32) (h9 : a9.IsWhole)
    (a10 : Memref sig .tc .vmem S2000x248 .bf16) (h10 : a10.IsWhole)
    (hc1 : cond1 i) (hc2 : ¬cond2 i)
    (x0 x1 : Vec F S2000x248 .bf16) (x2 : Vec F S248x248 .bf16) (x3 x4 : Vec F S248x256 .bf16) (x5 : Vec F S256x248 .bf16)
    (xo s9 : Vec F S2000x248 .f32) (s10 : Vec F S2000x248 .bf16) (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare x5
        ∗ owns (c : Thread nD τ) a8 fullShare xo ∗ owns (c : Thread nD τ) a9 fullShare s9 ∗ owns (c : Thread nD τ) a10 fullShare s10
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare x5
            ∗ owns (c : Thread nD τ) a8 fullShare (xo) ∗ owns (c : Thread nD τ) a9 fullShare (k0_pay3 (k0_pay2 x0 x2) x3 x1 x4 x5 k0_pay1)
            ∗ owns (c : Thread nD τ) a10 fullShare (k0_pay2 x0 x2)) -∗ K ⟨⟩))
      ⊢ wp frame (wpE (defs₀ (F := F)) Variants.none c none) E
          (cc0__kernelA i a2 h2 a3 h3 a4 h4 a5 h5 a6 h6 a7 h7 a8 h8 a9 h9 a10 h10) K := by
  simp only [cc0__kernelA_eq_skeleton]; unfold cc0__kernelA_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo, %hfo, HO⟩, ⟨%g9, %hg9, HS9⟩, ⟨%g10, %hg10, HS10⟩, Hk⟩
  obtain rfl := h2.eq_unread hf0; obtain rfl := h3.eq_unread hf1; obtain rfl := h4.eq_unread hf2
  obtain rfl := h5.eq_unread hf3; obtain rfl := h6.eq_unread hf4; obtain rfl := h7.eq_unread hf5
  obtain rfl := h8.eq_unread hfo; obtain rfl := h9.eq_unread hg9; obtain rfl := h10.eq_unread hg10
  sl_exec (disch := first | exact hc1 | exact hc2)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; · ipureintro; exact h7.read_unread _
    iexact H5
  isplitl [HO]
  · iexists _; isplitr; · ipureintro; exact h8.read_unread _
    iexact HO
  isplitl [HS9]
  · iexists _; isplitr
    swap; · iexact HS9
    ipureintro
    sl_unfold_run_names
    rw [read_store_whole _ _ zeros2, View.readCov_unit_zero _ zeros2, View.readCov_unit_zero _ zeros2, load_whole h2 zeros2,
      load_whole h4 zeros2, load_whole h5 zeros2, load_whole h3 zeros2, load_whole h6 zeros2, load_whole h7 zeros2]
  iexists _; isplitr
  swap; · iexact HS10
  ipureintro
  sl_unfold_run_names
  rw [read_store_whole _ _ zeros2, load_whole h2 zeros2, load_whole h4 zeros2]

set_option maxHeartbeats 1000000 in
/-- `0 < k < 9`: the accumulator grows, the bf16 scratch and the output buffer are left as found. -/
theorem run_mid (c : Dev nD) (i : grid0.Coords)
    (a2 : Memref sig .tc .vmem S2000x248 .bf16) (h2 : a2.IsWhole) (a3 : Memref sig .tc .vmem S2000x248 .bf16) (h3 : a3.IsWhole)
    (a4 : Memref sig .tc .vmem S248x248 .bf16) (h4 : a4.IsWhole) (a5 : Memref sig .tc .vmem S248x256 .bf16) (h5 : a5.IsWhole)
    (a6 : Memref sig .tc .vmem S248x256 .bf16) (h6 : a6.IsWhole) (a7 : Memref sig .tc .vmem S256x248 .bf16) (h7 : a7.IsWhole)
    (a8 : Memref sig .tc .vmem S2000x248 .f32) (h8 : a8.IsWhole) (a9 : Memref sig .tc .vmem S2000x248 .f32) (h9 : a9.IsWhole)
    (a10 : Memref sig .tc .vmem S2000x248 .bf16) (h10 : a10.IsWhole)
    (hc1 : ¬cond1 i) (hc2 : ¬cond2 i)
    (x0 x1 : Vec F S2000x248 .bf16) (x2 : Vec F S248x248 .bf16) (x3 x4 : Vec F S248x256 .bf16) (x5 : Vec F S256x248 .bf16)
    (xo s9 : Vec F S2000x248 .f32) (s10 : Vec F S2000x248 .bf16) (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare x5
        ∗ owns (c : Thread nD τ) a8 fullShare xo ∗ owns (c : Thread nD τ) a9 fullShare s9 ∗ owns (c : Thread nD τ) a10 fullShare s10
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare x5
            ∗ owns (c : Thread nD τ) a8 fullShare (xo) ∗ owns (c : Thread nD τ) a9 fullShare (k0_pay3 s10 x3 x1 x4 x5 s9)
            ∗ owns (c : Thread nD τ) a10 fullShare (s10)) -∗ K ⟨⟩))
      ⊢ wp frame (wpE (defs₀ (F := F)) Variants.none c none) E
          (cc0__kernelA i a2 h2 a3 h3 a4 h4 a5 h5 a6 h6 a7 h7 a8 h8 a9 h9 a10 h10) K := by
  simp only [cc0__kernelA_eq_skeleton]; unfold cc0__kernelA_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo, %hfo, HO⟩, ⟨%g9, %hg9, HS9⟩, ⟨%g10, %hg10, HS10⟩, Hk⟩
  obtain rfl := h2.eq_unread hf0; obtain rfl := h3.eq_unread hf1; obtain rfl := h4.eq_unread hf2
  obtain rfl := h5.eq_unread hf3; obtain rfl := h6.eq_unread hf4; obtain rfl := h7.eq_unread hf5
  obtain rfl := h8.eq_unread hfo; obtain rfl := h9.eq_unread hg9; obtain rfl := h10.eq_unread hg10
  sl_exec (disch := first | exact hc1 | exact hc2)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; · ipureintro; exact h7.read_unread _
    iexact H5
  isplitl [HO]
  · iexists _; isplitr; · ipureintro; exact h8.read_unread _
    iexact HO
  isplitl [HS9]
  · iexists _; isplitr
    swap; · iexact HS9
    ipureintro
    rw [read_store_whole _ _ zeros2, load_whole h10 zeros2, load_whole h5 zeros2, load_whole h3 zeros2, load_whole h6 zeros2,
      load_whole h7 zeros2, load_whole h9 zeros2]
  iexists _; isplitr; · ipureintro; exact h10.read_unread _
  iexact HS10

set_option maxHeartbeats 1000000 in
/-- `k = 9`: the accumulator grows and is copied to the output buffer, whatever that held. -/
theorem run_last (c : Dev nD) (i : grid0.Coords)
    (a2 : Memref sig .tc .vmem S2000x248 .bf16) (h2 : a2.IsWhole) (a3 : Memref sig .tc .vmem S2000x248 .bf16) (h3 : a3.IsWhole)
    (a4 : Memref sig .tc .vmem S248x248 .bf16) (h4 : a4.IsWhole) (a5 : Memref sig .tc .vmem S248x256 .bf16) (h5 : a5.IsWhole)
    (a6 : Memref sig .tc .vmem S248x256 .bf16) (h6 : a6.IsWhole) (a7 : Memref sig .tc .vmem S256x248 .bf16) (h7 : a7.IsWhole)
    (a8 : Memref sig .tc .vmem S2000x248 .f32) (h8 : a8.IsWhole) (a9 : Memref sig .tc .vmem S2000x248 .f32) (h9 : a9.IsWhole)
    (a10 : Memref sig .tc .vmem S2000x248 .bf16) (h10 : a10.IsWhole)
    (hc1 : ¬cond1 i) (hc2 : cond2 i)
    (x0 x1 : Vec F S2000x248 .bf16) (x2 : Vec F S248x248 .bf16) (x3 x4 : Vec F S248x256 .bf16) (x5 : Vec F S256x248 .bf16)
    (xo s9 : Vec F S2000x248 .f32) (s10 : Vec F S2000x248 .bf16) (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare x5
        ∗ owns (c : Thread nD τ) a8 fullShare xo ∗ owns (c : Thread nD τ) a9 fullShare s9 ∗ owns (c : Thread nD τ) a10 fullShare s10
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare x5
            ∗ owns (c : Thread nD τ) a8 fullShare (k0_pay3 s10 x3 x1 x4 x5 s9) ∗ owns (c : Thread nD τ) a9 fullShare (k0_pay3 s10 x3 x1 x4 x5 s9)
            ∗ owns (c : Thread nD τ) a10 fullShare (s10)) -∗ K ⟨⟩))
      ⊢ wp frame (wpE (defs₀ (F := F)) Variants.none c none) E
          (cc0__kernelA i a2 h2 a3 h3 a4 h4 a5 h5 a6 h6 a7 h7 a8 h8 a9 h9 a10 h10) K := by
  simp only [cc0__kernelA_eq_skeleton]; unfold cc0__kernelA_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo, %hfo, HO⟩, ⟨%g9, %hg9, HS9⟩, ⟨%g10, %hg10, HS10⟩, Hk⟩
  obtain rfl := h2.eq_unread hf0; obtain rfl := h3.eq_unread hf1; obtain rfl := h4.eq_unread hf2
  obtain rfl := h5.eq_unread hf3; obtain rfl := h6.eq_unread hf4; obtain rfl := h7.eq_unread hf5
  obtain rfl := h8.eq_unread hfo; obtain rfl := h9.eq_unread hg9; obtain rfl := h10.eq_unread hg10
  sl_exec (disch := first | exact hc1 | exact hc2)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; · ipureintro; exact h7.read_unread _
    iexact H5
  isplitl [HO]
  · iexists _; isplitr
    swap; · iexact HO
    ipureintro
    sl_unfold_run_names
    rw [read_store_whole _ _ zeros2, View.readCov_unit_zero _ zeros2, load_whole h10 zeros2, load_whole h5 zeros2,
      load_whole h3 zeros2, load_whole h6 zeros2, load_whole h7 zeros2, load_whole h9 zeros2]
  isplitl [HS9]
  · iexists _; isplitr
    swap; · iexact HS9
    ipureintro
    sl_unfold_run_names
    rw [read_store_whole _ _ zeros2, load_whole h10 zeros2, load_whole h5 zeros2, load_whole h3 zeros2, load_whole h6 zeros2,
      load_whole h7 zeros2, load_whole h9 zeros2]
  iexists _; isplitr; · ipureintro; exact h10.read_unread _
  iexact HS10

/-! ## The windows' blocks -/

/-- Window `w`'s block at point `t`, read off its array as the region finds it (`V`). -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The six input blocks at point `t`, each at its literal type. -/
abbrev B0 (c : Dev nD) (t : Fin cfg0.N) : Vec F S2000x248 .bf16 := iblk0 V c 0 t
abbrev B1 (c : Dev nD) (t : Fin cfg0.N) : Vec F S2000x248 .bf16 := iblk0 V c 1 t
abbrev B2 (c : Dev nD) (t : Fin cfg0.N) : Vec F S248x248 .bf16 := iblk0 V c 2 t
abbrev B3 (c : Dev nD) (t : Fin cfg0.N) : Vec F S248x256 .bf16 := iblk0 V c 3 t
abbrev B4 (c : Dev nD) (t : Fin cfg0.N) : Vec F S248x256 .bf16 := iblk0 V c 4 t
abbrev B5 (c : Dev nD) (t : Fin cfg0.N) : Vec F S256x248 .bf16 := iblk0 V c 5 t

/-! ## What one point computes -/

/-- The bf16 scratch after a point with `k = 0`: the product of the point's blocks of windows 0 and 2. -/
abbrev lhs0 (c : Dev nD) (t : Fin cfg0.N) : Vec F S2000x248 .bf16 := k0_pay2 (B0 V c t) (B2 V c t)

/-- The accumulator after point `t`, from the bf16 scratch `a10` and the accumulator `a9` the point works on. -/
abbrev acc0 (c : Dev nD) (t : Fin cfg0.N) (a10 : Vec F S2000x248 .bf16) (a9 : Vec F S2000x248 .f32) : Vec F S2000x248 .f32 :=
  k0_pay3 a10 (B3 V c t) (B1 V c t) (B4 V c t) (B5 V c t) a9

/-- What point `n` leaves in (the output window's staging buffer, the accumulator `arg9`, the bf16 scratch `arg10`).
    At `k = 0` both scratch buffers are refilled and nothing of the point before is read; at the other points
    the bf16 scratch is kept and the accumulator grows. The first component is the accumulator: at `k = 9` the
    body copies it to the output buffer, and at the other points the window is idle and the component is not consulted. -/
def outsAt0 (c : Dev nD) : (n : ℕ) → n < cfg0.N → Vec F S2000x248 .f32 × Vec F S2000x248 .f32 × Vec F S2000x248 .bf16
  | 0, hn =>
    (acc0 V c ⟨0, hn⟩ (lhs0 V c ⟨0, hn⟩) k0_pay1, acc0 V c ⟨0, hn⟩ (lhs0 V c ⟨0, hn⟩) k0_pay1, lhs0 V c ⟨0, hn⟩)
  | n + 1, hn =>
    if (n + 1) % 10 = 0 then
      (acc0 V c ⟨n + 1, hn⟩ (lhs0 V c ⟨n + 1, hn⟩) k0_pay1, acc0 V c ⟨n + 1, hn⟩ (lhs0 V c ⟨n + 1, hn⟩) k0_pay1, lhs0 V c ⟨n + 1, hn⟩)
    else
      (acc0 V c ⟨n + 1, hn⟩ (outsAt0 c n (Nat.lt_of_succ_lt hn)).2.2 (outsAt0 c n (Nat.lt_of_succ_lt hn)).2.1,
       acc0 V c ⟨n + 1, hn⟩ (outsAt0 c n (Nat.lt_of_succ_lt hn)).2.2 (outsAt0 c n (Nat.lt_of_succ_lt hn)).2.1,
       (outsAt0 c n (Nat.lt_of_succ_lt hn)).2.2)

/-- The point before `t`. -/
abbrev prev0 (t : Fin cfg0.N) : ℕ := t.val - 1
theorem prev0_lt (t : Fin cfg0.N) : prev0 t < cfg0.N := Nat.lt_of_le_of_lt (Nat.sub_le _ _) t.isLt

/-- At a point with `k = 0`: the scratch buffers refilled from the point's blocks. -/
theorem outsAt0_first (c : Dev nD) (t : Fin cfg0.N) (h0 : t.val % 10 = 0) :
    outsAt0 V c t.val t.isLt
      = (acc0 V c t (lhs0 V c t) k0_pay1, acc0 V c t (lhs0 V c t) k0_pay1, lhs0 V c t) := by
  obtain ⟨n, hn⟩ := t
  cases n with
  | zero => rfl
  | succ n => exact if_pos h0

/-- At a point with `k ≠ 0`: the accumulator grown over what the point before left, the bf16 scratch kept. -/
theorem outsAt0_step (c : Dev nD) (t : Fin cfg0.N) (h0 : ¬t.val % 10 = 0) :
    outsAt0 V c t.val t.isLt
      = (acc0 V c t (outsAt0 V c (prev0 t) (prev0_lt t)).2.2 (outsAt0 V c (prev0 t) (prev0_lt t)).2.1,
         acc0 V c t (outsAt0 V c (prev0 t) (prev0_lt t)).2.2 (outsAt0 V c (prev0 t) (prev0_lt t)).2.1,
         (outsAt0 V c (prev0 t) (prev0_lt t)).2.2) := by
  obtain ⟨n, hn⟩ := t
  cases n with
  | zero => exact absurd (Nat.zero_mod _) h0
  | succ n => exact if_neg h0

/-- At a point with `0 < k < 9`. -/
theorem outsAt0_mid (c : Dev nD) (t : Fin cfg0.N) (h0 : ¬t.val % 10 = 0) (h9 : ¬t.val % 10 = 9) :
    outsAt0 V c t.val t.isLt
      = (acc0 V c t (outsAt0 V c (prev0 t) (prev0_lt t)).2.2 (outsAt0 V c (prev0 t) (prev0_lt t)).2.1,
         acc0 V c t (outsAt0 V c (prev0 t) (prev0_lt t)).2.2 (outsAt0 V c (prev0 t) (prev0_lt t)).2.1,
         (outsAt0 V c (prev0 t) (prev0_lt t)).2.2) :=
  outsAt0_step V c t h0

/-- At a point with `k = 9`: the same, and there the output buffer does hold the first component. -/
theorem outsAt0_last (c : Dev nD) (t : Fin cfg0.N) (h9 : t.val % 10 = 9) :
    outsAt0 V c t.val t.isLt
      = (acc0 V c t (outsAt0 V c (prev0 t) (prev0_lt t)).2.2 (outsAt0 V c (prev0 t) (prev0_lt t)).2.1,
         acc0 V c t (outsAt0 V c (prev0 t) (prev0_lt t)).2.2 (outsAt0 V c (prev0 t) (prev0_lt t)).2.1,
         (outsAt0 V c (prev0 t) (prev0_lt t)).2.2) :=
  outsAt0_step V c t (by omega)

/-! ## The scratch operands and the tracked invariant -/

/-- The accumulator `arg9` and the bf16 scratch `arg10`: whole scoped buffers of the kernel's own. -/
abbrev accM : Memref sig .tc .vmem S2000x248 .f32 := Memref.whole cc0_scratch0
abbrev lhsM : Memref sig .tc .vmem S2000x248 .bf16 := Memref.whole cc0_scratch1

/-- The core's other scoped buffers that this region does not stage (the second pallas_call's staging buffers),
    each whole at some contents. -/
def others0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg8_0), ((c : Thread nD τ).loc cc1_stg8_0) ↦{fullShare} f)
    ∗ (∃ f : Buf (Elt F) ((c : Thread nD τ).loc cc1_stg8_1), ((c : Thread nD τ).loc cc1_stg8_1) ↦{fullShare} f))

/-- The class's invariant, with the two scratch operands as memrefs owned at some contents. -/
theorem PhiA0_eq (c : Dev nD) :
    (Pipeline.ΦA spec0 c : sProp 𝕄)
      = iprop(iprop((∃ d, owns (c : Thread nD τ) accM fullShare d) ∗ (∃ d, owns (c : Thread nD τ) lhsM fullShare d) ∗ others0 (F := F) c)
          ∗ (∃ r, prngReg c r)) := by
  unfold Pipeline.ΦA others0; rw [scopedRest0_eq]; simp only [accM, lhsM, owns_whole]; try rfl

/-- The region invariant before position `n`: before the first point the class's (every scratch at anything);
    afterwards the two scratch operands at what the point before left in them, the other scoped buffers at
    anything, the generator register at some state. -/
def Phi0 (c : Dev nD) : (n : ℕ) → n ≤ cfg0.N → sProp 𝕄
  | 0, _ => Pipeline.ΦA spec0 c
  | n + 1, hn =>
    iprop(iprop(owns (c : Thread nD τ) accM fullShare (outsAt0 V c n hn).2.1
        ∗ owns (c : Thread nD τ) lhsM fullShare (outsAt0 V c n hn).2.2 ∗ others0 (F := F) c)
      ∗ (∃ r, prngReg c r))

theorem Phi0_zero (c : Dev nD) (n : ℕ) (h : n ≤ cfg0.N) (hz : n = 0) : Phi0 V c n h = Pipeline.ΦA spec0 c := by
  subst hz; rfl

/-- After point `n` (before point `n + 1`): the scratch operands at that point's contents. -/
theorem Phi0_succ (c : Dev nD) (n : ℕ) (hn : n < cfg0.N) :
    Phi0 V c (n + 1) hn
      = iprop(iprop(owns (c : Thread nD τ) accM fullShare (outsAt0 V c n hn).2.1
          ∗ owns (c : Thread nD τ) lhsM fullShare (outsAt0 V c n hn).2.2 ∗ others0 (F := F) c)
        ∗ (∃ r, prngReg c r)) := rfl

/-- Before a point that is not the first: the scratch operands at what the point before left. -/
theorem Phi0_pos (c : Dev nD) (n : ℕ) (h : n ≤ cfg0.N) (hz : n ≠ 0) :
    Phi0 V c n h
      = iprop(iprop(owns (c : Thread nD τ) accM fullShare (outsAt0 V c (n - 1) (by omega)).2.1
          ∗ owns (c : Thread nD τ) lhsM fullShare (outsAt0 V c (n - 1) (by omega)).2.2 ∗ others0 (F := F) c)
        ∗ (∃ r, prngReg c r)) := by
  cases n with
  | zero => exact absurd rfl hz
  | succ n => rfl

/-- At any position the invariant gives the class's back: the scratch operands' named contents are forgotten. -/
theorem Phi0_forget (c : Dev nD) (n : ℕ) (h : n ≤ cfg0.N) :
    Phi0 V c n h
      ⊢ iprop(iprop((∃ d, owns (c : Thread nD τ) accM fullShare d) ∗ (∃ d, owns (c : Thread nD τ) lhsM fullShare d) ∗ others0 (F := F) c)
          ∗ (∃ r, prngReg c r)) := by
  cases n with
  | zero => rw [Phi0_zero V c 0 h rfl, PhiA0_eq]
  | succ n =>
    rw [Phi0_succ]
    iintro ⟨⟨HS9, HS10, Hoth⟩, Hg⟩
    isplitl [HS9 HS10 Hoth]
    · isplitl [HS9]; · iexists _; iexact HS9
      isplitl [HS10]; · iexists _; iexact HS10
      iexact Hoth
    iexact Hg

/-! ## The pipeline's proof data -/

/-- The proof data of the pipeline on core `c`: the arrays as the region finds them; after the body at point `t`
    each input's buffer at its block and the output's at `outsAt0`'s first component; the tracked invariant;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := Phi0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]

/-- The invariant at a position, restated at its number. -/
theorem Phi0_eq (c : Dev nD) (t : Fin (cfg0.N + 1)) : (dat0 V c).Φ t = Phi0 V c t.val (Nat.le_of_lt_succ t.isLt) := by
  dsimp only [dat0]

/-- The invariant at a point's start, restated at the point's number. -/
theorem Phi0_castSucc (c : Dev nD) (t : Fin cfg0.N) :
    (dat0 V c).Φ t.castSucc = Phi0 V c t.val (Nat.le_of_lt t.isLt) := by
  dsimp only [dat0]; simp only [Fin.coe_castSucc]

/-- Each input's current staging buffer holds its block at every point, fetched there or not: unfetched, the block
    index has not moved and the body left the block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

/-! ## The body obligation -/

/-- Each window's current staging memref at point `t`, spelled as the pipeline passes it. -/
abbrev sm0 (t : Fin cfg0.N) : Memref sig .tc .vmem S2000x248 .bf16 := win0_0.stage (cfg0.slots t 0)
abbrev sm1 (t : Fin cfg0.N) : Memref sig .tc .vmem S2000x248 .bf16 := win0_1.stage (cfg0.slots t 1)
abbrev sm2 (t : Fin cfg0.N) : Memref sig .tc .vmem S248x248 .bf16 := win0_2.stage (cfg0.slots t 2)
abbrev sm3 (t : Fin cfg0.N) : Memref sig .tc .vmem S248x256 .bf16 := win0_3.stage (cfg0.slots t 3)
abbrev sm4 (t : Fin cfg0.N) : Memref sig .tc .vmem S248x256 .bf16 := win0_4.stage (cfg0.slots t 4)
abbrev sm5 (t : Fin cfg0.N) : Memref sig .tc .vmem S256x248 .bf16 := win0_5.stage (cfg0.slots t 5)
abbrev sm6 (t : Fin cfg0.N) : Memref sig .tc .vmem S2000x248 .f32 := win0_6.stage (cfg0.slots t 6)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (sm0 t) fullShare ((dat0 V c).before 0 t d))
    ∗ (∃ d, owns (c : Thread nD τ) (sm1 t) fullShare ((dat0 V c).before 1 t d))
    ∗ (∃ d, owns (c : Thread nD τ) (sm2 t) fullShare ((dat0 V c).before 2 t d))
    ∗ (∃ d, owns (c : Thread nD τ) (sm3 t) fullShare ((dat0 V c).before 3 t d))
    ∗ (∃ d, owns (c : Thread nD τ) (sm4 t) fullShare ((dat0 V c).before 4 t d))
    ∗ (∃ d, owns (c : Thread nD τ) (sm5 t) fullShare ((dat0 V c).before 5 t d))
    ∗ (∃ d, owns (c : Thread nD τ) (sm6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t
    ∗ (dat0 V c).leavesExact 6 t)

/-- An input window is never idle: the body leaves its buffer at the block. -/
theorem leaves0_0 (c : Dev nD) (t : Fin cfg0.N) :
    (dat0 V c).leavesExact 0 t = owns (c : Thread nD τ) (sm0 t) fullShare (B0 V c t) := by
  unfold Dat.leavesExact; rw [show cfg0.idle 0 (grid0.coords t) = false from rfl, after0_0]
theorem leaves0_1 (c : Dev nD) (t : Fin cfg0.N) :
    (dat0 V c).leavesExact 1 t = owns (c : Thread nD τ) (sm1 t) fullShare (B1 V c t) := by
  unfold Dat.leavesExact; rw [show cfg0.idle 1 (grid0.coords t) = false from rfl, after0_1]
theorem leaves0_2 (c : Dev nD) (t : Fin cfg0.N) :
    (dat0 V c).leavesExact 2 t = owns (c : Thread nD τ) (sm2 t) fullShare (B2 V c t) := by
  unfold Dat.leavesExact; rw [show cfg0.idle 2 (grid0.coords t) = false from rfl, after0_2]
theorem leaves0_3 (c : Dev nD) (t : Fin cfg0.N) :
    (dat0 V c).leavesExact 3 t = owns (c : Thread nD τ) (sm3 t) fullShare (B3 V c t) := by
  unfold Dat.leavesExact; rw [show cfg0.idle 3 (grid0.coords t) = false from rfl, after0_3]
theorem leaves0_4 (c : Dev nD) (t : Fin cfg0.N) :
    (dat0 V c).leavesExact 4 t = owns (c : Thread nD τ) (sm4 t) fullShare (B4 V c t) := by
  unfold Dat.leavesExact; rw [show cfg0.idle 4 (grid0.coords t) = false from rfl, after0_4]
theorem leaves0_5 (c : Dev nD) (t : Fin cfg0.N) :
    (dat0 V c).leavesExact 5 t = owns (c : Thread nD τ) (sm5 t) fullShare (B5 V c t) := by
  unfold Dat.leavesExact; rw [show cfg0.idle 5 (grid0.coords t) = false from rfl, after0_5]

/-- At `k = 9` the output window is live: the body leaves its buffer at the accumulator. -/
theorem leaves0_6 (c : Dev nD) (t : Fin cfg0.N) (h9 : t.val % 10 = 9) :
    (dat0 V c).leavesExact 6 t = owns (c : Thread nD τ) (sm6 t) fullShare (outsAt0 V c t.val t.isLt).1 := by
  unfold Dat.leavesExact; rw [live0_6 t h9, after0_6]

set_option maxHeartbeats 4800000 in
/-- The body at any point: the inputs' buffers hold their blocks; the closed forms say which case the point is in;
    the invariant hands the body the two scratch operands (at anything where `k = 0`, where they are refilled; else
    at what the point before left) and takes them back at this point's contents; the output window's buffer comes
    back as found off `k = 9` and at the accumulator there; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = Phi0 V c (t.val + 1) t.isLt from rfl, Phi0_succ, Phi0_castSucc V c t]
  rw [leaves0_0, leaves0_1, leaves0_2, leaves0_3, leaves0_4, leaves0_5]
  by_cases h0 : t.val % 10 = 0
  · have h9 : ¬t.val % 10 = 9 := by omega
    rw [Dat.leavesExact_idle (dat0 V c) 6 t (idle0_6 t h9) (noFlush0_6 t h9)]
    rw [outsAt0_first V c t h0]
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := (Phi0_forget V c t.val _) $$ HΦ
    icases HΦ' with ⟨⟨⟨%e9, HS9⟩, ⟨%e10, HS10⟩, Hoth⟩, Hg⟩
    iapply (run_first c (grid0.coords t) _ _ _ _ _ _ _ _ _ _ _ _ _ _ _ _ _ _ ((hcond1 t).mpr h0) (fun h => h9 ((hcond2 t).mp h))
      (B0 V c t) (B1 V c t) (B2 V c t) (B3 V c t) (B4 V c t) (B5 V c t) _ e9 e10 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS9]; · iexact HS9
    isplitl [HS10]; · iexact HS10
    iintro ⟨H0, H1, H2, H3, H4, H5, H6, HS9, HS10⟩
    isplitl [HS9 HS10 Hoth Hg]
    · isplitl [HS9 HS10 Hoth]
      · isplitl [HS9]; · iexact HS9
        isplitl [HS10]; · iexact HS10
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hz : t.val ≠ 0 := fun e => h0 (by rw [e])
    rw [Phi0_pos V c _ _ hz]
    by_cases h9 : t.val % 10 = 9
    · rw [leaves0_6 V c t h9]
      rw [outsAt0_last V c t h9]
      dsimp only
      iintro ⟨⟨⟨HS9, HS10, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply (run_last c (grid0.coords t) _ _ _ _ _ _ _ _ _ _ _ _ _ _ _ _ _ _ (fun h => h0 ((hcond1 t).mp h)) ((hcond2 t).mpr h9)
        (B0 V c t) (B1 V c t) (B2 V c t) (B3 V c t) (B4 V c t) (B5 V c t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS9]; · iexact HS9
      isplitl [HS10]; · iexact HS10
      iintro ⟨H0, H1, H2, H3, H4, H5, H6, HS9, HS10⟩
      isplitl [HS9 HS10 Hoth Hg]
      · isplitl [HS9 HS10 Hoth]
        · isplitl [HS9]; · iexact HS9
          isplitl [HS10]; · iexact HS10
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat0 V c) 6 t (idle0_6 t h9) (noFlush0_6 t h9)]
      rw [outsAt0_mid V c t h0 h9]
      dsimp only
      iintro ⟨⟨⟨HS9, HS10, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply (run_mid c (grid0.coords t) _ _ _ _ _ _ _ _ _ _ _ _ _ _ _ _ _ _ (fun h => h0 ((hcond1 t).mp h)) (fun h => h9 ((hcond2 t).mp h))
        (B0 V c t) (B1 V c t) (B2 V c t) (B3 V c t) (B4 V c t) (B5 V c t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS9]; · iexact HS9
      isplitl [HS10]; · iexact HS10
      iintro ⟨H0, H1, H2, H3, H4, H5, H6, HS9, HS10⟩
      isplitl [HS9 HS10 Hoth Hg]
      · isplitl [HS9 HS10 Hoth]
        · isplitl [HS9]; · iexact HS9
          isplitl [HS10]; · iexact HS10
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The entry and the exit of the invariant -/

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]

/-- After the last point the invariant gives the class's back. -/
theorem hout0 (c : Dev nD) : (dat0 V c).Φ (Fin.last cfg0.N) ⊢ Pipeline.ΦA spec0 c := by
  rw [Phi0_eq, PhiA0_eq]
  exact Phi0_forget V c _ _

end Cert.Kernel.Hand

end
-- ==== Proof.KR1Body.lean ====
import proofs.«425772_j3977139716372_1_alg».proof.Proof.Gen.Kernel.Launch
import proofs.«425772_j3977139716372_1_alg».proof.Proof.Gen.Kernel.Skeleton
import proofs.«425772_j3977139716372_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Tactic

/-!
# Region 1 of @main: the second kernel's body

The second kernel call runs over a grid of 10 points.  At each point the body reads a block of rows of
two f32 operands (windows 0 and 1, fetched at every point), the two bf16 weight matrices and the f32 bias
and scale rows (windows 2 to 7, whose block index never moves: they are fetched at the first point only and
stay in their staging buffers), and overwrites the whole of the output block (window 8, written back at every
point) with the normalised feed-forward value of those eight blocks.

Stated here at the contents `V` the TensorCore's buffers hold when the region is entered: the eight input
blocks at a point, what the body leaves in the output's buffer as a function of them, the triple of the
body, the pipeline's proof data and the obligation of the body at every point.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the body leaves in the output's buffer -/

/-- The output block from the eight input blocks: the sum of the second operand's block and the two-layer
    feed-forward of the first's, normalised row by row (`k1_pay2`, over windows 0, 2, 3, 4, 5, 1 in that order), then
    scaled by window 6's row and shifted by window 7's (`k1_pay1`). -/
def out1_8 (x0 x1 : Vec F S1000x248 .f32) (x2 : Vec F S248x512 .bf16) (x3 : Vec F S1x512 .f32)
    (x4 : Vec F S512x248 .bf16) (x5 x6 x7 : Vec F S1x248 .f32) : Vec F S1000x248 .f32 :=
  k1_pay1 (k1_pay2 x0 x2 x3 x4 x5 x1) x6 x7

/-! ## The pipeline's proof data -/

/-- The proof data of the region on core `c`: the arrays as the region finds them; after the body at point `t`
    each input's buffer still at its block and the output's at `out1_8` of the input blocks; the scoped rest and
    the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t
    = out1_8 (iblk1 V c 0 t) (iblk1 V c 1 t) (iblk1 V c 2 t) (iblk1 V c 3 t) (iblk1 V c 4 t) (iblk1 V c 5 t) (iblk1 V c 6 t) (iblk1 V c 7 t) := by
  dsimp only [dat1]

/-! ## The body's accesses: every load and the store go through the whole of a staging buffer -/

abbrev rA : Rect S1000x248 := Rect.unit (s := S1000x248) ![0, 0] S1000x248.size inb_S1000x248_S1000x248_0_0
abbrev rB : Rect S248x512 := Rect.unit (s := S248x512) ![0, 0] S248x512.size inb_S248x512_S248x512_0_0
abbrev rC : Rect S1x512 := Rect.unit (s := S1x512) ![0, 0] S1x512.size inb_S1x512_S1x512_0_0
abbrev rD : Rect S512x248 := Rect.unit (s := S512x248) ![0, 0] S512x248.size inb_S512x248_S512x248_0_0
abbrev rE : Rect S1x248 := Rect.unit (s := S1x248) ![0, 0] S1x248.size inb_S1x248_S1x248_0_0

/-- Offsets `![0, 0]` are the zero offsets. -/
theorem hz2 : (![0, 0] : Fin 2 → Nat) = fun _ => 0 := funext fun a => by fin_cases a <;> rfl

/-- The output's buffer after the body as the run leaves it: the one store's piece over the payload of the eight
    loads, each read through the whole-buffer rectangle. -/
def out1_8_pieces (x0 x1 : Vec F S1000x248 .f32) (x2 : Vec F S248x512 .bf16) (x3 : Vec F S1x512 .f32)
    (x4 : Vec F S512x248 .bf16) (x5 x6 x7 : Vec F S1x248 .f32) : Vec F S1000x248 .f32 :=
  View.canon [⟨rA, k1_pay1 (k1_pay2 (View.ld x0 rA) (View.ld x2 rB) (View.ld x3 rC) (View.ld x4 rD) (View.ld x5 rE) (View.ld x1 rA))
    (View.ld x6 rE) (View.ld x7 rE)⟩]

/-- A load through the whole-buffer rectangle reads the contents and the one store through it leaves its payload:
    the run's form is `out1_8`. -/
theorem out1_8_pieces_eq (x0 x1 : Vec F S1000x248 .f32) (x2 : Vec F S248x512 .bf16) (x3 : Vec F S1x512 .f32)
    (x4 : Vec F S512x248 .bf16) (x5 x6 x7 : Vec F S1x248 .f32) :
    out1_8_pieces x0 x1 x2 x3 x4 x5 x6 x7 = out1_8 x0 x1 x2 x3 x4 x5 x6 x7 := by
  unfold out1_8_pieces out1_8
  rw [View.canon_unit_zero (S := S1000x248) hz2 inb_S1000x248_S1000x248_0_0,
    View.ld_unit_zero (S := S1000x248) hz2 inb_S1000x248_S1000x248_0_0 x0,
    View.ld_unit_zero (S := S1000x248) hz2 inb_S1000x248_S1000x248_0_0 x1,
    View.ld_unit_zero (S := S248x512) hz2 inb_S248x512_S248x512_0_0 x2,
    View.ld_unit_zero (S := S1x512) hz2 inb_S1x512_S1x512_0_0 x3,
    View.ld_unit_zero (S := S512x248) hz2 inb_S512x248_S512x248_0_0 x4,
    View.ld_unit_zero (S := S1x248) hz2 inb_S1x248_S1x248_0_0 x5,
    View.ld_unit_zero (S := S1x248) hz2 inb_S1x248_S1x248_0_0 x6,
    View.ld_unit_zero (S := S1x248) hz2 inb_S1x248_S1x248_0_0 x7]

/-- The one store covers the output's buffer. -/
theorem cover1_8 (p0 : Vec F S1000x248 .f32) (y : S1000x248.Idx) :
    ∃ pc ∈ ([⟨rA, p0⟩] : List (View.Piece (Elt F) S1000x248 .f32)), y ∈ pc.1.set :=
  ⟨_, List.mem_singleton_self _, View.mem_set_unit_zero (S := S1000x248) hz2 inb_S1000x248_S1000x248_0_0 y⟩

/-! ## The body's triple -/

set_option maxHeartbeats 1000000 in
/-- The body on whole staging memrefs, the inputs' at contents `x0` … `x7` and the output's at anything, runs to a
    continuation holding the inputs' as they were and the output's at `out1_8` of them: its loads read the whole
    buffers, its one store covers the output's. -/
theorem sound_kernel1 (c : Dev nD) (E : Set ℕ) (i : grid1.Coords) (arg1 : Memref sig .tc .vmem S1000x248 .f32) (harg1 : arg1.IsWhole) (arg2 : Memref sig .tc .vmem S1000x248 .f32) (harg2 : arg2.IsWhole) (arg3 : Memref sig .tc .vmem S248x512 .bf16) (harg3 : arg3.IsWhole) (arg4 : Memref sig .tc .vmem S1x512 .f32) (harg4 : arg4.IsWhole) (arg5 : Memref sig .tc .vmem S512x248 .bf16) (harg5 : arg5.IsWhole) (arg6 : Memref sig .tc .vmem S1x248 .f32) (harg6 : arg6.IsWhole) (arg7 : Memref sig .tc .vmem S1x248 .f32) (harg7 : arg7.IsWhole) (arg8 : Memref sig .tc .vmem S1x248 .f32) (harg8 : arg8.IsWhole) (arg9 : Memref sig .tc .vmem S1000x248 .f32) (harg9 : arg9.IsWhole)
    (x0 : Vec F S1000x248 .f32) (x1 : Vec F S1000x248 .f32) (x2 : Vec F S248x512 .bf16) (x3 : Vec F S1x512 .f32) (x4 : Vec F S512x248 .bf16) (x5 : Vec F S1x248 .f32) (x6 : Vec F S1x248 .f32) (x7 : Vec F S1x248 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1_8 x0 x1 x2 x3 x4 x5 x6 x7)) -∗ K ⟨⟩))
      ⊢ wp frame (wpE (defs₀ (F := F)) Variants.none c none) E (cc1__kernelB i arg1 harg1 arg2 harg2 arg3 harg3 arg4 harg4 arg5 harg5 arg6 harg6 arg7 harg7 arg8 harg8 arg9 harg9) K := by
  rw [← out1_8_pieces_eq x0 x1 x2 x3 x4 x5 x6 x7]
  simp only [cc1__kernelB_eq_skeleton]; unfold cc1__kernelB_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  unfold out1_8_pieces sound_kernel1.sl.r
  exact View.read_writes_eq_canon _ _ _ (cover1_8 _)

/-! ## What each input's buffer holds when the body runs -/

/- An input window's current staging buffer holds its block at every point, fetched there or not: at a point that
   does not fetch it (windows 2 to 7 after the first point) its block index has not moved since the point before,
   where the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
      (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
      (fun t => by rw [after1_7]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxRecDepth 16384 in
set_option maxHeartbeats 1000000 in
/-- The body at any point: each input's memref holds its block, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxRecDepth 16384 in
/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
import proofs.«425772_j3977139716372_1_alg».proof.Proof.Gen.Kernel.Regions
import proofs.«425772_j3977139716372_1_alg».proof.Proof.KRunCond
import proofs.«425772_j3977139716372_1_alg».proof.Proof.KR0Body
import proofs.«425772_j3977139716372_1_alg».proof.Proof.KR1Body
import Idealize.ShloMosaic.Lib.Pipeline.RegionsLoop
import Idealize.ShloMosaic.Lib.Pipeline.FrameSuffix

/-!
# The run of the two-region program

@main is eleven host stretches, the first kernel call (region 0), one more host stretch and the second kernel
call (region 1).  Between two items a core holds every unscoped buffer whole, at the contents the generated
module names; beside them rides a rest: the core's generator register at some state, and the core owing nothing.

Here the contents the regions leave are chosen, in two steps because the second depends on the first: region 0
leaves in its output array the fold of its write-backs over what it was entered with; the host stretch after it
runs from there; region 1 is entered with what that stretch leaves and leaves in its own output array the fold
of its write-backs.  Each region is then a segment record between those thread states: at its entry the
pipeline's arrays are sorted out of the unscoped buffers and the rest bypasses the region; at its exit they are
put back at the contents the next item starts from.  The run theorem is the conditional run at these records:
every weakly fair execution terminates, the result array holds region 1's fold and every argument array is as
launched.  Nothing depends on the launch memory.
-/

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents at the regions' entries and exits -/

/-- What the TensorCore's buffers hold when region 0 is entered: the launch memory after the eleven host
    stretches before it. -/
abbrev VA : (c : Dev nD) → (b : Ref sig .tc) → Buf (Elt F) ((c : Thread nD τ).loc b) := fun c b => V11 m c b

/-- What region 0 leaves: each of its arrays at the fold of its write-backs (an input array is never written),
    every other buffer as at the entry. -/
def exit0 (c : Dev nD) : Valuation τ sig (Elt F) :=
  Pipeline.withArrays spec0 c (V11 m c) fun w => (dat0 (VA m) c).arrAt w cfg0.N

/-- The first step of the choice: what region 0 leaves, read at any reference. -/
def outsA : Outs (F := F) := fun _ r c => exit0 m c r

/-- What the TensorCore's buffers hold when region 1 is entered: region 0's exit contents after the host stretch
    between the regions. -/
abbrev VB : (c : Dev nD) → (b : Ref sig .tc) → Buf (Elt F) ((c : Thread nD τ).loc b) := fun c b => V13 m (outsA m) c b

/-- What region 1 leaves: each of its arrays at the fold of its write-backs, every other buffer as at its entry. -/
def exit1 (c : Dev nD) : Valuation τ sig (Elt F) :=
  Pipeline.withArrays spec1 c (V13 m (outsA m) c) fun w => (dat1 (VB m) c).arrAt w cfg1.N

/-- The contents the regions leave: after item 13 what region 1 leaves, before it what region 0 leaves. -/
def outsOf : Outs (F := F) := fun J r c => if J = 14 then exit1 m c r else exit0 m c r

/-- Before item 13 the choice is its first step. -/
theorem outsOf_12 (r : Ref sig .tc) (c : Dev nD) : outsOf m 12 r c = outsA m 12 r c := by
  unfold outsOf; rw [if_neg (by decide)]; rfl

/-- Region 0 leaves in its output array the fold of its write-backs. -/
theorem outsOf_main_v36 (c : Dev nD) : outsOf m 12 main_v36 c = (dat0 (VA m) c).arrAt 6 cfg0.N := by
  unfold outsOf; rw [if_neg (by decide)]
  exact Pipeline.withArrays_arr spec0 launch0.win.arr_inj c _ _ 6

/-- Region 1 leaves in its output array the fold of its write-backs. -/
theorem outsOf_main_v48 (c : Dev nD) : outsOf m 14 main_v48 c = (dat1 (VB m) c).arrAt 8 cfg1.N := by
  unfold outsOf; rw [if_pos rfl]
  exact Pipeline.withArrays_arr spec1 launch1.win.arr_inj c _ _ 8

/-- The host stretch between the regions reads the choice at region 0's output only: region 1's entry contents do
    not depend on the second step. -/
theorem V13_outsOf (c : Dev nD) : V13 m (outsOf m) c = V13 m (outsA m) c := by
  show StableHlo.after hostOps1 (Function.update (V11 m c) main_v36 (outsOf m 12 main_v36 c))
    = StableHlo.after hostOps1 (Function.update (V11 m c) main_v36 (outsA m 12 main_v36 c))
  rw [outsOf_12]

/-- After region 0 its output's buffer holds what the region is said to leave there. -/
theorem V12_main_v36 (outs : Outs (F := F)) (c : Dev nD) : V12 m outs c main_v36 = outs 12 main_v36 c := by
  simp only [Function.update_self]

/-- REGION 0's EXIT, the arrays: each holds the fold of its write-backs — the output's buffer by the choice, an
    input's buffer because nothing wrote it. -/
theorem leaves0 (c : Dev nD) (w : Fin cfg0.W) :
    (dat0 (VA m) c).arrAt w cfg0.N = V12 m (outsOf m) c (Pipeline.arrRef spec0 w) := by
  by_cases hw : w = 6
  · subst hw
    exact ((V12_main_v36 m (outsOf m) c).trans (outsOf_main_v36 m c)).symm
  · have hne : Pipeline.arrRef spec0 w ∉ ([main_v36] : List (Ref sig .tc)) := by revert w; decide
    have hin : (cfg0.win w).isOut = false := by revert w; decide
    rw [V12_of m (outsOf m) c _ hne, (dat0 (VA m) c).arrAt_in w hin, A_eq0]

/-- REGION 0's EXIT, the rest: a buffer that is no array of the region holds what it held at the entry. -/
theorem keeps0 (c : Dev nD) (b : Ref sig .tc) (hb : b ∉ Finset.univ.image (Pipeline.arrRef spec0)) :
    V12 m (outsOf m) c b = VA m c b :=
  V12_of m (outsOf m) c b fun h => hb (Finset.mem_image.mpr ⟨6, Finset.mem_univ _, (List.mem_singleton.mp h).symm⟩)

/-- REGION 1's EXIT, the arrays. -/
theorem leaves1 (c : Dev nD) (w : Fin cfg1.W) :
    (dat1 (VB m) c).arrAt w cfg1.N = V14 m (outsOf m) c (Pipeline.arrRef spec1 w) := by
  by_cases hw : w = 8
  · subst hw
    exact ((RunCond.V14_main_v48 m (outsOf m) c).trans (outsOf_main_v48 m c)).symm
  · have hne : Pipeline.arrRef spec1 w ∉ ([main_v48] : List (Ref sig .tc)) := by revert w; decide
    have hin : (cfg1.win w).isOut = false := by revert w; decide
    rw [V14_of m (outsOf m) c _ hne, V13_outsOf, (dat1 (VB m) c).arrAt_in w hin, A_eq1]

/-- REGION 1's EXIT, the rest. -/
theorem keeps1 (c : Dev nD) (b : Ref sig .tc) (hb : b ∉ Finset.univ.image (Pipeline.arrRef spec1)) :
    V14 m (outsOf m) c b = VB m c b :=
  (V14_of m (outsOf m) c b fun h => hb (Finset.mem_image.mpr ⟨8, Finset.mem_univ _, (List.mem_singleton.mp h).symm⟩)).trans
    (congrFun (V13_outsOf m c) _)

/-! ## The proof data, the levels, the rest -/

/-- Every pipeline's proof data at its region's entry contents, a literal case split on the pipeline so that the
    data at a numeral reduce to the region's own. -/
def pdats : (p : Fin 2) → (c : Dev nD) → Dat τ (Elt F) Unit ℕ (UR sig nD τ) ℕ (cfgs p) c
  | ⟨0, _⟩ => fun c => dat0 (VA m) c
  | ⟨1, _⟩ => fun c => dat1 (VB m) c

/-- No pair of semaphore and index is levelled: no core owes another anything. -/
abbrev noL : GSem nD τ sig → Finset Unit := fun _ => ∅
abbrev noLv : GSem nD τ sig → Unit → ℕ := fun _ _ => 0

/-- What rides beside the unscoped buffers between two items: the generator register at some state (a region's
    invariant takes it in and gives it back) and the core owing nothing. -/
abbrev rest (c : Dev nD) : sProp 𝕄 :=
  iprop((∃ r, prngReg c r) ∗ ∃ W, owes (c : Thread nD τ) (0 : CellTallies nD τ sig Unit) W)

/-! ## The regions as segment records -/

set_option backward.isDefEq.respectTransparency.types false in
/-- REGION 0 between the thread states before and after it.  Entry: the seven arrays out of the unscoped buffers at
    the entry contents, no table, the core owing nothing, the register towards the invariant, the other unscoped
    buffers past the region.  The invariant at the first point is the class's (the scratch buffers at some contents)
    and at the last point gives it back.  Exit: the arrays at their folds and the bypassing buffers are the unscoped
    buffers at the contents after the region. -/
def reg0 : RegionSeg (pcfgs (F := F)) adm (pdats m) () defs₀ Variants.none noL noLv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ noL noLv 0 fun _ _ => rfl
  pre c := iprop(StableHlo.held (c : Thread nD τ) (Pipeline.ucRefs τ sig) (V11 m c) ∗ rest c)
  post c := iprop(StableHlo.held (c : Thread nD τ) (Pipeline.ucRefs τ sig) (V12 m (outsOf m) c) ∗ rest c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    have harr := Pipeline.arrays_of_unscopedBufs (p := 0) (pcfgs (F := F)) adm (pdats m) launch0.win launch0.arr_whole c
      ((pdats m 0 c).share_full fun _ => rfl) (VA m c) fun w => A_eq0 (VA m) c w
    rw [Pipeline.unscopedBufs_held] at harr
    rw [Pipeline.ownSems0_none]
    iintro ⟨⟨Hheld, Hreg, Howes⟩, -, -⟩
    ihave Hsplit := harr $$ Hheld
    icases Hsplit with ⟨Harrs, Hbypass⟩
    imodintro
    isplitl [Harrs]; · iexact Harrs
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W
      isplitr; · ipureintro; exact fun _ _ => Or.inl trivial
      iexact Howes
    isplitl [Hreg]; · iexact Hreg
    iexact Hbypass
  hin c := by
    have hfirst := hin0 (VA m) c
    unfold Pipeline.ΦA at hfirst
    rw [show (pdats m 0 c).Φ 0 = (dat0 (VA m) c).Φ 0 from rfl]
    iintro ⟨Hreg, -, Hscratch⟩
    iapply hfirst
    isplitl [Hscratch]; · iexact Hscratch
    iexact Hreg
  hout c := by
    have hlast := hout0 (VA m) c
    unfold Pipeline.ΦA at hlast
    rw [Pipeline.ownSems0_none, show (pdats m 0 c).Φ (Fin.last _) = (dat0 (VA m) c).Φ (Fin.last cfg0.N) from rfl]
    iintro Hinv
    ihave Hclass := hlast $$ Hinv
    icases Hclass with ⟨Hscratch, Hreg⟩
    isplitl [Hreg]; · iexact Hreg
    isplitr; · iempintro
    iexact Hscratch
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (fun b => V12 m (outsOf m) c b) ((pdats m 0 c).arrAt · cfg0.N) (leaves0 m c) (keeps0 m c)
    rw [Pipeline.unscopedBufs_held] at hjoin
    iintro ⟨Harrs, Howes, Hreg, Hbypass⟩
    imodintro
    isplitl [Harrs Hbypass]
    · iapply hjoin; isplitl [Harrs] <;> iassumption
    isplitl [Hreg]; · iexact Hreg
    unfold Pipeline.Dat.owesAt Pipeline.owesWithin
    icases Howes with ⟨%W, -, Howes⟩
    iexists W; iexact Howes

set_option backward.isDefEq.respectTransparency.types false in
/-- REGION 1 between the thread states before and after it, as region 0 with nine arrays; its invariant is the
    class's own at every point. -/
def reg1 : RegionSeg (pcfgs (F := F)) adm (pdats m) () defs₀ Variants.none noL noLv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ noL noLv 1 fun _ _ => rfl
  pre c := iprop(StableHlo.held (c : Thread nD τ) (Pipeline.ucRefs τ sig) (V13 m (outsA m) c) ∗ rest c)
  post c := iprop(StableHlo.held (c : Thread nD τ) (Pipeline.ucRefs τ sig) (V14 m (outsOf m) c) ∗ rest c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    have harr := Pipeline.arrays_of_unscopedBufs (p := 1) (pcfgs (F := F)) adm (pdats m) launch1.win launch1.arr_whole c
      ((pdats m 1 c).share_full fun _ => rfl) (VB m c) fun w => A_eq1 (VB m) c w
    rw [Pipeline.unscopedBufs_held] at harr
    rw [Pipeline.ownSems0_none]
    iintro ⟨⟨Hheld, Hreg, Howes⟩, -, -⟩
    ihave Hsplit := harr $$ Hheld
    icases Hsplit with ⟨Harrs, Hbypass⟩
    imodintro
    isplitl [Harrs]; · iexact Harrs
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W
      isplitr; · ipureintro; exact fun _ _ => Or.inl trivial
      iexact Howes
    isplitl [Hreg]; · iexact Hreg
    iexact Hbypass
  hin c := by
    rw [show (pdats m 1 c).Φ 0 = Pipeline.ΦA spec1 c from rfl]; unfold Pipeline.ΦA
    iintro ⟨Hreg, -, Hscratch⟩
    isplitl [Hscratch]; · iexact Hscratch
    iexact Hreg
  hout c := by
    rw [Pipeline.ownSems0_none, show (pdats m 1 c).Φ (Fin.last _) = Pipeline.ΦA spec1 c from rfl]; unfold Pipeline.ΦA
    iintro ⟨Hscratch, Hreg⟩
    isplitl [Hreg]; · iexact Hreg
    isplitr; · iempintro
    iexact Hscratch
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (fun b => V14 m (outsOf m) c b) ((pdats m 1 c).arrAt · cfg1.N) (leaves1 m c) (keeps1 m c)
    rw [Pipeline.unscopedBufs_held] at hjoin
    iintro ⟨Harrs, Howes, Hreg, Hbypass⟩
    imodintro
    isplitl [Harrs Hbypass]
    · iapply hjoin; isplitl [Harrs] <;> iassumption
    isplitl [Hreg]; · iexact Hreg
    unfold Pipeline.Dat.owesAt Pipeline.owesWithin
    icases Howes with ⟨%W, -, Howes⟩
    iexists W; iexact Howes

/-! ## The launch and the run -/

set_option backward.isDefEq.respectTransparency.types false in
/-- THE RUN: from any launch memory with zero counters and any generator registers, every weakly fair execution of
    @main terminates; the result array then holds the fold of region 1's write-backs over the contents region 1 was
    entered with, and every argument array what it held at launch.  The conditional run at the two records: the
    launch's ghost state is the pipeline library's own element, each core's rest is made from what the launch deals
    it, and the thread states of the records are the generated module's by construction. -/
theorem run_main (ρ : Dev nD → PrngReg) :
    θ_run defs (onTc (τ := τ) (main (F := F))) ⟨m, fun _ => 0, ρ⟩ (fun r => ∀ c : Dev nD,
      r.2.mem ((c.tc : Thread nD τ).loc main_v48) = (dat1 (VB m) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  have hrun := RunCond.run_cond m (Ix := Unit) (U := UR sig nD τ) (Lvl := ℕ) (EP := emb₁) (ι := ())
    (𝒱₀ := Variants.none) (L := noL) (lv := noLv) (hL := fun _ _ => rfl) (ρ := ρ) (outs := outsOf m) (pdats := pdats m)
    (O₀ := fun _ => 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => rest c)
    (hE0 := by
      refine Pipeline.initEach noL noLv fun c => ?_
      iintro ⟨⟨-, Howes, -, Hreg, -⟩, -⟩
      imodintro
      isplitl [Hreg]; · iexists _; iexact Hreg
      iexists ∅; iexact Howes)
    (hE2 := fun c => by iintro ⟨-, Howes⟩; iexact Howes)
    (R0 := reg0 m) (hpre0 := fun c => .rfl) (hpost0 := fun c => .rfl)
    (R1 := reg1 m) (hpre1 := fun c => by rw [V13_outsOf]; exact .rfl) (hpost1 := fun c => .rfl)
  refine (θ_run defs _ _).mono (fun r h c => ?_) hrun
  rw [← outsOf_main_v48 m c]
  exact h c

end Cert.Kernel.Hand

end
-- ==== Proof.R0Body.lean ====
import proofs.«425772_j3977139716372_1_alg».proof.Proof.Gen.KernelIdeal.Launch
import proofs.«425772_j3977139716372_1_alg».proof.Proof.Gen.KernelIdeal.Skeleton
import proofs.«425772_j3977139716372_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

/-!
# Region 0 of @main: the body of the first pallas_call, point by point

The grid is 50 × 10; the second coordinate `k` is the reduction axis. At `k = 0` the body zeroes the
f32 accumulator (scratch `arg9`) and fills the bf16 scratch `arg10` with the product of windows 0 and 2;
at every point it adds to the accumulator the contribution `k0_pay3` of the point's blocks; at `k = 9`
it copies the accumulator to the output window's staging buffer, which is written back there and idle
elsewhere. This module states what the three buffers hold after each point, the proof data of the
pipeline over an arbitrary valuation `V` of the TensorCore's buffers at region entry, and the body
obligation.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditionals, in closed form over the grid -/

/-- The first conditional's condition (`k = 0`), from the grid coordinates. -/
abbrev cond1 (i : grid0.Coords) : Prop :=
  (Scalar.cmpi .ne (Scalar.extui (Scalar.cmpi .eq (BitVec.ofNat 32 (i 1).val) 0#32)) 0#32) = 1#1
/-- It holds exactly at the points with `k = 0`. -/
theorem hcond1 : ∀ t : Fin cfg0.N, cond1 (grid0.coords t) ↔ t.val % 10 = 0 :=
  (by decide +kernel : ∀ t : Fin grid0.N, cond1 (grid0.coords t) ↔ t.val % 10 = 0)

/-- The second conditional's condition (`k = 9`). -/
abbrev cond2 (i : grid0.Coords) : Prop := k0_cond2 i = 1#1
/-- It holds exactly at the points with `k = 9`. -/
theorem hcond2 : ∀ t : Fin cfg0.N, cond2 (grid0.coords t) ↔ t.val % 10 = 9 :=
  (by decide +kernel : ∀ t : Fin grid0.N, cond2 (grid0.coords t) ↔ t.val % 10 = 9)

/-- The output window is idle exactly off `k = 9`, and is not written back there. -/
theorem idle0_6 : ∀ t : Fin cfg0.N, ¬t.val % 10 = 9 → cfg0.idle 6 (grid0.coords t) = true := by decide +kernel
theorem live0_6 : ∀ t : Fin cfg0.N, t.val % 10 = 9 → cfg0.idle 6 (grid0.coords t) = false := by decide +kernel
theorem noFlush0_6 : ∀ t : Fin cfg0.N, ¬t.val % 10 = 9 → (cfg0.win 6).flush t = false := by decide +kernel

/-! ## Loads and stores through a whole buffer -/

/-- The zero offsets of a rank-2 rectangle, as the body spells them. -/
theorem zeros2 : (![0, 0] : Fin 2 → ℕ) = fun _ => 0 := by
  funext a; fin_cases a <;> rfl

/-- A load of a whole buffer that reads `X`, through the whole-shape rectangle at zero offsets, is `X`. -/
theorem load_whole {S : Shape} {e : EltTy} {m : Memref sig .tc .vmem S e} (h : m.IsWhole)
    {off : Fin S.rank → ℕ} (hz : off = fun _ => 0) (inb : ∀ a, off a + S.size a ≤ S.size a) (X : S.Idx → Elt F e) :
    View.readAt (Elt F) m.view (Rect.unit off S.size inb).toLoadRect (h.unread X) = X := by
  rw [View.readAt_eq_ld, h.read_unread, View.ld_unit_zero hz]

/-- After a store through the whole-shape rectangle at zero offsets, whatever was stored before, the buffer reads the payload. -/
theorem read_store_whole {S : Shape} {e : EltTy} (v : View sig .tc .vmem S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero hz inb y⟩),
    View.canon_cons_unit_zero hz]

/-! ## The body on any whole memrefs, one run per control case

Each run holds the six input buffers at contents `x0 … x5`, the output buffer at `xo`, the accumulator at `s9`
and the bf16 scratch at `s10`, and hands the continuation the inputs as they were and the three others at what
the case's stores leave, named through the payloads. -/

set_option maxHeartbeats 1000000 in
/-- `k = 0`: both scratch buffers are refilled (what they held is not read), the output buffer is left as found. -/
theorem run_first (c : Dev nD) (i : grid0.Coords)
    (a2 : Memref sig .tc .vmem S2000x248 .bf16) (h2 : a2.IsWhole) (a3 : Memref sig .tc .vmem S2000x248 .bf16) (h3 : a3.IsWhole)
    (a4 : Memref sig .tc .vmem S248x248 .bf16) (h4 : a4.IsWhole) (a5 : Memref sig .tc .vmem S248x256 .bf16) (h5 : a5.IsWhole)
    (a6 : Memref sig .tc .vmem S248x256 .bf16) (h6 : a6.IsWhole) (a7 : Memref sig .tc .vmem S256x248 .bf16) (h7 : a7.IsWhole)
    (a8 : Memref sig .tc .vmem S2000x248 .f32) (h8 : a8.IsWhole) (a9 : Memref sig .tc .vmem S2000x248 .f32) (h9 : a9.IsWhole)
    (a10 : Memref sig .tc .vmem S2000x248 .bf16) (h10 : a10.IsWhole)
    (hc1 : cond1 i) (hc2 : ¬cond2 i)
    (x0 x1 : Vec F S2000x248 .bf16) (x2 : Vec F S248x248 .bf16) (x3 x4 : Vec F S248x256 .bf16) (x5 : Vec F S256x248 .bf16)
    (xo s9 : Vec F S2000x248 .f32) (s10 : Vec F S2000x248 .bf16) (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare x5
        ∗ owns (c : Thread nD τ) a8 fullShare xo ∗ owns (c : Thread nD τ) a9 fullShare s9 ∗ owns (c : Thread nD τ) a10 fullShare s10
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare x5
            ∗ owns (c : Thread nD τ) a8 fullShare (xo) ∗ owns (c : Thread nD τ) a9 fullShare (k0_pay3 (k0_pay2 x0 x2) x3 x1 x4 x5 k0_pay1)
            ∗ owns (c : Thread nD τ) a10 fullShare (k0_pay2 x0 x2)) -∗ K ⟨⟩))
      ⊢ wp frame (wpE (defs₀ (F := F)) Variants.none c none) E
          (cc0__kernelA i a2 h2 a3 h3 a4 h4 a5 h5 a6 h6 a7 h7 a8 h8 a9 h9 a10 h10) K := by
  simp only [cc0__kernelA_eq_skeleton]; unfold cc0__kernelA_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo, %hfo, HO⟩, ⟨%g9, %hg9, HS9⟩, ⟨%g10, %hg10, HS10⟩, Hk⟩
  obtain rfl := h2.eq_unread hf0; obtain rfl := h3.eq_unread hf1; obtain rfl := h4.eq_unread hf2
  obtain rfl := h5.eq_unread hf3; obtain rfl := h6.eq_unread hf4; obtain rfl := h7.eq_unread hf5
  obtain rfl := h8.eq_unread hfo; obtain rfl := h9.eq_unread hg9; obtain rfl := h10.eq_unread hg10
  sl_exec (disch := first | exact hc1 | exact hc2)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; · ipureintro; exact h7.read_unread _
    iexact H5
  isplitl [HO]
  · iexists _; isplitr; · ipureintro; exact h8.read_unread _
    iexact HO
  isplitl [HS9]
  · iexists _; isplitr
    swap; · iexact HS9
    ipureintro
    sl_unfold_run_names
    rw [read_store_whole _ _ zeros2, View.readCov_unit_zero _ zeros2, View.readCov_unit_zero _ zeros2, load_whole h2 zeros2,
      load_whole h4 zeros2, load_whole h5 zeros2, load_whole h3 zeros2, load_whole h6 zeros2, load_whole h7 zeros2]
  iexists _; isplitr
  swap; · iexact HS10
  ipureintro
  sl_unfold_run_names
  rw [read_store_whole _ _ zeros2, load_whole h2 zeros2, load_whole h4 zeros2]

set_option maxHeartbeats 1000000 in
/-- `0 < k < 9`: the accumulator grows, the bf16 scratch and the output buffer are left as found. -/
theorem run_mid (c : Dev nD) (i : grid0.Coords)
    (a2 : Memref sig .tc .vmem S2000x248 .bf16) (h2 : a2.IsWhole) (a3 : Memref sig .tc .vmem S2000x248 .bf16) (h3 : a3.IsWhole)
    (a4 : Memref sig .tc .vmem S248x248 .bf16) (h4 : a4.IsWhole) (a5 : Memref sig .tc .vmem S248x256 .bf16) (h5 : a5.IsWhole)
    (a6 : Memref sig .tc .vmem S248x256 .bf16) (h6 : a6.IsWhole) (a7 : Memref sig .tc .vmem S256x248 .bf16) (h7 : a7.IsWhole)
    (a8 : Memref sig .tc .vmem S2000x248 .f32) (h8 : a8.IsWhole) (a9 : Memref sig .tc .vmem S2000x248 .f32) (h9 : a9.IsWhole)
    (a10 : Memref sig .tc .vmem S2000x248 .bf16) (h10 : a10.IsWhole)
    (hc1 : ¬cond1 i) (hc2 : ¬cond2 i)
    (x0 x1 : Vec F S2000x248 .bf16) (x2 : Vec F S248x248 .bf16) (x3 x4 : Vec F S248x256 .bf16) (x5 : Vec F S256x248 .bf16)
    (xo s9 : Vec F S2000x248 .f32) (s10 : Vec F S2000x248 .bf16) (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare x5
        ∗ owns (c : Thread nD τ) a8 fullShare xo ∗ owns (c : Thread nD τ) a9 fullShare s9 ∗ owns (c : Thread nD τ) a10 fullShare s10
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare x5
            ∗ owns (c : Thread nD τ) a8 fullShare (xo) ∗ owns (c : Thread nD τ) a9 fullShare (k0_pay3 s10 x3 x1 x4 x5 s9)
            ∗ owns (c : Thread nD τ) a10 fullShare (s10)) -∗ K ⟨⟩))
      ⊢ wp frame (wpE (defs₀ (F := F)) Variants.none c none) E
          (cc0__kernelA i a2 h2 a3 h3 a4 h4 a5 h5 a6 h6 a7 h7 a8 h8 a9 h9 a10 h10) K := by
  simp only [cc0__kernelA_eq_skeleton]; unfold cc0__kernelA_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo, %hfo, HO⟩, ⟨%g9, %hg9, HS9⟩, ⟨%g10, %hg10, HS10⟩, Hk⟩
  obtain rfl := h2.eq_unread hf0; obtain rfl := h3.eq_unread hf1; obtain rfl := h4.eq_unread hf2
  obtain rfl := h5.eq_unread hf3; obtain rfl := h6.eq_unread hf4; obtain rfl := h7.eq_unread hf5
  obtain rfl := h8.eq_unread hfo; obtain rfl := h9.eq_unread hg9; obtain rfl := h10.eq_unread hg10
  sl_exec (disch := first | exact hc1 | exact hc2)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; · ipureintro; exact h7.read_unread _
    iexact H5
  isplitl [HO]
  · iexists _; isplitr; · ipureintro; exact h8.read_unread _
    iexact HO
  isplitl [HS9]
  · iexists _; isplitr
    swap; · iexact HS9
    ipureintro
    rw [read_store_whole _ _ zeros2, load_whole h10 zeros2, load_whole h5 zeros2, load_whole h3 zeros2, load_whole h6 zeros2,
      load_whole h7 zeros2, load_whole h9 zeros2]
  iexists _; isplitr; · ipureintro; exact h10.read_unread _
  iexact HS10

set_option maxHeartbeats 1000000 in
/-- `k = 9`: the accumulator grows and is copied to the output buffer, whatever that held. -/
theorem run_last (c : Dev nD) (i : grid0.Coords)
    (a2 : Memref sig .tc .vmem S2000x248 .bf16) (h2 : a2.IsWhole) (a3 : Memref sig .tc .vmem S2000x248 .bf16) (h3 : a3.IsWhole)
    (a4 : Memref sig .tc .vmem S248x248 .bf16) (h4 : a4.IsWhole) (a5 : Memref sig .tc .vmem S248x256 .bf16) (h5 : a5.IsWhole)
    (a6 : Memref sig .tc .vmem S248x256 .bf16) (h6 : a6.IsWhole) (a7 : Memref sig .tc .vmem S256x248 .bf16) (h7 : a7.IsWhole)
    (a8 : Memref sig .tc .vmem S2000x248 .f32) (h8 : a8.IsWhole) (a9 : Memref sig .tc .vmem S2000x248 .f32) (h9 : a9.IsWhole)
    (a10 : Memref sig .tc .vmem S2000x248 .bf16) (h10 : a10.IsWhole)
    (hc1 : ¬cond1 i) (hc2 : cond2 i)
    (x0 x1 : Vec F S2000x248 .bf16) (x2 : Vec F S248x248 .bf16) (x3 x4 : Vec F S248x256 .bf16) (x5 : Vec F S256x248 .bf16)
    (xo s9 : Vec F S2000x248 .f32) (s10 : Vec F S2000x248 .bf16) (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare x5
        ∗ owns (c : Thread nD τ) a8 fullShare xo ∗ owns (c : Thread nD τ) a9 fullShare s9 ∗ owns (c : Thread nD τ) a10 fullShare s10
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ owns (c : Thread nD τ) a7 fullShare x5
            ∗ owns (c : Thread nD τ) a8 fullShare (k0_pay3 s10 x3 x1 x4 x5 s9) ∗ owns (c : Thread nD τ) a9 fullShare (k0_pay3 s10 x3 x1 x4 x5 s9)
            ∗ owns (c : Thread nD τ) a10 fullShare (s10)) -∗ K ⟨⟩))
      ⊢ wp frame (wpE (defs₀ (F := F)) Variants.none c none) E
          (cc0__kernelA i a2 h2 a3 h3 a4 h4 a5 h5 a6 h6 a7 h7 a8 h8 a9 h9 a10 h10) K := by
  simp only [cc0__kernelA_eq_skeleton]; unfold cc0__kernelA_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fo, %hfo, HO⟩, ⟨%g9, %hg9, HS9⟩, ⟨%g10, %hg10, HS10⟩, Hk⟩
  obtain rfl := h2.eq_unread hf0; obtain rfl := h3.eq_unread hf1; obtain rfl := h4.eq_unread hf2
  obtain rfl := h5.eq_unread hf3; obtain rfl := h6.eq_unread hf4; obtain rfl := h7.eq_unread hf5
  obtain rfl := h8.eq_unread hfo; obtain rfl := h9.eq_unread hg9; obtain rfl := h10.eq_unread hg10
  sl_exec (disch := first | exact hc1 | exact hc2)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr; · ipureintro; exact h6.read_unread _
    iexact H4
  isplitl [H5]
  · iexists _; isplitr; · ipureintro; exact h7.read_unread _
    iexact H5
  isplitl [HO]
  · iexists _; isplitr
    swap; · iexact HO
    ipureintro
    sl_unfold_run_names
    rw [read_store_whole _ _ zeros2, View.readCov_unit_zero _ zeros2, load_whole h10 zeros2, load_whole h5 zeros2,
      load_whole h3 zeros2, load_whole h6 zeros2, load_whole h7 zeros2, load_whole h9 zeros2]
  isplitl [HS9]
  · iexists _; isplitr
    swap; · iexact HS9
    ipureintro
    sl_unfold_run_names
    rw [read_store_whole _ _ zeros2, load_whole h10 zeros2, load_whole h5 zeros2, load_whole h3 zeros2, load_whole h6 zeros2,
      load_whole h7 zeros2, load_whole h9 zeros2]
  iexists _; isplitr; · ipureintro; exact h10.read_unread _
  iexact HS10

/-! ## The windows' blocks -/

/-- Window `w`'s block at point `t`, read off its array as the region finds it (`V`). -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The six input blocks at point `t`, each at its literal type. -/
abbrev B0 (c : Dev nD) (t : Fin cfg0.N) : Vec F S2000x248 .bf16 := iblk0 V c 0 t
abbrev B1 (c : Dev nD) (t : Fin cfg0.N) : Vec F S2000x248 .bf16 := iblk0 V c 1 t
abbrev B2 (c : Dev nD) (t : Fin cfg0.N) : Vec F S248x248 .bf16 := iblk0 V c 2 t
abbrev B3 (c : Dev nD) (t : Fin cfg0.N) : Vec F S248x256 .bf16 := iblk0 V c 3 t
abbrev B4 (c : Dev nD) (t : Fin cfg0.N) : Vec F S248x256 .bf16 := iblk0 V c 4 t
abbrev B5 (c : Dev nD) (t : Fin cfg0.N) : Vec F S256x248 .bf16 := iblk0 V c 5 t

/-! ## What one point computes -/

/-- The bf16 scratch after a point with `k = 0`: the product of the point's blocks of windows 0 and 2. -/
abbrev lhs0 (c : Dev nD) (t : Fin cfg0.N) : Vec F S2000x248 .bf16 := k0_pay2 (B0 V c t) (B2 V c t)

/-- The accumulator after point `t`, from the bf16 scratch `a10` and the accumulator `a9` the point works on. -/
abbrev acc0 (c : Dev nD) (t : Fin cfg0.N) (a10 : Vec F S2000x248 .bf16) (a9 : Vec F S2000x248 .f32) : Vec F S2000x248 .f32 :=
  k0_pay3 a10 (B3 V c t) (B1 V c t) (B4 V c t) (B5 V c t) a9

/-- What point `n` leaves in (the output window's staging buffer, the accumulator `arg9`, the bf16 scratch `arg10`).
    At `k = 0` both scratch buffers are refilled and nothing of the point before is read; at the other points
    the bf16 scratch is kept and the accumulator grows. The first component is the accumulator: at `k = 9` the
    body copies it to the output buffer, and at the other points the window is idle and the component is not consulted. -/
def outsAt0 (c : Dev nD) : (n : ℕ) → n < cfg0.N → Vec F S2000x248 .f32 × Vec F S2000x248 .f32 × Vec F S2000x248 .bf16
  | 0, hn =>
    (acc0 V c ⟨0, hn⟩ (lhs0 V c ⟨0, hn⟩) k0_pay1, acc0 V c ⟨0, hn⟩ (lhs0 V c ⟨0, hn⟩) k0_pay1, lhs0 V c ⟨0, hn⟩)
  | n + 1, hn =>
    if (n + 1) % 10 = 0 then
      (acc0 V c ⟨n + 1, hn⟩ (lhs0 V c ⟨n + 1, hn⟩) k0_pay1, acc0 V c ⟨n + 1, hn⟩ (lhs0 V c ⟨n + 1, hn⟩) k0_pay1, lhs0 V c ⟨n + 1, hn⟩)
    else
      (acc0 V c ⟨n + 1, hn⟩ (outsAt0 c n (Nat.lt_of_succ_lt hn)).2.2 (outsAt0 c n (Nat.lt_of_succ_lt hn)).2.1,
       acc0 V c ⟨n + 1, hn⟩ (outsAt0 c n (Nat.lt_of_succ_lt hn)).2.2 (outsAt0 c n (Nat.lt_of_succ_lt hn)).2.1,
       (outsAt0 c n (Nat.lt_of_succ_lt hn)).2.2)

/-- The point before `t`. -/
abbrev prev0 (t : Fin cfg0.N) : ℕ := t.val - 1
theorem prev0_lt (t : Fin cfg0.N) : prev0 t < cfg0.N := Nat.lt_of_le_of_lt (Nat.sub_le _ _) t.isLt

/-- At a point with `k = 0`: the scratch buffers refilled from the point's blocks. -/
theorem outsAt0_first (c : Dev nD) (t : Fin cfg0.N) (h0 : t.val % 10 = 0) :
    outsAt0 V c t.val t.isLt
      = (acc0 V c t (lhs0 V c t) k0_pay1, acc0 V c t (lhs0 V c t) k0_pay1, lhs0 V c t) := by
  obtain ⟨n, hn⟩ := t
  cases n with
  | zero => rfl
  | succ n => exact if_pos h0

/-- At a point with `k ≠ 0`: the accumulator grown over what the point before left, the bf16 scratch kept. -/
theorem outsAt0_step (c : Dev nD) (t : Fin cfg0.N) (h0 : ¬t.val % 10 = 0) :
    outsAt0 V c t.val t.isLt
      = (acc0 V c t (outsAt0 V c (prev0 t) (prev0_lt t)).2.2 (outsAt0 V c (prev0 t) (prev0_lt t)).2.1,
         acc0 V c t (outsAt0 V c (prev0 t) (prev0_lt t)).2.2 (outsAt0 V c (prev0 t) (prev0_lt t)).2.1,
         (outsAt0 V c (prev0 t) (prev0_lt t)).2.2) := by
  obtain ⟨n, hn⟩ := t
  cases n with
  | zero => exact absurd (Nat.zero_mod _) h0
  | succ n => exact if_neg h0

/-- At a point with `0 < k < 9`. -/
theorem outsAt0_mid (c : Dev nD) (t : Fin cfg0.N) (h0 : ¬t.val % 10 = 0) (h9 : ¬t.val % 10 = 9) :
    outsAt0 V c t.val t.isLt
      = (acc0 V c t (outsAt0 V c (prev0 t) (prev0_lt t)).2.2 (outsAt0 V c (prev0 t) (prev0_lt t)).2.1,
         acc0 V c t (outsAt0 V c (prev0 t) (prev0_lt t)).2.2 (outsAt0 V c (prev0 t) (prev0_lt t)).2.1,
         (outsAt0 V c (prev0 t) (prev0_lt t)).2.2) :=
  outsAt0_step V c t h0

/-- At a point with `k = 9`: the same, and there the output buffer does hold the first component. -/
theorem outsAt0_last (c : Dev nD) (t : Fin cfg0.N) (h9 : t.val % 10 = 9) :
    outsAt0 V c t.val t.isLt
      = (acc0 V c t (outsAt0 V c (prev0 t) (prev0_lt t)).2.2 (outsAt0 V c (prev0 t) (prev0_lt t)).2.1,
         acc0 V c t (outsAt0 V c (prev0 t) (prev0_lt t)).2.2 (outsAt0 V c (prev0 t) (prev0_lt t)).2.1,
         (outsAt0 V c (prev0 t) (prev0_lt t)).2.2) :=
  outsAt0_step V c t (by omega)

/-! ## The scratch operands and the tracked invariant -/

/-- The accumulator `arg9` and the bf16 scratch `arg10`: whole scoped buffers of the kernel's own. -/
abbrev accM : Memref sig .tc .vmem S2000x248 .f32 := Memref.whole cc0_scratch0
abbrev lhsM : Memref sig .tc .vmem S2000x248 .bf16 := Memref.whole cc0_scratch1

/-- The core's other scoped buffers that this region does not stage (the second pallas_call's staging buffers),
    each whole at some contents. -/
def others0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg8_0), ((c : Thread nD τ).loc cc1_stg8_0) ↦{fullShare} f)
    ∗ (∃ f : Buf (Elt F) ((c : Thread nD τ).loc cc1_stg8_1), ((c : Thread nD τ).loc cc1_stg8_1) ↦{fullShare} f))

/-- The class's invariant, with the two scratch operands as memrefs owned at some contents. -/
theorem PhiA0_eq (c : Dev nD) :
    (Pipeline.ΦA spec0 c : sProp 𝕄)
      = iprop(iprop((∃ d, owns (c : Thread nD τ) accM fullShare d) ∗ (∃ d, owns (c : Thread nD τ) lhsM fullShare d) ∗ others0 (F := F) c)
          ∗ (∃ r, prngReg c r)) := by
  unfold Pipeline.ΦA others0; rw [scopedRest0_eq]; simp only [accM, lhsM, owns_whole]; try rfl

/-- The region invariant before position `n`: before the first point the class's (every scratch at anything);
    afterwards the two scratch operands at what the point before left in them, the other scoped buffers at
    anything, the generator register at some state. -/
def Phi0 (c : Dev nD) : (n : ℕ) → n ≤ cfg0.N → sProp 𝕄
  | 0, _ => Pipeline.ΦA spec0 c
  | n + 1, hn =>
    iprop(iprop(owns (c : Thread nD τ) accM fullShare (outsAt0 V c n hn).2.1
        ∗ owns (c : Thread nD τ) lhsM fullShare (outsAt0 V c n hn).2.2 ∗ others0 (F := F) c)
      ∗ (∃ r, prngReg c r))

theorem Phi0_zero (c : Dev nD) (n : ℕ) (h : n ≤ cfg0.N) (hz : n = 0) : Phi0 V c n h = Pipeline.ΦA spec0 c := by
  subst hz; rfl

/-- After point `n` (before point `n + 1`): the scratch operands at that point's contents. -/
theorem Phi0_succ (c : Dev nD) (n : ℕ) (hn : n < cfg0.N) :
    Phi0 V c (n + 1) hn
      = iprop(iprop(owns (c : Thread nD τ) accM fullShare (outsAt0 V c n hn).2.1
          ∗ owns (c : Thread nD τ) lhsM fullShare (outsAt0 V c n hn).2.2 ∗ others0 (F := F) c)
        ∗ (∃ r, prngReg c r)) := rfl

/-- Before a point that is not the first: the scratch operands at what the point before left. -/
theorem Phi0_pos (c : Dev nD) (n : ℕ) (h : n ≤ cfg0.N) (hz : n ≠ 0) :
    Phi0 V c n h
      = iprop(iprop(owns (c : Thread nD τ) accM fullShare (outsAt0 V c (n - 1) (by omega)).2.1
          ∗ owns (c : Thread nD τ) lhsM fullShare (outsAt0 V c (n - 1) (by omega)).2.2 ∗ others0 (F := F) c)
        ∗ (∃ r, prngReg c r)) := by
  cases n with
  | zero => exact absurd rfl hz
  | succ n => rfl

/-- At any position the invariant gives the class's back: the scratch operands' named contents are forgotten. -/
theorem Phi0_forget (c : Dev nD) (n : ℕ) (h : n ≤ cfg0.N) :
    Phi0 V c n h
      ⊢ iprop(iprop((∃ d, owns (c : Thread nD τ) accM fullShare d) ∗ (∃ d, owns (c : Thread nD τ) lhsM fullShare d) ∗ others0 (F := F) c)
          ∗ (∃ r, prngReg c r)) := by
  cases n with
  | zero => rw [Phi0_zero V c 0 h rfl, PhiA0_eq]
  | succ n =>
    rw [Phi0_succ]
    iintro ⟨⟨HS9, HS10, Hoth⟩, Hg⟩
    isplitl [HS9 HS10 Hoth]
    · isplitl [HS9]; · iexists _; iexact HS9
      isplitl [HS10]; · iexists _; iexact HS10
      iexact Hoth
    iexact Hg

/-! ## The pipeline's proof data -/

/-- The proof data of the pipeline on core `c`: the arrays as the region finds them; after the body at point `t`
    each input's buffer at its block and the output's at `outsAt0`'s first component; the tracked invariant;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := Phi0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]

/-- The invariant at a position, restated at its number. -/
theorem Phi0_eq (c : Dev nD) (t : Fin (cfg0.N + 1)) : (dat0 V c).Φ t = Phi0 V c t.val (Nat.le_of_lt_succ t.isLt) := by
  dsimp only [dat0]

/-- The invariant at a point's start, restated at the point's number. -/
theorem Phi0_castSucc (c : Dev nD) (t : Fin cfg0.N) :
    (dat0 V c).Φ t.castSucc = Phi0 V c t.val (Nat.le_of_lt t.isLt) := by
  dsimp only [dat0]; simp only [Fin.coe_castSucc]

/-- Each input's current staging buffer holds its block at every point, fetched there or not: unfetched, the block
    index has not moved and the body left the block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

/-! ## The body obligation -/

/-- Each window's current staging memref at point `t`, spelled as the pipeline passes it. -/
abbrev sm0 (t : Fin cfg0.N) : Memref sig .tc .vmem S2000x248 .bf16 := win0_0.stage (cfg0.slots t 0)
abbrev sm1 (t : Fin cfg0.N) : Memref sig .tc .vmem S2000x248 .bf16 := win0_1.stage (cfg0.slots t 1)
abbrev sm2 (t : Fin cfg0.N) : Memref sig .tc .vmem S248x248 .bf16 := win0_2.stage (cfg0.slots t 2)
abbrev sm3 (t : Fin cfg0.N) : Memref sig .tc .vmem S248x256 .bf16 := win0_3.stage (cfg0.slots t 3)
abbrev sm4 (t : Fin cfg0.N) : Memref sig .tc .vmem S248x256 .bf16 := win0_4.stage (cfg0.slots t 4)
abbrev sm5 (t : Fin cfg0.N) : Memref sig .tc .vmem S256x248 .bf16 := win0_5.stage (cfg0.slots t 5)
abbrev sm6 (t : Fin cfg0.N) : Memref sig .tc .vmem S2000x248 .f32 := win0_6.stage (cfg0.slots t 6)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (sm0 t) fullShare ((dat0 V c).before 0 t d))
    ∗ (∃ d, owns (c : Thread nD τ) (sm1 t) fullShare ((dat0 V c).before 1 t d))
    ∗ (∃ d, owns (c : Thread nD τ) (sm2 t) fullShare ((dat0 V c).before 2 t d))
    ∗ (∃ d, owns (c : Thread nD τ) (sm3 t) fullShare ((dat0 V c).before 3 t d))
    ∗ (∃ d, owns (c : Thread nD τ) (sm4 t) fullShare ((dat0 V c).before 4 t d))
    ∗ (∃ d, owns (c : Thread nD τ) (sm5 t) fullShare ((dat0 V c).before 5 t d))
    ∗ (∃ d, owns (c : Thread nD τ) (sm6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t
    ∗ (dat0 V c).leavesExact 6 t)

/-- An input window is never idle: the body leaves its buffer at the block. -/
theorem leaves0_0 (c : Dev nD) (t : Fin cfg0.N) :
    (dat0 V c).leavesExact 0 t = owns (c : Thread nD τ) (sm0 t) fullShare (B0 V c t) := by
  unfold Dat.leavesExact; rw [show cfg0.idle 0 (grid0.coords t) = false from rfl, after0_0]
theorem leaves0_1 (c : Dev nD) (t : Fin cfg0.N) :
    (dat0 V c).leavesExact 1 t = owns (c : Thread nD τ) (sm1 t) fullShare (B1 V c t) := by
  unfold Dat.leavesExact; rw [show cfg0.idle 1 (grid0.coords t) = false from rfl, after0_1]
theorem leaves0_2 (c : Dev nD) (t : Fin cfg0.N) :
    (dat0 V c).leavesExact 2 t = owns (c : Thread nD τ) (sm2 t) fullShare (B2 V c t) := by
  unfold Dat.leavesExact; rw [show cfg0.idle 2 (grid0.coords t) = false from rfl, after0_2]
theorem leaves0_3 (c : Dev nD) (t : Fin cfg0.N) :
    (dat0 V c).leavesExact 3 t = owns (c : Thread nD τ) (sm3 t) fullShare (B3 V c t) := by
  unfold Dat.leavesExact; rw [show cfg0.idle 3 (grid0.coords t) = false from rfl, after0_3]
theorem leaves0_4 (c : Dev nD) (t : Fin cfg0.N) :
    (dat0 V c).leavesExact 4 t = owns (c : Thread nD τ) (sm4 t) fullShare (B4 V c t) := by
  unfold Dat.leavesExact; rw [show cfg0.idle 4 (grid0.coords t) = false from rfl, after0_4]
theorem leaves0_5 (c : Dev nD) (t : Fin cfg0.N) :
    (dat0 V c).leavesExact 5 t = owns (c : Thread nD τ) (sm5 t) fullShare (B5 V c t) := by
  unfold Dat.leavesExact; rw [show cfg0.idle 5 (grid0.coords t) = false from rfl, after0_5]

/-- At `k = 9` the output window is live: the body leaves its buffer at the accumulator. -/
theorem leaves0_6 (c : Dev nD) (t : Fin cfg0.N) (h9 : t.val % 10 = 9) :
    (dat0 V c).leavesExact 6 t = owns (c : Thread nD τ) (sm6 t) fullShare (outsAt0 V c t.val t.isLt).1 := by
  unfold Dat.leavesExact; rw [live0_6 t h9, after0_6]

set_option maxHeartbeats 4800000 in
/-- The body at any point: the inputs' buffers hold their blocks; the closed forms say which case the point is in;
    the invariant hands the body the two scratch operands (at anything where `k = 0`, where they are refilled; else
    at what the point before left) and takes them back at this point's contents; the output window's buffer comes
    back as found off `k = 9` and at the accumulator there; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = Phi0 V c (t.val + 1) t.isLt from rfl, Phi0_succ, Phi0_castSucc V c t]
  rw [leaves0_0, leaves0_1, leaves0_2, leaves0_3, leaves0_4, leaves0_5]
  by_cases h0 : t.val % 10 = 0
  · have h9 : ¬t.val % 10 = 9 := by omega
    rw [Dat.leavesExact_idle (dat0 V c) 6 t (idle0_6 t h9) (noFlush0_6 t h9)]
    rw [outsAt0_first V c t h0]
    dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := (Phi0_forget V c t.val _) $$ HΦ
    icases HΦ' with ⟨⟨⟨%e9, HS9⟩, ⟨%e10, HS10⟩, Hoth⟩, Hg⟩
    iapply (run_first c (grid0.coords t) _ _ _ _ _ _ _ _ _ _ _ _ _ _ _ _ _ _ ((hcond1 t).mpr h0) (fun h => h9 ((hcond2 t).mp h))
      (B0 V c t) (B1 V c t) (B2 V c t) (B3 V c t) (B4 V c t) (B5 V c t) _ e9 e10 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS9]; · iexact HS9
    isplitl [HS10]; · iexact HS10
    iintro ⟨H0, H1, H2, H3, H4, H5, H6, HS9, HS10⟩
    isplitl [HS9 HS10 Hoth Hg]
    · isplitl [HS9 HS10 Hoth]
      · isplitl [HS9]; · iexact HS9
        isplitl [HS10]; · iexact HS10
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hz : t.val ≠ 0 := fun e => h0 (by rw [e])
    rw [Phi0_pos V c _ _ hz]
    by_cases h9 : t.val % 10 = 9
    · rw [leaves0_6 V c t h9]
      rw [outsAt0_last V c t h9]
      dsimp only
      iintro ⟨⟨⟨HS9, HS10, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply (run_last c (grid0.coords t) _ _ _ _ _ _ _ _ _ _ _ _ _ _ _ _ _ _ (fun h => h0 ((hcond1 t).mp h)) ((hcond2 t).mpr h9)
        (B0 V c t) (B1 V c t) (B2 V c t) (B3 V c t) (B4 V c t) (B5 V c t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS9]; · iexact HS9
      isplitl [HS10]; · iexact HS10
      iintro ⟨H0, H1, H2, H3, H4, H5, H6, HS9, HS10⟩
      isplitl [HS9 HS10 Hoth Hg]
      · isplitl [HS9 HS10 Hoth]
        · isplitl [HS9]; · iexact HS9
          isplitl [HS10]; · iexact HS10
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat0 V c) 6 t (idle0_6 t h9) (noFlush0_6 t h9)]
      rw [outsAt0_mid V c t h0 h9]
      dsimp only
      iintro ⟨⟨⟨HS9, HS10, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply (run_mid c (grid0.coords t) _ _ _ _ _ _ _ _ _ _ _ _ _ _ _ _ _ _ (fun h => h0 ((hcond1 t).mp h)) (fun h => h9 ((hcond2 t).mp h))
        (B0 V c t) (B1 V c t) (B2 V c t) (B3 V c t) (B4 V c t) (B5 V c t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS9]; · iexact HS9
      isplitl [HS10]; · iexact HS10
      iintro ⟨H0, H1, H2, H3, H4, H5, H6, HS9, HS10⟩
      isplitl [HS9 HS10 Hoth Hg]
      · isplitl [HS9 HS10 Hoth]
        · isplitl [HS9]; · iexact HS9
          isplitl [HS10]; · iexact HS10
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The entry and the exit of the invariant -/

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]

/-- After the last point the invariant gives the class's back. -/
theorem hout0 (c : Dev nD) : (dat0 V c).Φ (Fin.last cfg0.N) ⊢ Pipeline.ΦA spec0 c := by
  rw [Phi0_eq, PhiA0_eq]
  exact Phi0_forget V c _ _

end Cert.KernelIdeal.Hand

end
-- ==== Proof.R1Body.lean ====
import proofs.«425772_j3977139716372_1_alg».proof.Proof.Gen.KernelIdeal.Launch
import proofs.«425772_j3977139716372_1_alg».proof.Proof.Gen.KernelIdeal.Skeleton
import proofs.«425772_j3977139716372_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

/-!
# Region 1 of @main: the second kernel's body

The second kernel call runs over a grid of 10 points.  At each point the body reads a block of rows of
two f32 operands (windows 0 and 1, fetched at every point), the two bf16 weight matrices and the f32 bias
and scale rows (windows 2 to 7, whose block index never moves: they are fetched at the first point only and
stay in their staging buffers), and overwrites the whole of the output block (window 8, written back at every
point) with the normalised feed-forward value of those eight blocks.

Stated here at the contents `V` the TensorCore's buffers hold when the region is entered: the eight input
blocks at a point, what the body leaves in the output's buffer as a function of them, the triple of the
body, the pipeline's proof data and the obligation of the body at every point.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the body leaves in the output's buffer -/

/-- The output block from the eight input blocks: the sum of the second operand's block and the two-layer
    feed-forward of the first's, normalised row by row (`k1_pay2`, over windows 0, 2, 3, 4, 5, 1 in that order), then
    scaled by window 6's row and shifted by window 7's (`k1_pay1`). -/
def out1_8 (x0 x1 : Vec F S1000x248 .f32) (x2 : Vec F S248x512 .bf16) (x3 : Vec F S1x512 .f32)
    (x4 : Vec F S512x248 .bf16) (x5 x6 x7 : Vec F S1x248 .f32) : Vec F S1000x248 .f32 :=
  k1_pay1 (k1_pay2 x0 x2 x3 x4 x5 x1) x6 x7

/-! ## The pipeline's proof data -/

/-- The proof data of the region on core `c`: the arrays as the region finds them; after the body at point `t`
    each input's buffer still at its block and the output's at `out1_8` of the input blocks; the scoped rest and
    the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t
    = out1_8 (iblk1 V c 0 t) (iblk1 V c 1 t) (iblk1 V c 2 t) (iblk1 V c 3 t) (iblk1 V c 4 t) (iblk1 V c 5 t) (iblk1 V c 6 t) (iblk1 V c 7 t) := by
  dsimp only [dat1]

/-! ## The body's accesses: every load and the store go through the whole of a staging buffer -/

abbrev rA : Rect S1000x248 := Rect.unit (s := S1000x248) ![0, 0] S1000x248.size inb_S1000x248_S1000x248_0_0
abbrev rB : Rect S248x512 := Rect.unit (s := S248x512) ![0, 0] S248x512.size inb_S248x512_S248x512_0_0
abbrev rC : Rect S1x512 := Rect.unit (s := S1x512) ![0, 0] S1x512.size inb_S1x512_S1x512_0_0
abbrev rD : Rect S512x248 := Rect.unit (s := S512x248) ![0, 0] S512x248.size inb_S512x248_S512x248_0_0
abbrev rE : Rect S1x248 := Rect.unit (s := S1x248) ![0, 0] S1x248.size inb_S1x248_S1x248_0_0

/-- Offsets `![0, 0]` are the zero offsets. -/
theorem hz2 : (![0, 0] : Fin 2 → Nat) = fun _ => 0 := funext fun a => by fin_cases a <;> rfl

/-- The output's buffer after the body as the run leaves it: the one store's piece over the payload of the eight
    loads, each read through the whole-buffer rectangle. -/
def out1_8_pieces (x0 x1 : Vec F S1000x248 .f32) (x2 : Vec F S248x512 .bf16) (x3 : Vec F S1x512 .f32)
    (x4 : Vec F S512x248 .bf16) (x5 x6 x7 : Vec F S1x248 .f32) : Vec F S1000x248 .f32 :=
  View.canon [⟨rA, k1_pay1 (k1_pay2 (View.ld x0 rA) (View.ld x2 rB) (View.ld x3 rC) (View.ld x4 rD) (View.ld x5 rE) (View.ld x1 rA))
    (View.ld x6 rE) (View.ld x7 rE)⟩]

/-- A load through the whole-buffer rectangle reads the contents and the one store through it leaves its payload:
    the run's form is `out1_8`. -/
theorem out1_8_pieces_eq (x0 x1 : Vec F S1000x248 .f32) (x2 : Vec F S248x512 .bf16) (x3 : Vec F S1x512 .f32)
    (x4 : Vec F S512x248 .bf16) (x5 x6 x7 : Vec F S1x248 .f32) :
    out1_8_pieces x0 x1 x2 x3 x4 x5 x6 x7 = out1_8 x0 x1 x2 x3 x4 x5 x6 x7 := by
  unfold out1_8_pieces out1_8
  rw [View.canon_unit_zero (S := S1000x248) hz2 inb_S1000x248_S1000x248_0_0,
    View.ld_unit_zero (S := S1000x248) hz2 inb_S1000x248_S1000x248_0_0 x0,
    View.ld_unit_zero (S := S1000x248) hz2 inb_S1000x248_S1000x248_0_0 x1,
    View.ld_unit_zero (S := S248x512) hz2 inb_S248x512_S248x512_0_0 x2,
    View.ld_unit_zero (S := S1x512) hz2 inb_S1x512_S1x512_0_0 x3,
    View.ld_unit_zero (S := S512x248) hz2 inb_S512x248_S512x248_0_0 x4,
    View.ld_unit_zero (S := S1x248) hz2 inb_S1x248_S1x248_0_0 x5,
    View.ld_unit_zero (S := S1x248) hz2 inb_S1x248_S1x248_0_0 x6,
    View.ld_unit_zero (S := S1x248) hz2 inb_S1x248_S1x248_0_0 x7]

/-- The one store covers the output's buffer. -/
theorem cover1_8 (p0 : Vec F S1000x248 .f32) (y : S1000x248.Idx) :
    ∃ pc ∈ ([⟨rA, p0⟩] : List (View.Piece (Elt F) S1000x248 .f32)), y ∈ pc.1.set :=
  ⟨_, List.mem_singleton_self _, View.mem_set_unit_zero (S := S1000x248) hz2 inb_S1000x248_S1000x248_0_0 y⟩

/-! ## The body's triple -/

set_option maxHeartbeats 1000000 in
/-- The body on whole staging memrefs, the inputs' at contents `x0` … `x7` and the output's at anything, runs to a
    continuation holding the inputs' as they were and the output's at `out1_8` of them: its loads read the whole
    buffers, its one store covers the output's. -/
theorem sound_kernel1 (c : Dev nD) (E : Set ℕ) (i : grid1.Coords) (arg1 : Memref sig .tc .vmem S1000x248 .f32) (harg1 : arg1.IsWhole) (arg2 : Memref sig .tc .vmem S1000x248 .f32) (harg2 : arg2.IsWhole) (arg3 : Memref sig .tc .vmem S248x512 .bf16) (harg3 : arg3.IsWhole) (arg4 : Memref sig .tc .vmem S1x512 .f32) (harg4 : arg4.IsWhole) (arg5 : Memref sig .tc .vmem S512x248 .bf16) (harg5 : arg5.IsWhole) (arg6 : Memref sig .tc .vmem S1x248 .f32) (harg6 : arg6.IsWhole) (arg7 : Memref sig .tc .vmem S1x248 .f32) (harg7 : arg7.IsWhole) (arg8 : Memref sig .tc .vmem S1x248 .f32) (harg8 : arg8.IsWhole) (arg9 : Memref sig .tc .vmem S1000x248 .f32) (harg9 : arg9.IsWhole)
    (x0 : Vec F S1000x248 .f32) (x1 : Vec F S1000x248 .f32) (x2 : Vec F S248x512 .bf16) (x3 : Vec F S1x512 .f32) (x4 : Vec F S512x248 .bf16) (x5 : Vec F S1x248 .f32) (x6 : Vec F S1x248 .f32) (x7 : Vec F S1x248 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1_8 x0 x1 x2 x3 x4 x5 x6 x7)) -∗ K ⟨⟩))
      ⊢ wp frame (wpE (defs₀ (F := F)) Variants.none c none) E (cc1__kernelB i arg1 harg1 arg2 harg2 arg3 harg3 arg4 harg4 arg5 harg5 arg6 harg6 arg7 harg7 arg8 harg8 arg9 harg9) K := by
  rw [← out1_8_pieces_eq x0 x1 x2 x3 x4 x5 x6 x7]
  simp only [cc1__kernelB_eq_skeleton]; unfold cc1__kernelB_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  unfold out1_8_pieces sound_kernel1.sl.r
  exact View.read_writes_eq_canon _ _ _ (cover1_8 _)

/-! ## What each input's buffer holds when the body runs -/

/- An input window's current staging buffer holds its block at every point, fetched there or not: at a point that
   does not fetch it (windows 2 to 7 after the first point) its block index has not moved since the point before,
   where the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
      (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
      (fun t => by rw [after1_7]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxRecDepth 16384 in
set_option maxHeartbeats 1000000 in
/-- The body at any point: each input's memref holds its block, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxRecDepth 16384 in
/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
import proofs.«425772_j3977139716372_1_alg».proof.Proof.Gen.KernelIdeal.Regions
import proofs.«425772_j3977139716372_1_alg».proof.Proof.RunCond
import proofs.«425772_j3977139716372_1_alg».proof.Proof.R0Body
import proofs.«425772_j3977139716372_1_alg».proof.Proof.R1Body
import Idealize.ShloMosaic.Lib.Pipeline.RegionsLoop
import Idealize.ShloMosaic.Lib.Pipeline.FrameSuffix

/-!
# The run of the two-region program

@main is eleven host stretches, the first kernel call (region 0), one more host stretch and the second kernel
call (region 1).  Between two items a core holds every unscoped buffer whole, at the contents the generated
module names; beside them rides a rest: the core's generator register at some state, and the core owing nothing.

Here the contents the regions leave are chosen, in two steps because the second depends on the first: region 0
leaves in its output array the fold of its write-backs over what it was entered with; the host stretch after it
runs from there; region 1 is entered with what that stretch leaves and leaves in its own output array the fold
of its write-backs.  Each region is then a segment record between those thread states: at its entry the
pipeline's arrays are sorted out of the unscoped buffers and the rest bypasses the region; at its exit they are
put back at the contents the next item starts from.  The run theorem is the conditional run at these records:
every weakly fair execution terminates, the result array holds region 1's fold and every argument array is as
launched.  Nothing depends on the launch memory.
-/

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents at the regions' entries and exits -/

/-- What the TensorCore's buffers hold when region 0 is entered: the launch memory after the eleven host
    stretches before it. -/
abbrev VA : (c : Dev nD) → (b : Ref sig .tc) → Buf (Elt F) ((c : Thread nD τ).loc b) := fun c b => V11 m c b

/-- What region 0 leaves: each of its arrays at the fold of its write-backs (an input array is never written),
    every other buffer as at the entry. -/
def exit0 (c : Dev nD) : Valuation τ sig (Elt F) :=
  Pipeline.withArrays spec0 c (V11 m c) fun w => (dat0 (VA m) c).arrAt w cfg0.N

/-- The first step of the choice: what region 0 leaves, read at any reference. -/
def outsA : Outs (F := F) := fun _ r c => exit0 m c r

/-- What the TensorCore's buffers hold when region 1 is entered: region 0's exit contents after the host stretch
    between the regions. -/
abbrev VB : (c : Dev nD) → (b : Ref sig .tc) → Buf (Elt F) ((c : Thread nD τ).loc b) := fun c b => V13 m (outsA m) c b

/-- What region 1 leaves: each of its arrays at the fold of its write-backs, every other buffer as at its entry. -/
def exit1 (c : Dev nD) : Valuation τ sig (Elt F) :=
  Pipeline.withArrays spec1 c (V13 m (outsA m) c) fun w => (dat1 (VB m) c).arrAt w cfg1.N

/-- The contents the regions leave: after item 13 what region 1 leaves, before it what region 0 leaves. -/
def outsOf : Outs (F := F) := fun J r c => if J = 14 then exit1 m c r else exit0 m c r

/-- Before item 13 the choice is its first step. -/
theorem outsOf_12 (r : Ref sig .tc) (c : Dev nD) : outsOf m 12 r c = outsA m 12 r c := by
  unfold outsOf; rw [if_neg (by decide)]; rfl

/-- Region 0 leaves in its output array the fold of its write-backs. -/
theorem outsOf_main_v36 (c : Dev nD) : outsOf m 12 main_v36 c = (dat0 (VA m) c).arrAt 6 cfg0.N := by
  unfold outsOf; rw [if_neg (by decide)]
  exact Pipeline.withArrays_arr spec0 launch0.win.arr_inj c _ _ 6

/-- Region 1 leaves in its output array the fold of its write-backs. -/
theorem outsOf_main_v48 (c : Dev nD) : outsOf m 14 main_v48 c = (dat1 (VB m) c).arrAt 8 cfg1.N := by
  unfold outsOf; rw [if_pos rfl]
  exact Pipeline.withArrays_arr spec1 launch1.win.arr_inj c _ _ 8

/-- The host stretch between the regions reads the choice at region 0's output only: region 1's entry contents do
    not depend on the second step. -/
theorem V13_outsOf (c : Dev nD) : V13 m (outsOf m) c = V13 m (outsA m) c := by
  show StableHlo.after hostOps1 (Function.update (V11 m c) main_v36 (outsOf m 12 main_v36 c))
    = StableHlo.after hostOps1 (Function.update (V11 m c) main_v36 (outsA m 12 main_v36 c))
  rw [outsOf_12]

/-- After region 0 its output's buffer holds what the region is said to leave there. -/
theorem V12_main_v36 (outs : Outs (F := F)) (c : Dev nD) : V12 m outs c main_v36 = outs 12 main_v36 c := by
  simp only [Function.update_self]

/-- REGION 0's EXIT, the arrays: each holds the fold of its write-backs — the output's buffer by the choice, an
    input's buffer because nothing wrote it. -/
theorem leaves0 (c : Dev nD) (w : Fin cfg0.W) :
    (dat0 (VA m) c).arrAt w cfg0.N = V12 m (outsOf m) c (Pipeline.arrRef spec0 w) := by
  by_cases hw : w = 6
  · subst hw
    exact ((V12_main_v36 m (outsOf m) c).trans (outsOf_main_v36 m c)).symm
  · have hne : Pipeline.arrRef spec0 w ∉ ([main_v36] : List (Ref sig .tc)) := by revert w; decide
    have hin : (cfg0.win w).isOut = false := by revert w; decide
    rw [V12_of m (outsOf m) c _ hne, (dat0 (VA m) c).arrAt_in w hin, A_eq0]

/-- REGION 0's EXIT, the rest: a buffer that is no array of the region holds what it held at the entry. -/
theorem keeps0 (c : Dev nD) (b : Ref sig .tc) (hb : b ∉ Finset.univ.image (Pipeline.arrRef spec0)) :
    V12 m (outsOf m) c b = VA m c b :=
  V12_of m (outsOf m) c b fun h => hb (Finset.mem_image.mpr ⟨6, Finset.mem_univ _, (List.mem_singleton.mp h).symm⟩)

/-- REGION 1's EXIT, the arrays. -/
theorem leaves1 (c : Dev nD) (w : Fin cfg1.W) :
    (dat1 (VB m) c).arrAt w cfg1.N = V14 m (outsOf m) c (Pipeline.arrRef spec1 w) := by
  by_cases hw : w = 8
  · subst hw
    exact ((RunCond.V14_main_v48 m (outsOf m) c).trans (outsOf_main_v48 m c)).symm
  · have hne : Pipeline.arrRef spec1 w ∉ ([main_v48] : List (Ref sig .tc)) := by revert w; decide
    have hin : (cfg1.win w).isOut = false := by revert w; decide
    rw [V14_of m (outsOf m) c _ hne, V13_outsOf, (dat1 (VB m) c).arrAt_in w hin, A_eq1]

/-- REGION 1's EXIT, the rest. -/
theorem keeps1 (c : Dev nD) (b : Ref sig .tc) (hb : b ∉ Finset.univ.image (Pipeline.arrRef spec1)) :
    V14 m (outsOf m) c b = VB m c b :=
  (V14_of m (outsOf m) c b fun h => hb (Finset.mem_image.mpr ⟨8, Finset.mem_univ _, (List.mem_singleton.mp h).symm⟩)).trans
    (congrFun (V13_outsOf m c) _)

/-! ## The proof data, the levels, the rest -/

/-- Every pipeline's proof data at its region's entry contents, a literal case split on the pipeline so that the
    data at a numeral reduce to the region's own. -/
def pdats : (p : Fin 2) → (c : Dev nD) → Dat τ (Elt F) Unit ℕ (UR sig nD τ) ℕ (cfgs p) c
  | ⟨0, _⟩ => fun c => dat0 (VA m) c
  | ⟨1, _⟩ => fun c => dat1 (VB m) c

/-- No pair of semaphore and index is levelled: no core owes another anything. -/
abbrev noL : GSem nD τ sig → Finset Unit := fun _ => ∅
abbrev noLv : GSem nD τ sig → Unit → ℕ := fun _ _ => 0

/-- What rides beside the unscoped buffers between two items: the generator register at some state (a region's
    invariant takes it in and gives it back) and the core owing nothing. -/
abbrev rest (c : Dev nD) : sProp 𝕄 :=
  iprop((∃ r, prngReg c r) ∗ ∃ W, owes (c : Thread nD τ) (0 : CellTallies nD τ sig Unit) W)

/-! ## The regions as segment records -/

set_option backward.isDefEq.respectTransparency.types false in
/-- REGION 0 between the thread states before and after it.  Entry: the seven arrays out of the unscoped buffers at
    the entry contents, no table, the core owing nothing, the register towards the invariant, the other unscoped
    buffers past the region.  The invariant at the first point is the class's (the scratch buffers at some contents)
    and at the last point gives it back.  Exit: the arrays at their folds and the bypassing buffers are the unscoped
    buffers at the contents after the region. -/
def reg0 : RegionSeg (pcfgs (F := F)) adm (pdats m) () defs₀ Variants.none noL noLv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ noL noLv 0 fun _ _ => rfl
  pre c := iprop(StableHlo.held (c : Thread nD τ) (Pipeline.ucRefs τ sig) (V11 m c) ∗ rest c)
  post c := iprop(StableHlo.held (c : Thread nD τ) (Pipeline.ucRefs τ sig) (V12 m (outsOf m) c) ∗ rest c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    have harr := Pipeline.arrays_of_unscopedBufs (p := 0) (pcfgs (F := F)) adm (pdats m) launch0.win launch0.arr_whole c
      ((pdats m 0 c).share_full fun _ => rfl) (VA m c) fun w => A_eq0 (VA m) c w
    rw [Pipeline.unscopedBufs_held] at harr
    rw [Pipeline.ownSems0_none]
    iintro ⟨⟨Hheld, Hreg, Howes⟩, -, -⟩
    ihave Hsplit := harr $$ Hheld
    icases Hsplit with ⟨Harrs, Hbypass⟩
    imodintro
    isplitl [Harrs]; · iexact Harrs
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W
      isplitr; · ipureintro; exact fun _ _ => Or.inl trivial
      iexact Howes
    isplitl [Hreg]; · iexact Hreg
    iexact Hbypass
  hin c := by
    have hfirst := hin0 (VA m) c
    unfold Pipeline.ΦA at hfirst
    rw [show (pdats m 0 c).Φ 0 = (dat0 (VA m) c).Φ 0 from rfl]
    iintro ⟨Hreg, -, Hscratch⟩
    iapply hfirst
    isplitl [Hscratch]; · iexact Hscratch
    iexact Hreg
  hout c := by
    have hlast := hout0 (VA m) c
    unfold Pipeline.ΦA at hlast
    rw [Pipeline.ownSems0_none, show (pdats m 0 c).Φ (Fin.last _) = (dat0 (VA m) c).Φ (Fin.last cfg0.N) from rfl]
    iintro Hinv
    ihave Hclass := hlast $$ Hinv
    icases Hclass with ⟨Hscratch, Hreg⟩
    isplitl [Hreg]; · iexact Hreg
    isplitr; · iempintro
    iexact Hscratch
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (fun b => V12 m (outsOf m) c b) ((pdats m 0 c).arrAt · cfg0.N) (leaves0 m c) (keeps0 m c)
    rw [Pipeline.unscopedBufs_held] at hjoin
    iintro ⟨Harrs, Howes, Hreg, Hbypass⟩
    imodintro
    isplitl [Harrs Hbypass]
    · iapply hjoin; isplitl [Harrs] <;> iassumption
    isplitl [Hreg]; · iexact Hreg
    unfold Pipeline.Dat.owesAt Pipeline.owesWithin
    icases Howes with ⟨%W, -, Howes⟩
    iexists W; iexact Howes

set_option backward.isDefEq.respectTransparency.types false in
/-- REGION 1 between the thread states before and after it, as region 0 with nine arrays; its invariant is the
    class's own at every point. -/
def reg1 : RegionSeg (pcfgs (F := F)) adm (pdats m) () defs₀ Variants.none noL noLv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ noL noLv 1 fun _ _ => rfl
  pre c := iprop(StableHlo.held (c : Thread nD τ) (Pipeline.ucRefs τ sig) (V13 m (outsA m) c) ∗ rest c)
  post c := iprop(StableHlo.held (c : Thread nD τ) (Pipeline.ucRefs τ sig) (V14 m (outsOf m) c) ∗ rest c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    have harr := Pipeline.arrays_of_unscopedBufs (p := 1) (pcfgs (F := F)) adm (pdats m) launch1.win launch1.arr_whole c
      ((pdats m 1 c).share_full fun _ => rfl) (VB m c) fun w => A_eq1 (VB m) c w
    rw [Pipeline.unscopedBufs_held] at harr
    rw [Pipeline.ownSems0_none]
    iintro ⟨⟨Hheld, Hreg, Howes⟩, -, -⟩
    ihave Hsplit := harr $$ Hheld
    icases Hsplit with ⟨Harrs, Hbypass⟩
    imodintro
    isplitl [Harrs]; · iexact Harrs
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W
      isplitr; · ipureintro; exact fun _ _ => Or.inl trivial
      iexact Howes
    isplitl [Hreg]; · iexact Hreg
    iexact Hbypass
  hin c := by
    rw [show (pdats m 1 c).Φ 0 = Pipeline.ΦA spec1 c from rfl]; unfold Pipeline.ΦA
    iintro ⟨Hreg, -, Hscratch⟩
    isplitl [Hscratch]; · iexact Hscratch
    iexact Hreg
  hout c := by
    rw [Pipeline.ownSems0_none, show (pdats m 1 c).Φ (Fin.last _) = Pipeline.ΦA spec1 c from rfl]; unfold Pipeline.ΦA
    iintro ⟨Hscratch, Hreg⟩
    isplitl [Hreg]; · iexact Hreg
    isplitr; · iempintro
    iexact Hscratch
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (fun b => V14 m (outsOf m) c b) ((pdats m 1 c).arrAt · cfg1.N) (leaves1 m c) (keeps1 m c)
    rw [Pipeline.unscopedBufs_held] at hjoin
    iintro ⟨Harrs, Howes, Hreg, Hbypass⟩
    imodintro
    isplitl [Harrs Hbypass]
    · iapply hjoin; isplitl [Harrs] <;> iassumption
    isplitl [Hreg]; · iexact Hreg
    unfold Pipeline.Dat.owesAt Pipeline.owesWithin
    icases Howes with ⟨%W, -, Howes⟩
    iexists W; iexact Howes

/-! ## The launch and the run -/

set_option backward.isDefEq.respectTransparency.types false in
/-- THE RUN: from any launch memory with zero counters and any generator registers, every weakly fair execution of
    @main terminates; the result array then holds the fold of region 1's write-backs over the contents region 1 was
    entered with, and every argument array what it held at launch.  The conditional run at the two records: the
    launch's ghost state is the pipeline library's own element, each core's rest is made from what the launch deals
    it, and the thread states of the records are the generated module's by construction. -/
theorem run_main (ρ : Dev nD → PrngReg) :
    θ_run defs (onTc (τ := τ) (main (F := F))) ⟨m, fun _ => 0, ρ⟩ (fun r => ∀ c : Dev nD,
      r.2.mem ((c.tc : Thread nD τ).loc main_v48) = (dat1 (VB m) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  have hrun := RunCond.run_cond m (Ix := Unit) (U := UR sig nD τ) (Lvl := ℕ) (EP := emb₁) (ι := ())
    (𝒱₀ := Variants.none) (L := noL) (lv := noLv) (hL := fun _ _ => rfl) (ρ := ρ) (outs := outsOf m) (pdats := pdats m)
    (O₀ := fun _ => 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => rest c)
    (hE0 := by
      refine Pipeline.initEach noL noLv fun c => ?_
      iintro ⟨⟨-, Howes, -, Hreg, -⟩, -⟩
      imodintro
      isplitl [Hreg]; · iexists _; iexact Hreg
      iexists ∅; iexact Howes)
    (hE2 := fun c => by iintro ⟨-, Howes⟩; iexact Howes)
    (R0 := reg0 m) (hpre0 := fun c => .rfl) (hpost0 := fun c => .rfl)
    (R1 := reg1 m) (hpre1 := fun c => by rw [V13_outsOf]; exact .rfl) (hpost1 := fun c => .rfl)
  refine (θ_run defs _ _).mono (fun r h c => ?_) hrun
  rw [← outsOf_main_v48 m c]
  exact h c

end Cert.KernelIdeal.Hand

end
-- ==== Proof.Spec.lean ====
/-
  The edge messages as ONE function of the arrays they are computed from, over the extended reals, and the
  domain of the three index tables.

  A sparse bilinear bracket on a 248-dimensional algebra is given by 2480 structure-constant triples
  (I_t, J_t, K_t) with coefficients C_t.  For an edge `e` with projected source features `sp e ·` and target
  features `tg e ·` the message is

      M e k  =  ∑_{t : K_t = k}  (sp e I_t · tg e J_t) · C_t ,

  a sum over the triples whose output slot is `k`.  Each table entry is a basis index, so it lies in [0, 248);
  `InRange` says so of a table, and `col` reads an in-range word as the column it names.
-/
import Idealize.ShloMosaic.PureOps.Ideal
import Idealize.ShloMosaic.Lib.ValueIdx

noncomputable section

open scoped BigOperators

namespace Cert.Hand.Spec

open Idealize.ShloMosaic Idealize.ShloMosaic.ValueIdx

/-- Every entry of a table of 2480 signed 32-bit words is a basis index of the 248-dimensional algebra. -/
def InRange (w : IVec ⟨1, ![2480]⟩ 32) : Prop :=
  ∀ t : Fin 2480, 0 ≤ (w (ix1 t)).toInt ∧ (w (ix1 t)).toInt < 248

/-- The column an in-range table names at triple `t`. -/
def col (w : IVec ⟨1, ![2480]⟩ 32) (h : InRange w) (t : Fin 2480) : Fin 248 :=
  ⟨(w (ix1 t)).toInt.toNat, by have := h t; omega⟩

theorem col_val (w : IVec ⟨1, ![2480]⟩ 32) (h : InRange w) (t : Fin 2480) :
    ((col w h t).val : ℤ) = (w (ix1 t)).toInt := by
  have := h t; unfold col; simp only; omega

/-- The message of edge `i 0` at slot `i 1`: the sum, over the triples whose output slot is `i 1`, of the
    product of the projected source feature at the triple's first index, the target feature at its second,
    and the triple's coefficient. -/
def messages (sp tg : FVec Ideal ⟨2, ![100000, 248]⟩ .f32) (I J K : IVec ⟨1, ![2480]⟩ 32)
    (hI : InRange I) (hJ : InRange J) (hK : InRange K) (C : FVec Ideal ⟨1, ![2480]⟩ .f32) :
    FVec Ideal ⟨2, ![100000, 248]⟩ .f32 :=
  fun i => ∑ t : Fin 2480,
    if (col K hK t).val = (i 1).val then
      (sp (ix2 (i 0) (col I hI t)) * tg (ix2 (i 0) (col J hJ t))) * C (ix1 t)
    else 0

end Cert.Hand.Spec

end
-- ==== Proof.PreDecode.lean ====
/-
  The printed precondition, decoded for the three index tables.

  The precondition is a conjunction of "every entry satisfies p" claims, one per argument.  For each of the
  three tables of 2480 signed 32-bit words the claim is: every entry w satisfies 0 ≤ w (signed) and
  w < 248 (signed).  A conjunction that is 1 has every conjunct 1; an "and"-reduction over all entries that is 1
  met a 1 at every entry; and the two signed comparisons at an entry, both 1, say that the entry read as an
  integer lies in [0, 248).
-/
import proofs.«425772_j3977139716372_1_alg».proof.Pre_finite_inputs
import proofs.«425772_j3977139716372_1_alg».proof.Proof.Spec
import Idealize.ShloMosaic.Lib.ReduceAll
import Idealize.ShloMosaic.Lib.StableHlo.Predicate
import Idealize.ShloMosaic.Lib.ValueIdx

noncomputable section

namespace Cert.Hand.Pre

open Idealize.ShloMosaic Idealize.ShloMosaic.ValueIdx
open Cert.Pre_finite_inputs Cert.Pre_finite_inputs.Facts

variable [Cert.Pre_finite_inputs.Facts]

/-- The result of a reduction over all axes has one index. -/
instance subsingleton_idx_S_ : Subsingleton S_.Idx := ⟨fun a b => funext fun d => d.elim0⟩

/-- ONE TABLE'S CONJUNCT: if the "and" over all 2480 entries of (0 ≤ w signed) and (w < 248 signed) is 1, every entry
    of the table, read as an integer, lies in [0, 248). -/
theorem inRange_of_all (w : IVec S2480 32)
    (e : Host.reduce IntOp.andi
        (andi (cmpi .sge w (broadcastInDim S2480 ![] bcast_S_S2480 (constantI S_ 32 0#32)))
              (cmpi .slt w (broadcastInDim S2480 ![] bcast_S_S2480 (constantI S_ 32 248#32))))
        (constantI S_ 1 1#1) reducesTo_S2480_S_d0 h_S_ ix0 = 1#1) :
    Cert.Hand.Spec.InRange w := by
  intro t
  have ht := Host.reduce_andi_all _ _ _ _ _ e (ix1 t)
  -- at entry t the conjunct is the "and" of the two comparison words of w t against the constants 0 and 248
  change IntOp.andi (IntOp.cmpi .sge (w (ix1 t)) (0#32)) (IntOp.cmpi .slt (w (ix1 t)) (248#32)) = 1#1 at ht
  obtain ⟨h0, h1⟩ := IntOp.andi_eq_one.1 ht
  rw [IntOp.cmpi_sge] at h0
  rw [IntOp.cmpi_slt] at h1
  have z0 : (0#32 : BitVec 32).toInt = 0 := by decide
  have z1 : (248#32 : BitVec 32).toInt = 248 := by decide
  rw [z0] at h0
  rw [z1] at h1
  exact ⟨h0, h1⟩

/-- THE THREE TABLES IN RANGE: when the printed precondition of the thirteen arguments is all ones, each of the three
    index tables holds only basis indices of the 248-dimensional algebra. -/
theorem tables_in_range {F : FTy → Type} [FloatOps F]
    (a0 : FVec F S10000x248 .f32) (a1 : IVec S2x100000 32) (a2 : FVec F S248x248 .f32) (a3 : FVec F S512x248 .f32)
    (a4 : FVec F S512 .f32) (a5 : FVec F S248x512 .f32) (a6 : FVec F S248 .f32) (a7 : FVec F S248 .f32)
    (a8 : FVec F S248 .f32) (a9 : IVec S2480 32) (a10 : IVec S2480 32) (a11 : IVec S2480 32) (a12 : FVec F S2480 .f32)
    (h : Cert.Pre_finite_inputs.fn (F := F) a0 a1 a2 a3 a4 a5 a6 a7 a8 a9 a10 a11 a12 = fun _ => 1#1) :
    Cert.Hand.Spec.InRange a9 ∧ Cert.Hand.Spec.InRange a10 ∧ Cert.Hand.Spec.InRange a11 := by
  have e := congrFun h ix0
  dsimp only [fn, fn_part1, fn_part2, fn_part3] at e
  -- the conjunction is nested to the left: the last three conjuncts are the three tables', in order
  obtain ⟨e57, e11⟩ := IntOp.andi_eq_one.1 e
  obtain ⟨e50, e10⟩ := IntOp.andi_eq_one.1 e57
  obtain ⟨-, e9⟩ := IntOp.andi_eq_one.1 e50
  exact ⟨inRange_of_all a9 e9, inRange_of_all a10 e10, inRange_of_all a11 e11⟩

end Cert.Hand.Pre

end
-- ==== Proof.R0Payload.lean ====
import proofs.«425772_j3977139716372_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-! # The three stored values of one grid point, each read at one entry

The zero block; the block product x · w of a [2000,248] block and a [248,248] matrix; and the accumulated block
a9 + ((a10 · g3) ∘ (x1 · g4)) · s5, with ∘ the entrywise product of two [2000,256] blocks. Each is read at one
entry as the sums it is made of; nothing is rearranged. -/

set_option synthInstance.maxSize 4096

noncomputable section

namespace Cert.KernelIdeal.Hand

open Cert.KernelIdeal Cert.KernelIdeal.Gen
open Idealize.ShloMosaic Idealize.SL.Sem Idealize.ShloMosaic.ValueIdx
open scoped BigOperators

/-! ## The zero block -/

/-- The splat of the zero word, cast to its own shape, reads zero at every entry. -/
theorem pay1_apply (i : S2000x248.Idx) : k0_pay1 (F := Ideal) i = 0 := by
  unfold k0_pay1
  refine (congrFun (shapeCast_self _ shapeCasts_S2000x248_S2000x248) i).trans ?_
  exact Ideal.ofBits_zero_f32

/-! ## The block product [2000,248] · [248,248] -/

/-- Left operand of the product, row axis: the output's row. -/
theorem lhs_dot_S2000x248_S248x248_S2000x248_1_0_0_1_n_n_0 (i : S2000x248.Idx)
    (q : dot_S2000x248_S248x248_S2000x248_1_0_0_1_n_n.contr.Idx) :
    (dot_S2000x248_S248x248_S2000x248_1_0_0_1_n_n.lhsIdx i q 0).val = (i 0).val := by
  unfold DotDims.lhsIdx
  rw [dif_neg (show ¬(0 : Fin S2000x248.rank) ∈ dot_S2000x248_S248x248_S2000x248_1_0_0_1_n_n.lhsBatch by decide),
    dif_pos (show (0 : Fin S2000x248.rank) ∈ dot_S2000x248_S248x248_S2000x248_1_0_0_1_n_n.lhsNonContracting by decide)]
  rfl
/-- Left operand, column axis: the contracted coordinate. -/
theorem lhs_dot_S2000x248_S248x248_S2000x248_1_0_0_1_n_n_1 (i : S2000x248.Idx)
    (q : dot_S2000x248_S248x248_S2000x248_1_0_0_1_n_n.contr.Idx) :
    (dot_S2000x248_S248x248_S2000x248_1_0_0_1_n_n.lhsIdx i q 1).val = (q ⟨0, by decide⟩).val :=
  dot_S2000x248_S248x248_S2000x248_1_0_0_1_n_n.lhsIdx_val_of_single rfl i q
/-- Right operand, row axis: the contracted coordinate. -/
theorem rhs_dot_S2000x248_S248x248_S2000x248_1_0_0_1_n_n_0 (i : S2000x248.Idx)
    (q : dot_S2000x248_S248x248_S2000x248_1_0_0_1_n_n.contr.Idx) :
    (dot_S2000x248_S248x248_S2000x248_1_0_0_1_n_n.rhsIdx i q 0).val = (q ⟨0, by decide⟩).val :=
  dot_S2000x248_S248x248_S2000x248_1_0_0_1_n_n.rhsIdx_val_of_single rfl i q
/-- Right operand, column axis: the output's column. -/
theorem rhs_dot_S2000x248_S248x248_S2000x248_1_0_0_1_n_n_1 (i : S2000x248.Idx)
    (q : dot_S2000x248_S248x248_S2000x248_1_0_0_1_n_n.contr.Idx) :
    (dot_S2000x248_S248x248_S2000x248_1_0_0_1_n_n.rhsIdx i q 1).val = (i 1).val := by
  unfold DotDims.rhsIdx
  rw [dif_neg (show ¬(1 : Fin S248x248.rank) ∈ dot_S2000x248_S248x248_S2000x248_1_0_0_1_n_n.rhsBatch by decide),
    dif_pos (show (1 : Fin S248x248.rank) ∈ dot_S2000x248_S248x248_S2000x248_1_0_0_1_n_n.rhsNonContracting by decide)]
  rfl

/-- The product into a zero accumulator, at entry (r, d): the sum over the shared axis of row r of the left block
    times column d of the right one. -/
theorem matmul_2000x248_248x248_apply (x : FVec Ideal S2000x248 .bf16) (w : FVec Ideal S248x248 .bf16)
    (r : Fin 2000) (d : Fin 248) :
    matmul dot_S2000x248_S248x248_S2000x248_1_0_0_1_n_n none x w (constant (F := Ideal) S2000x248 .f32 0x00000000#32) (ix2 r d)
      = ∑ j : Fin 248, x (ix2 r j) * w (ix2 j d) := by
  simp only [matmul]
  rw [Ideal.matmul_constant_zero_apply,
    ← Equiv.sum_comp (contrEquiv1 dot_S2000x248_S248x248_S2000x248_1_0_0_1_n_n 248 rfl rfl).symm]
  refine Finset.sum_congr rfl fun j _ => ?_
  have hj := contrEquiv1_symm_val dot_S2000x248_S248x248_S2000x248_1_0_0_1_n_n 248 rfl rfl j
  have el : dot_S2000x248_S248x248_S2000x248_1_0_0_1_n_n.lhsIdx (ix2 r d)
      ((contrEquiv1 dot_S2000x248_S248x248_S2000x248_1_0_0_1_n_n 248 rfl rfl).symm j) = ix2 r j :=
    funext fun a => Fin.ext (by
      match a with
      | ⟨0, _⟩ => exact lhs_dot_S2000x248_S248x248_S2000x248_1_0_0_1_n_n_0 _ _
      | ⟨1, _⟩ => exact (lhs_dot_S2000x248_S248x248_S2000x248_1_0_0_1_n_n_1 _ _).trans hj)
  have er : dot_S2000x248_S248x248_S2000x248_1_0_0_1_n_n.rhsIdx (ix2 r d)
      ((contrEquiv1 dot_S2000x248_S248x248_S2000x248_1_0_0_1_n_n 248 rfl rfl).symm j) = ix2 j d :=
    funext fun a => Fin.ext (by
      match a with
      | ⟨0, _⟩ => exact (rhs_dot_S2000x248_S248x248_S2000x248_1_0_0_1_n_n_0 _ _).trans hj
      | ⟨1, _⟩ => exact rhs_dot_S2000x248_S248x248_S2000x248_1_0_0_1_n_n_1 _ _)
  rw [el, er]

/-- The second stored value at entry (r, d): the casts to the same shape are identities, the change of format keeps
    the value, and what is left is the product into the zero accumulator. -/
theorem pay2_apply (x : Vec Ideal S2000x248 .bf16) (w : Vec Ideal S248x248 .bf16) (r : Fin 2000) (d : Fin 248) :
    k0_pay2 x w (ix2 r d) = ∑ j : Fin 248, x (ix2 r j) * w (ix2 j d) := by
  unfold k0_pay2
  refine (congrFun (shapeCast_self _ shapeCasts_S2000x248_S2000x248) (ix2 r d)).trans ?_
  refine (truncf_apply _ bitsLt_bf16_f32 (ix2 r d)).trans ?_
  rw [shapeCast_self x shapeCasts_S2000x248_S2000x248, shapeCast_self w shapeCasts_S248x248_S248x248]
  exact matmul_2000x248_248x248_apply x w r d

/-! ## The block product [2000,248] · [248,256] -/

/-- Left operand of the product, row axis: the output's row. -/
theorem lhs_dot_S2000x248_S248x256_S2000x256_1_0_0_1_n_n_0 (i : S2000x256.Idx)
    (q : dot_S2000x248_S248x256_S2000x256_1_0_0_1_n_n.contr.Idx) :
    (dot_S2000x248_S248x256_S2000x256_1_0_0_1_n_n.lhsIdx i q 0).val = (i 0).val := by
  unfold DotDims.lhsIdx
  rw [dif_neg (show ¬(0 : Fin S2000x248.rank) ∈ dot_S2000x248_S248x256_S2000x256_1_0_0_1_n_n.lhsBatch by decide),
    dif_pos (show (0 : Fin S2000x248.rank) ∈ dot_S2000x248_S248x256_S2000x256_1_0_0_1_n_n.lhsNonContracting by decide)]
  rfl
/-- Left operand, column axis: the contracted coordinate. -/
theorem lhs_dot_S2000x248_S248x256_S2000x256_1_0_0_1_n_n_1 (i : S2000x256.Idx)
    (q : dot_S2000x248_S248x256_S2000x256_1_0_0_1_n_n.contr.Idx) :
    (dot_S2000x248_S248x256_S2000x256_1_0_0_1_n_n.lhsIdx i q 1).val = (q ⟨0, by decide⟩).val :=
  dot_S2000x248_S248x256_S2000x256_1_0_0_1_n_n.lhsIdx_val_of_single rfl i q
/-- Right operand, row axis: the contracted coordinate. -/
theorem rhs_dot_S2000x248_S248x256_S2000x256_1_0_0_1_n_n_0 (i : S2000x256.Idx)
    (q : dot_S2000x248_S248x256_S2000x256_1_0_0_1_n_n.contr.Idx) :
    (dot_S2000x248_S248x256_S2000x256_1_0_0_1_n_n.rhsIdx i q 0).val = (q ⟨0, by decide⟩).val :=
  dot_S2000x248_S248x256_S2000x256_1_0_0_1_n_n.rhsIdx_val_of_single rfl i q
/-- Right operand, column axis: the output's column. -/
theorem rhs_dot_S2000x248_S248x256_S2000x256_1_0_0_1_n_n_1 (i : S2000x256.Idx)
    (q : dot_S2000x248_S248x256_S2000x256_1_0_0_1_n_n.contr.Idx) :
    (dot_S2000x248_S248x256_S2000x256_1_0_0_1_n_n.rhsIdx i q 1).val = (i 1).val := by
  unfold DotDims.rhsIdx
  rw [dif_neg (show ¬(1 : Fin S248x256.rank) ∈ dot_S2000x248_S248x256_S2000x256_1_0_0_1_n_n.rhsBatch by decide),
    dif_pos (show (1 : Fin S248x256.rank) ∈ dot_S2000x248_S248x256_S2000x256_1_0_0_1_n_n.rhsNonContracting by decide)]
  rfl

/-- The product into a zero accumulator, at entry (r, u): the sum over the shared axis of row r of the left block
    times column u of the right one. -/
theorem matmul_2000x248_248x256_apply (x : FVec Ideal S2000x248 .bf16) (g : FVec Ideal S248x256 .bf16)
    (r : Fin 2000) (u : Fin 256) :
    matmul dot_S2000x248_S248x256_S2000x256_1_0_0_1_n_n none x g (constant (F := Ideal) S2000x256 .f32 0x00000000#32) (ix2 r u)
      = ∑ d : Fin 248, x (ix2 r d) * g (ix2 d u) := by
  simp only [matmul]
  rw [Ideal.matmul_constant_zero_apply,
    ← Equiv.sum_comp (contrEquiv1 dot_S2000x248_S248x256_S2000x256_1_0_0_1_n_n 248 rfl rfl).symm]
  refine Finset.sum_congr rfl fun d _ => ?_
  have hd := contrEquiv1_symm_val dot_S2000x248_S248x256_S2000x256_1_0_0_1_n_n 248 rfl rfl d
  have el : dot_S2000x248_S248x256_S2000x256_1_0_0_1_n_n.lhsIdx (ix2 r u)
      ((contrEquiv1 dot_S2000x248_S248x256_S2000x256_1_0_0_1_n_n 248 rfl rfl).symm d) = ix2 r d :=
    funext fun a => Fin.ext (by
      match a with
      | ⟨0, _⟩ => exact lhs_dot_S2000x248_S248x256_S2000x256_1_0_0_1_n_n_0 _ _
      | ⟨1, _⟩ => exact (lhs_dot_S2000x248_S248x256_S2000x256_1_0_0_1_n_n_1 _ _).trans hd)
  have er : dot_S2000x248_S248x256_S2000x256_1_0_0_1_n_n.rhsIdx (ix2 r u)
      ((contrEquiv1 dot_S2000x248_S248x256_S2000x256_1_0_0_1_n_n 248 rfl rfl).symm d) = ix2 d u :=
    funext fun a => Fin.ext (by
      match a with
      | ⟨0, _⟩ => exact (rhs_dot_S2000x248_S248x256_S2000x256_1_0_0_1_n_n_0 _ _).trans hd
      | ⟨1, _⟩ => exact rhs_dot_S2000x248_S248x256_S2000x256_1_0_0_1_n_n_1 _ _)
  rw [el, er]

/-! ## The block product [2000,256] · [256,248] -/

/-- Left operand of the product, row axis: the output's row. -/
theorem lhs_dot_S2000x256_S256x248_S2000x248_1_0_0_1_n_n_0 (i : S2000x248.Idx)
    (q : dot_S2000x256_S256x248_S2000x248_1_0_0_1_n_n.contr.Idx) :
    (dot_S2000x256_S256x248_S2000x248_1_0_0_1_n_n.lhsIdx i q 0).val = (i 0).val := by
  unfold DotDims.lhsIdx
  rw [dif_neg (show ¬(0 : Fin S2000x256.rank) ∈ dot_S2000x256_S256x248_S2000x248_1_0_0_1_n_n.lhsBatch by decide),
    dif_pos (show (0 : Fin S2000x256.rank) ∈ dot_S2000x256_S256x248_S2000x248_1_0_0_1_n_n.lhsNonContracting by decide)]
  rfl
/-- Left operand, column axis: the contracted coordinate. -/
theorem lhs_dot_S2000x256_S256x248_S2000x248_1_0_0_1_n_n_1 (i : S2000x248.Idx)
    (q : dot_S2000x256_S256x248_S2000x248_1_0_0_1_n_n.contr.Idx) :
    (dot_S2000x256_S256x248_S2000x248_1_0_0_1_n_n.lhsIdx i q 1).val = (q ⟨0, by decide⟩).val :=
  dot_S2000x256_S256x248_S2000x248_1_0_0_1_n_n.lhsIdx_val_of_single rfl i q
/-- Right operand, row axis: the contracted coordinate. -/
theorem rhs_dot_S2000x256_S256x248_S2000x248_1_0_0_1_n_n_0 (i : S2000x248.Idx)
    (q : dot_S2000x256_S256x248_S2000x248_1_0_0_1_n_n.contr.Idx) :
    (dot_S2000x256_S256x248_S2000x248_1_0_0_1_n_n.rhsIdx i q 0).val = (q ⟨0, by decide⟩).val :=
  dot_S2000x256_S256x248_S2000x248_1_0_0_1_n_n.rhsIdx_val_of_single rfl i q
/-- Right operand, column axis: the output's column. -/
theorem rhs_dot_S2000x256_S256x248_S2000x248_1_0_0_1_n_n_1 (i : S2000x248.Idx)
    (q : dot_S2000x256_S256x248_S2000x248_1_0_0_1_n_n.contr.Idx) :
    (dot_S2000x256_S256x248_S2000x248_1_0_0_1_n_n.rhsIdx i q 1).val = (i 1).val := by
  unfold DotDims.rhsIdx
  rw [dif_neg (show ¬(1 : Fin S256x248.rank) ∈ dot_S2000x256_S256x248_S2000x248_1_0_0_1_n_n.rhsBatch by decide),
    dif_pos (show (1 : Fin S256x248.rank) ∈ dot_S2000x256_S256x248_S2000x248_1_0_0_1_n_n.rhsNonContracting by decide)]
  rfl

/-- The product into a zero accumulator, at entry (r, k): the sum over the shared axis of row r of the left block
    times column k of the right one. -/
theorem matmul_2000x256_256x248_apply (p : FVec Ideal S2000x256 .bf16) (s : FVec Ideal S256x248 .bf16)
    (r : Fin 2000) (k : Fin 248) :
    matmul dot_S2000x256_S256x248_S2000x248_1_0_0_1_n_n none p s (constant (F := Ideal) S2000x248 .f32 0x00000000#32) (ix2 r k)
      = ∑ u : Fin 256, p (ix2 r u) * s (ix2 u k) := by
  simp only [matmul]
  rw [Ideal.matmul_constant_zero_apply,
    ← Equiv.sum_comp (contrEquiv1 dot_S2000x256_S256x248_S2000x248_1_0_0_1_n_n 256 rfl rfl).symm]
  refine Finset.sum_congr rfl fun u _ => ?_
  have hu := contrEquiv1_symm_val dot_S2000x256_S256x248_S2000x248_1_0_0_1_n_n 256 rfl rfl u
  have el : dot_S2000x256_S256x248_S2000x248_1_0_0_1_n_n.lhsIdx (ix2 r k)
      ((contrEquiv1 dot_S2000x256_S256x248_S2000x248_1_0_0_1_n_n 256 rfl rfl).symm u) = ix2 r u :=
    funext fun a => Fin.ext (by
      match a with
      | ⟨0, _⟩ => exact lhs_dot_S2000x256_S256x248_S2000x248_1_0_0_1_n_n_0 _ _
      | ⟨1, _⟩ => exact (lhs_dot_S2000x256_S256x248_S2000x248_1_0_0_1_n_n_1 _ _).trans hu)
  have er : dot_S2000x256_S256x248_S2000x248_1_0_0_1_n_n.rhsIdx (ix2 r k)
      ((contrEquiv1 dot_S2000x256_S256x248_S2000x248_1_0_0_1_n_n 256 rfl rfl).symm u) = ix2 u k :=
    funext fun a => Fin.ext (by
      match a with
      | ⟨0, _⟩ => exact (rhs_dot_S2000x256_S256x248_S2000x248_1_0_0_1_n_n_0 _ _).trans hu
      | ⟨1, _⟩ => exact rhs_dot_S2000x256_S256x248_S2000x248_1_0_0_1_n_n_1 _ _)
  rw [el, er]

/-! ## The accumulated block -/

/-- The third stored value at entry (r, k): the running block's entry plus the sum over u of the entrywise product
    of the two [2000,256] products at (r, u) times the [256,248] block at (u, k). The casts to the same shape are
    identities and the change of format keeps the value. -/
theorem pay3_apply (a10 : Vec Ideal S2000x248 .bf16) (g3 : Vec Ideal S248x256 .bf16) (x1 : Vec Ideal S2000x248 .bf16)
    (g4 : Vec Ideal S248x256 .bf16) (s5 : Vec Ideal S256x248 .bf16) (a9 : Vec Ideal S2000x248 .f32)
    (r : Fin 2000) (k : Fin 248) :
    k0_pay3 a10 g3 x1 g4 s5 a9 (ix2 r k)
      = a9 (ix2 r k) + ∑ u : Fin 256, ((∑ d : Fin 248, a10 (ix2 r d) * g3 (ix2 d u))
          * (∑ d : Fin 248, x1 (ix2 r d) * g4 (ix2 d u))) * s5 (ix2 u k) := by
  unfold k0_pay3
  refine (congrFun (shapeCast_self _ shapeCasts_S2000x248_S2000x248) (ix2 r k)).trans ?_
  refine (addf_apply _ _ (ix2 r k)).trans ?_
  refine congrArg (a9 (ix2 r k) + ·) ?_
  rw [shapeCast_self g3 shapeCasts_S248x256_S248x256, shapeCast_self x1 shapeCasts_S2000x248_S2000x248,
    shapeCast_self g4 shapeCasts_S248x256_S248x256, shapeCast_self s5 shapeCasts_S256x248_S256x248]
  refine (matmul_2000x256_256x248_apply _ s5 r k).trans ?_
  refine Finset.sum_congr rfl fun u _ => ?_
  refine congrArg (· * s5 (ix2 u k)) ?_
  refine (truncf_apply _ bitsLt_bf16_f32 (ix2 r u)).trans ?_
  refine (mulf_apply _ _ (ix2 r u)).trans ?_
  rw [matmul_2000x248_248x256_apply a10 g3 r u, matmul_2000x248_248x256_apply x1 g4 r u]

end Cert.KernelIdeal.Hand
-- ==== Proof.KerSpec.lean ====
/-
  The edge messages in the form a blocked dense computation produces them, over the extended reals.

  The 2480 triples are padded to 2560 = 10 · 256 slots and visited in ten blocks of 256.  With the structure
  constants laid out as dense matrices — `GI`, `GJ` of shape [248, 2560] selecting a feature per slot, and `S` of shape
  [2560, 248] carrying each slot's coefficient into its output column — the message of edge `e` at column `k` is

      ∑_{b < 10} ∑_{u < 256}  ( (∑_d sp e d · GI d s) · (∑_d tg e d · GJ d s) ) · S s k ,     s = 256·b + u,

  each inner sum a row of a matrix product, the outer double sum the blocks accumulated in order.  `proj` is the
  matrix product that makes the projected source features from the source features and the transposed weight.
-/
import Idealize.ShloMosaic.PureOps.Ideal
import Idealize.ShloMosaic.Lib.ValueIdx

noncomputable section

open scoped BigOperators

namespace Cert.Hand.KerSpec

open Idealize.ShloMosaic Idealize.ShloMosaic.ValueIdx

/-- A rank-2 array of extended reals with literal extents. -/
abbrev Arr2 (a b : Nat) : Type := (⟨2, ![a, b]⟩ : Shape).Idx → EReal

/-- Row `i 0` of `X` times column `i 1` of `Wt`. -/
def proj (X : Arr2 100000 248) (Wt : Arr2 248 248) : Arr2 100000 248 :=
  fun i => ∑ j : Fin 248, X (ix2 (i 0) j) * Wt (ix2 j (i 1))

/-- Slot `256·b + u` of the padded triple axis. -/
def slot (b : Fin 10) (u : Fin 256) : Fin 2560 := ⟨256 * b.val + u.val, by omega⟩

/-- The blocked form of the messages. -/
def messages (sp tg : Arr2 100000 248) (GI GJ : Arr2 248 2560) (S : Arr2 2560 248) : Arr2 100000 248 :=
  fun i => ∑ b : Fin 10, ∑ u : Fin 256,
    ((∑ d : Fin 248, sp (ix2 (i 0) d) * GI (ix2 d (slot b u)))
      * (∑ d : Fin 248, tg (ix2 (i 0) d) * GJ (ix2 d (slot b u))))
    * S (ix2 (slot b u) (i 1))

end Cert.Hand.KerSpec

end
-- ==== Proof.R0Value.lean ====
import proofs.«425772_j3977139716372_1_alg».proof.Proof.R0Body
import proofs.«425772_j3977139716372_1_alg».proof.Proof.R0Payload
import proofs.«425772_j3977139716372_1_alg».proof.Proof.KerSpec
import Idealize.ShloMosaic.Lib.Pipeline.Value
import Idealize.ShloMosaic.Lib.ValueIdx

/-!
# Region 0 of @main: from blocks to the array

What the messages array [100000, 248] holds after the first call, as one function of the six input arrays at the
region's entry. The grid is 50 × 10 and point `t = 10·i + k`. Row block `i` (2000 rows) of the source and of the
target feature rows stays along `k`; slot block `k` (256 of the 2560 padded slots) of the two selector matrices and
of the coefficient matrix moves with `k`; the transposed weight is one block. At `k = 0` the accumulator is zeroed
and the projected source rows (the source block times the transposed weight) are stored; every point adds its slot
block's addend `((lhs · GI-block) ∘ (tgt · GJ-block)) · S-block`; the point `k = 9` writes the accumulator back.
So after point `10·i + k` the accumulator is `0 + P_0 + … + P_k` in that order: a finite sum of extended reals,
which is commutative and associative (nothing is distributed, nothing subtracted). The row block written back at
`k = 9` is the sum over the ten slot blocks, the blocked form of the messages, and the fifty row blocks tile the array.
-/

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.Hand.KerSpec (proj slot messages)
open scoped BigOperators

variable (V : (c : Dev nD) → (b : Ref sig .tc) → Buf (Elt Ideal) ((c : Thread nD τ).loc b))

namespace R0Value

/-! ## The six input arrays, the row of a point's row block, the slot of a point's slot block -/

/-- The source feature rows, the target feature rows, the transposed message weight, the two selector matrices and
    the coefficient matrix, as the region finds them. -/
abbrev srcA (c : Dev nD) : Vec Ideal S100000x248 .bf16 := V c main_v18
abbrev tgtA (c : Dev nD) : Vec Ideal S100000x248 .bf16 := V c main_v19
abbrev wtA (c : Dev nD) : Vec Ideal S248x248 .bf16 := V c main_v35
abbrev giA (c : Dev nD) : Vec Ideal S248x2560 .bf16 := V c main_v25
abbrev gjA (c : Dev nD) : Vec Ideal S248x2560 .bf16 := V c main_v28
abbrev coA (c : Dev nD) : Vec Ideal S2560x248 .bf16 := V c main_v33

theorem N0 : cfg0.N = 500 := N_0

/-- Row `r` of the row block of point `t = 10·i + k`: row `2000·i + r` of the edge axis. -/
def rowOf (t : Fin cfg0.N) (r : Fin 2000) : Fin 100000 :=
  ⟨2000 * (t.val / 10) + r.val, by have := lt_of_lt_of_eq t.isLt N0; have := r.isLt; omega⟩

/-- Slot `u` of the slot block of point `t = 10·i + k`: slot `256·k + u` of the padded triple axis. -/
def slotOf (t : Fin cfg0.N) (u : Fin 256) : Fin 2560 :=
  ⟨256 * (t.val % 10) + u.val, by have := u.isLt; omega⟩

/-! ## The index maps, decided once over the grid -/

theorem idx_facts : ∀ t : Fin cfg0.N,
    win0_0.index t (0 : Fin 2) = t.val / 10 ∧ win0_0.index t (1 : Fin 2) = 0
    ∧ win0_1.index t (0 : Fin 2) = t.val / 10 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val % 10
    ∧ win0_4.index t (0 : Fin 2) = 0 ∧ win0_4.index t (1 : Fin 2) = t.val % 10
    ∧ win0_5.index t (0 : Fin 2) = t.val % 10 ∧ win0_5.index t (1 : Fin 2) = 0
    ∧ win0_6.index t (0 : Fin 2) = t.val / 10 ∧ win0_6.index t (1 : Fin 2) = 0 :=
  (by decide +kernel : ∀ t : Fin grid0.N, _)

/-! ## Each input block read where its rectangle says -/

theorem B0_apply (c : Dev nD) (t : Fin cfg0.N) (r : Fin 2000) (d : Fin 248) :
    B0 V c t (ix2 r d) = srcA V c (ix2 (rowOf t r) d) := by
  obtain ⟨e0, e1, -⟩ := idx_facts t
  unfold B0 iblk0
  rw [View.read_apply]
  show V c main_v18 _ = V c main_v18 _
  congr 1
  funext a
  apply Fin.ext
  match a with
  | ⟨0, _⟩ => show win0_0.index t (0 : Fin 2) * 2000 + 1 * r.val = 2000 * (t.val / 10) + r.val; rw [e0]; omega
  | ⟨1, _⟩ => show win0_0.index t (1 : Fin 2) * 248 + 1 * d.val = d.val; rw [e1]; omega

theorem B1_apply (c : Dev nD) (t : Fin cfg0.N) (r : Fin 2000) (d : Fin 248) :
    B1 V c t (ix2 r d) = tgtA V c (ix2 (rowOf t r) d) := by
  obtain ⟨-, -, e0, e1, -⟩ := idx_facts t
  unfold B1 iblk0
  rw [View.read_apply]
  show V c main_v19 _ = V c main_v19 _
  congr 1
  funext a
  apply Fin.ext
  match a with
  | ⟨0, _⟩ => show win0_1.index t (0 : Fin 2) * 2000 + 1 * r.val = 2000 * (t.val / 10) + r.val; rw [e0]; omega
  | ⟨1, _⟩ => show win0_1.index t (1 : Fin 2) * 248 + 1 * d.val = d.val; rw [e1]; omega

theorem B2_apply (c : Dev nD) (t : Fin cfg0.N) (j : Fin 248) (d : Fin 248) :
    B2 V c t (ix2 j d) = wtA V c (ix2 j d) := by
  obtain ⟨-, -, -, -, e0, e1, -⟩ := idx_facts t
  unfold B2 iblk0
  rw [View.read_apply]
  show V c main_v35 _ = V c main_v35 _
  congr 1
  funext a
  apply Fin.ext
  match a with
  | ⟨0, _⟩ => show win0_2.index t (0 : Fin 2) * 248 + 1 * j.val = j.val; rw [e0]; omega
  | ⟨1, _⟩ => show win0_2.index t (1 : Fin 2) * 248 + 1 * d.val = d.val; rw [e1]; omega

theorem B3_apply (c : Dev nD) (t : Fin cfg0.N) (d : Fin 248) (u : Fin 256) :
    B3 V c t (ix2 d u) = giA V c (ix2 d (slotOf t u)) := by
  obtain ⟨-, -, -, -, -, -, e0, e1, -⟩ := idx_facts t
  unfold B3 iblk0
  rw [View.read_apply]
  show V c main_v25 _ = V c main_v25 _
  congr 1
  funext a
  apply Fin.ext
  match a with
  | ⟨0, _⟩ => show win0_3.index t (0 : Fin 2) * 248 + 1 * d.val = d.val; rw [e0]; omega
  | ⟨1, _⟩ => show win0_3.index t (1 : Fin 2) * 256 + 1 * u.val = 256 * (t.val % 10) + u.val; rw [e1]; omega

theorem B4_apply (c : Dev nD) (t : Fin cfg0.N) (d : Fin 248) (u : Fin 256) :
    B4 V c t (ix2 d u) = gjA V c (ix2 d (slotOf t u)) := by
  obtain ⟨-, -, -, -, -, -, -, -, e0, e1, -⟩ := idx_facts t
  unfold B4 iblk0
  rw [View.read_apply]
  show V c main_v28 _ = V c main_v28 _
  congr 1
  funext a
  apply Fin.ext
  match a with
  | ⟨0, _⟩ => show win0_4.index t (0 : Fin 2) * 248 + 1 * d.val = d.val; rw [e0]; omega
  | ⟨1, _⟩ => show win0_4.index t (1 : Fin 2) * 256 + 1 * u.val = 256 * (t.val % 10) + u.val; rw [e1]; omega

theorem B5_apply (c : Dev nD) (t : Fin cfg0.N) (u : Fin 256) (k : Fin 248) :
    B5 V c t (ix2 u k) = coA V c (ix2 (slotOf t u) k) := by
  obtain ⟨-, -, -, -, -, -, -, -, -, -, e0, e1, -⟩ := idx_facts t
  unfold B5 iblk0
  rw [View.read_apply]
  show V c main_v33 _ = V c main_v33 _
  congr 1
  funext a
  apply Fin.ext
  match a with
  | ⟨0, _⟩ => show win0_5.index t (0 : Fin 2) * 256 + 1 * u.val = 256 * (t.val % 10) + u.val; rw [e0]; omega
  | ⟨1, _⟩ => show win0_5.index t (1 : Fin 2) * 248 + 1 * k.val = k.val; rw [e1]; omega

/-! ## What one slot block adds, and the invariant of the two scratch buffers -/

/-- What slot block `b` adds to the message of edge `e` at column `k`. -/
def term (c : Dev nD) (e : Fin 100000) (k : Fin 248) (b : Fin 10) : EReal :=
  ∑ u : Fin 256,
    ((∑ d : Fin 248, proj (srcA V c) (wtA V c) (ix2 e d) * giA V c (ix2 d (slot b u)))
      * (∑ d : Fin 248, tgtA V c (ix2 e d) * gjA V c (ix2 d (slot b u))))
    * coA V c (ix2 (slot b u) k)

/-- The same with the block's number a natural: nothing past the ten blocks. -/
def termN (c : Dev nD) (e : Fin 100000) (k : Fin 248) (b : ℕ) : EReal :=
  if h : b < 10 then term V c e k ⟨b, h⟩ else 0

/-- The stored projection at a point with `k = 0` is the projected source rows of the point's row block. -/
theorem lhs0_apply (c : Dev nD) (t : Fin cfg0.N) (r : Fin 2000) (d : Fin 248) :
    lhs0 V c t (ix2 r d) = proj (srcA V c) (wtA V c) (ix2 (rowOf t r) d) := by
  refine (pay2_apply (B0 V c t) (B2 V c t) r d).trans ?_
  simp only [B0_apply, B2_apply]
  rfl

/-- What point `t` adds to the accumulator, once the stored projection is the projected source rows of its row block:
    the addend of slot block `t mod 10`. -/
theorem point_term (c : Dev nD) (t : Fin cfg0.N) (a10 : Vec Ideal S2000x248 .bf16)
    (ha : ∀ (r : Fin 2000) (d : Fin 248), a10 (ix2 r d) = proj (srcA V c) (wtA V c) (ix2 (rowOf t r) d))
    (r : Fin 2000) (k : Fin 248) :
    (∑ u : Fin 256, ((∑ d : Fin 248, a10 (ix2 r d) * B3 V c t (ix2 d u))
          * (∑ d : Fin 248, B1 V c t (ix2 r d) * B4 V c t (ix2 d u))) * B5 V c t (ix2 u k))
      = termN V c (rowOf t r) k (t.val % 10) := by
  unfold termN
  rw [dif_pos (Nat.mod_lt _ (by decide))]
  simp only [ha, B1_apply, B3_apply, B4_apply, B5_apply]
  rfl

/-- At a point with `k ≠ 0` the three buffers grow over what the point before left. -/
theorem outsAt0_step (c : Dev nD) (t : Fin cfg0.N) (h0 : ¬t.val % 10 = 0) :
    outsAt0 V c t.val t.isLt
      = (acc0 V c t (outsAt0 V c (prev0 t) (prev0_lt t)).2.2 (outsAt0 V c (prev0 t) (prev0_lt t)).2.1,
         acc0 V c t (outsAt0 V c (prev0 t) (prev0_lt t)).2.2 (outsAt0 V c (prev0 t) (prev0_lt t)).2.1,
         (outsAt0 V c (prev0 t) (prev0_lt t)).2.2) := by
  by_cases h9 : t.val % 10 = 9
  · exact outsAt0_last V c t h9
  · exact outsAt0_mid V c t h0 h9

/-- After point `n = 10·i + k`: the accumulator holds the addends of slot blocks `0 … k` summed in that order, the
    stored projection the projected source rows of row block `i`, and the output buffer's component the accumulator. -/
def Inv (c : Dev nD) (n : ℕ) (hn : n < cfg0.N) : Prop :=
  (∀ (r : Fin 2000) (k : Fin 248), (outsAt0 V c n hn).2.1 (ix2 r k)
      = ∑ b ∈ Finset.range (n % 10 + 1), termN V c (rowOf ⟨n, hn⟩ r) k b)
  ∧ (∀ (r : Fin 2000) (d : Fin 248), (outsAt0 V c n hn).2.2 (ix2 r d)
      = proj (srcA V c) (wtA V c) (ix2 (rowOf ⟨n, hn⟩ r) d))
  ∧ (outsAt0 V c n hn).1 = (outsAt0 V c n hn).2.1

theorem inv (c : Dev nD) : ∀ (n : ℕ) (hn : n < cfg0.N), Inv V c n hn := by
  intro n
  induction n using Nat.strong_induction_on with
  | _ n ih =>
    intro hn
    unfold Inv
    by_cases h0 : n % 10 = 0
    · rw [show outsAt0 V c n hn = _ from outsAt0_first V c ⟨n, hn⟩ h0]
      dsimp only
      refine ⟨fun r k => ?_, fun r d => lhs0_apply V c ⟨n, hn⟩ r d, rfl⟩
      refine (pay3_apply (lhs0 V c ⟨n, hn⟩) (B3 V c ⟨n, hn⟩) (B1 V c ⟨n, hn⟩) (B4 V c ⟨n, hn⟩) (B5 V c ⟨n, hn⟩)
        (k0_pay1 (F := Ideal)) r k).trans ?_
      rw [pay1_apply, zero_add, h0, Finset.sum_range_one]
      refine (point_term V c ⟨n, hn⟩ (lhs0 V c ⟨n, hn⟩) (lhs0_apply V c ⟨n, hn⟩) r k).trans ?_
      show termN V c (rowOf ⟨n, hn⟩ r) k (n % 10) = _
      rw [h0]
    · have hlt : prev0 ⟨n, hn⟩ < n := by show n - 1 < n; omega
      obtain ⟨ia, il, -⟩ := ih (prev0 ⟨n, hn⟩) hlt (prev0_lt ⟨n, hn⟩)
      have hr : ∀ r : Fin 2000, rowOf ⟨prev0 ⟨n, hn⟩, prev0_lt ⟨n, hn⟩⟩ r = rowOf ⟨n, hn⟩ r := fun r =>
        Fin.ext (by show 2000 * ((n - 1) / 10) + r.val = 2000 * (n / 10) + r.val; omega)
      have hk : prev0 ⟨n, hn⟩ % 10 + 1 = n % 10 := by show (n - 1) % 10 + 1 = n % 10; omega
      rw [show outsAt0 V c n hn = _ from outsAt0_step V c ⟨n, hn⟩ h0]
      dsimp only
      refine ⟨fun r k => ?_, fun r d => (il r d).trans (by rw [hr]), rfl⟩
      refine (pay3_apply (outsAt0 V c (prev0 ⟨n, hn⟩) (prev0_lt ⟨n, hn⟩)).2.2 (B3 V c ⟨n, hn⟩) (B1 V c ⟨n, hn⟩)
        (B4 V c ⟨n, hn⟩) (B5 V c ⟨n, hn⟩) (outsAt0 V c (prev0 ⟨n, hn⟩) (prev0_lt ⟨n, hn⟩)).2.1 r k).trans ?_
      rw [Finset.sum_range_succ, ia r k, hr, hk]
      exact congrArg _ (point_term V c ⟨n, hn⟩ (outsAt0 V c (prev0 ⟨n, hn⟩) (prev0_lt ⟨n, hn⟩)).2.2
        (fun r d => (il r d).trans (by rw [hr])) r k)

/-! ## The write-back at the last point of a row block, and the cover -/

/-- The messages as one function of the six input arrays. -/
abbrev msgA (c : Dev nD) : Vec Ideal S100000x248 .f32 :=
  messages (proj (srcA V c) (wtA V c)) (tgtA V c) (giA V c) (gjA V c) (coA V c)

/-- At an edge and a column they are the ten slot blocks' addends summed. -/
theorem msgA_apply (c : Dev nD) (e : Fin 100000) (k : Fin 248) :
    msgA V c (ix2 e k) = ∑ b : Fin 10, term V c e k b := rfl

/-- What the last point of a row block writes back is that row block of the messages. -/
theorem flushed_eq (c : Dev nD) (t : Fin cfg0.N) (hf : (cfg0.win 6).flush t = true) :
    (dat0 (F := Ideal) V c).flushed 6 t = ((cfg0.win 6).blk t).view.read (Elt Ideal) (msgA V c) := by
  have h9 : t.val % 10 = 9 := (flush0_6 t).mp hf
  obtain ⟨ia, -, i1⟩ := inv V c t.val t.isLt
  obtain ⟨-, -, -, -, -, -, -, -, -, -, -, -, e0, e1⟩ := idx_facts t
  show (cfg0.win 6).cut (grid0.coords t) ((dat0 V c).after 6 t) = _
  rw [after0_6]
  funext j
  obtain ⟨r, k, rfl⟩ : ∃ (r : Fin 2000) (k : Fin 248), j = ix2 r k := ⟨j 0, j 1, eq_ix2 j⟩
  have hemb : ((cfg0.win 6).blk t).view.emb (ix2 r k) = ix2 (rowOf t r) k := by
    funext a
    apply Fin.ext
    match a with
    | ⟨0, _⟩ => show win0_6.index t (0 : Fin 2) * 2000 + 1 * r.val = 2000 * (t.val / 10) + r.val; rw [e0]; omega
    | ⟨1, _⟩ => show win0_6.index t (1 : Fin 2) * 248 + 1 * k.val = k.val; rw [e1]; omega
  show (outsAt0 V c t.val t.isLt).1 (ix2 r k) = msgA V c (((cfg0.win 6).blk t).view.emb (ix2 r k))
  rw [hemb, i1, ia r k, h9, msgA_apply, Finset.sum_range]
  exact Finset.sum_congr rfl fun b _ => dif_pos b.isLt

/-- An index of the messages array is in point `t`'s block iff each coordinate is in the block's range on its axis. -/
theorem mem_blk (t : Fin cfg0.N) (i : S100000x248.Idx) :
    i ∈ ((cfg0.win 6).blk t).view.set ↔ ∀ a : Fin 2, win0_6.index t a * S2000x248.size a ≤ (i a).val
      ∧ (i a).val < win0_6.index t a * S2000x248.size a + S2000x248.size a := by
  show i ∈ ((View.whole main_v36).slice (win0_6.rect t)).set ↔ _
  rw [View.set_slice_whole, Rect.mem_set_unit]
  exact Iff.rfl

/-- Row `e` is written back by the last point of its row block, `10·(e / 2000) + 9`. -/
theorem cover (i : S100000x248.Idx) :
    ∃ t : Fin cfg0.N, (cfg0.win 6).flush t = true ∧ i ∈ ((cfg0.win 6).blk t).view.set := by
  have hi0 : (i 0).val < 100000 := idx2_lt0 i
  have hi1 : (i 1).val < 248 := idx2_lt1 i
  obtain ⟨t, ht⟩ : ∃ t : Fin cfg0.N, t.val = 10 * ((i 0).val / 2000) + 9 :=
    ⟨⟨10 * ((i 0).val / 2000) + 9, by rw [N0]; omega⟩, rfl⟩
  obtain ⟨-, -, -, -, -, -, -, -, -, -, -, -, e0, e1⟩ := idx_facts t
  refine ⟨t, (flush0_6 t).mpr (by rw [ht]; omega), ?_⟩
  rw [mem_blk]
  intro a
  match a with
  | ⟨0, _⟩ =>
    show win0_6.index t (0 : Fin 2) * 2000 ≤ (i 0).val ∧ (i 0).val < win0_6.index t (0 : Fin 2) * 2000 + 2000
    rw [e0, ht]; omega
  | ⟨1, _⟩ =>
    show win0_6.index t (1 : Fin 2) * 248 ≤ (i 1).val ∧ (i 1).val < win0_6.index t (1 : Fin 2) * 248 + 248
    rw [e1]; omega

end R0Value

/-! ## The messages array after the first call -/

/-- After the first call the messages array holds, at every edge and column, the ten slot blocks' addends of the
    projected source row and the target row, summed: the blocked form of the messages. -/
theorem region0_value (c : Dev nD) :
    ((dat0 (F := Ideal) V c).arrAt 6 cfg0.N : S100000x248.Idx → EReal)
      = Cert.Hand.KerSpec.messages (Cert.Hand.KerSpec.proj (V c main_v18) (V c main_v35)) (V c main_v19)
          (V c main_v25) (V c main_v28) (V c main_v33) :=
  (dat0 (F := Ideal) V c).arrAt_eq_of_cover 6 (R0Value.msgA V c) (R0Value.flushed_eq V c) R0Value.cover

end Cert.KernelIdeal.Hand

end
-- ==== Proof.TailSpec.lean ====
/-
  The update of ONE node, as a function of plain rows, over the extended reals.

  A node with aggregated message row `a` (248 entries) and feature row `f` is updated by a two-layer
  perceptron with a sigmoid-weighted unit and a residual connection, then normalised along its row:

      hidden_h = (∑_k a_k · w1 h k) + b1_h                          h < 512
      y_q      = f_q + ((∑_h silu(hidden_h) · w2 q h) + b2_q)        q < 248,   silu x = x · 1/(1 + e^{-x})
      out_j    = ((y_j − mean y) · rsqrt(mean((y − mean y)²) + ε)) · g_j + be_j

  with mean = (sum over the row) / 248.  The divisor 248 and the floor ε are the binary32 words both programs carry.
  Every operation is the exact one of the ideal instance; nothing is rearranged, so a program whose printed operations
  follow this order instantiates these definitions as they stand.
-/
import Idealize.ShloMosaic.PureOps.Ideal
import Idealize.ShloMosaic.Lib.ValueIdx

noncomputable section

open scoped BigOperators

namespace Cert.Hand.TailSpec

open Idealize.ShloMosaic

/-- The row length 248 as the binary32 word both programs divide by. -/
def n248 : EReal := Ideal.ofBits .f32 0x43780000#32
/-- The variance floor as the binary32 word both programs add. -/
def eps : EReal := Ideal.ofBits .f32 0x3727C5AC#32

/-- One hidden unit before its nonlinearity. -/
def hidden (a w : Fin 248 → EReal) (b : EReal) : EReal := (∑ k : Fin 248, a k * w k) + b

/-- The sigmoid-weighted unit. -/
def silu (x : EReal) : EReal := x * Ideal.logistic x

/-- One entry of the residual update: the feature plus the second layer's output there. -/
def updated (a : Fin 248 → EReal) (f : EReal) (w1 : Fin 512 → Fin 248 → EReal) (b1 : Fin 512 → EReal)
    (w2 : Fin 512 → EReal) (b2 : EReal) : EReal :=
  f + ((∑ h : Fin 512, silu (hidden a (w1 h) (b1 h)) * w2 h) + b2)

/-- A row entry minus the row's mean. -/
def centred (y : Fin 248 → EReal) (j : Fin 248) : EReal := y j - Ideal.div (∑ q : Fin 248, y q) n248

/-- A row entry centred and scaled by the reciprocal root of the row's floored variance. -/
def normed (y : Fin 248 → EReal) (j : Fin 248) : EReal :=
  centred y j * Ideal.rsqrt (Ideal.div (∑ q : Fin 248, centred y q * centred y q) n248 + eps)

/-- Entry `j` of the updated, normalised, rescaled node row. -/
def nodeOut (a f : Fin 248 → EReal) (w1 : Fin 512 → Fin 248 → EReal) (b1 : Fin 512 → EReal)
    (w2 : Fin 248 → Fin 512 → EReal) (b2 g be : Fin 248 → EReal) (j : Fin 248) : EReal :=
  normed (fun q => updated a (f q) w1 b1 (w2 q) (b2 q)) j * g j + be j

end Cert.Hand.TailSpec

end
-- ==== Proof.R1Payload.lean ====
/-
  The node block's stored payload, read at one entry, is the node update of TailSpec on that node's rows.

  One grid point of the node-block kernel handles 1000 nodes.  Its stored block is the normalised residual block
  (the second payload) rescaled by the scale row and shifted by the shift row (the first payload).  Row r of the
  result depends only on row r of the aggregated messages and of the features: the two matrix products are read as
  sums over the contracted coordinate, each lane sum as a sum over the row, every layout operation as the operand
  at one index, and the pointwise operations entry by entry.  The printed order of operations is that of
  TailSpec, so after the readings the two sides agree as they stand.
-/
import proofs.«425772_j3977139716372_1_alg».proof.Proof.Gen.KernelIdeal.Skeleton
import proofs.«425772_j3977139716372_1_alg».proof.Proof.TailSpec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Idealize.ShloMosaic Idealize.ShloMosaic.ValueIdx Cert.KernelIdeal Cert.KernelIdeal.Gen
open Cert.Hand

/-! ## Two keepdims layout operations read at an index -/

/-- A vector `[a]` cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The lane sum of a block, read at a row -/

/-- The block index over row `r` whose lane coordinate is `k`. -/
theorem lane_lift (r : Fin 1000) (k : Fin 248) : reduces_S1000x248_S1000.lift (ix1 r) k = ix2 r k := by
  funext c
  apply Fin.ext
  show reduces_S1000x248_S1000.liftVal (ix1 r) k.val c = (ix2 r k c).val
  match c with
  | ⟨0, _⟩ => rfl
  | ⟨1, _⟩ => rfl

/-- The sum along the lanes of a `[1000, 248]` block is, at row `r`, the sum of that row's entries. -/
theorem lane_sum (v : FVec Ideal S1000x248 .f32) (r : Fin 1000) :
    multiReduction (F := Ideal) .add [1] S1000 v 0x00000000#32 reduces_S1000x248_S1000 (.inl rfl) rfl (ix1 r)
      = ∑ q : Fin 248, v (ix2 r q) := by
  refine (Ideal.multiReduction_add_single v _ reduces_S1000x248_S1000 _ _ (ix1 r)).trans ?_
  exact Finset.sum_congr rfl fun k _ => congrArg v (lane_lift r k)

/-! ## The two matrix products, read at an entry as sums over the contracted coordinate -/

theorem lhs_mm1_0 (i : S1000x512.Idx) (q : dot_S1000x248_S248x512_S1000x512_1_0_0_1_n_n.contr.Idx) :
    (dot_S1000x248_S248x512_S1000x512_1_0_0_1_n_n.lhsIdx i q 0).val = (i 0).val := by
  unfold DotDims.lhsIdx
  rw [dif_neg (show ¬(0 : Fin S1000x248.rank) ∈ dot_S1000x248_S248x512_S1000x512_1_0_0_1_n_n.lhsBatch by decide),
    dif_pos (show (0 : Fin S1000x248.rank) ∈ dot_S1000x248_S248x512_S1000x512_1_0_0_1_n_n.lhsNonContracting by decide)]
  rfl
theorem lhs_mm1_1 (i : S1000x512.Idx) (q : dot_S1000x248_S248x512_S1000x512_1_0_0_1_n_n.contr.Idx) :
    (dot_S1000x248_S248x512_S1000x512_1_0_0_1_n_n.lhsIdx i q 1).val = (q ⟨0, by decide⟩).val :=
  dot_S1000x248_S248x512_S1000x512_1_0_0_1_n_n.lhsIdx_val_of_single rfl i q
theorem rhs_mm1_0 (i : S1000x512.Idx) (q : dot_S1000x248_S248x512_S1000x512_1_0_0_1_n_n.contr.Idx) :
    (dot_S1000x248_S248x512_S1000x512_1_0_0_1_n_n.rhsIdx i q 0).val = (q ⟨0, by decide⟩).val :=
  dot_S1000x248_S248x512_S1000x512_1_0_0_1_n_n.rhsIdx_val_of_single rfl i q
theorem rhs_mm1_1 (i : S1000x512.Idx) (q : dot_S1000x248_S248x512_S1000x512_1_0_0_1_n_n.contr.Idx) :
    (dot_S1000x248_S248x512_S1000x512_1_0_0_1_n_n.rhsIdx i q 1).val = (i 1).val := by
  unfold DotDims.rhsIdx
  rw [dif_neg (show ¬(1 : Fin S248x512.rank) ∈ dot_S1000x248_S248x512_S1000x512_1_0_0_1_n_n.rhsBatch by decide),
    dif_pos (show (1 : Fin S248x512.rank) ∈ dot_S1000x248_S248x512_S1000x512_1_0_0_1_n_n.rhsNonContracting by decide)]
  rfl

/-- The first layer's product at `(r, c)`: row `r` of the left block against column `c` of the transposed weight. -/
theorem mm1_apply (x : FVec Ideal S1000x248 .bf16) (w : FVec Ideal S248x512 .bf16) (r : Fin 1000) (c : Fin 512) :
    matmul dot_S1000x248_S248x512_S1000x512_1_0_0_1_n_n none x w (constant (F := Ideal) S1000x512 .f32 0x00000000#32) (ix2 r c)
      = ∑ k : Fin 248, x (ix2 r k) * w (ix2 k c) := by
  refine (Ideal.matmul_constant_zero_apply dot_S1000x248_S248x512_S1000x512_1_0_0_1_n_n none x w (ix2 r c)).trans ?_
  rw [← Equiv.sum_comp (contrEquiv1 dot_S1000x248_S248x512_S1000x512_1_0_0_1_n_n 248 rfl rfl).symm]
  refine Finset.sum_congr rfl fun k _ => ?_
  have hk := contrEquiv1_symm_val dot_S1000x248_S248x512_S1000x512_1_0_0_1_n_n 248 rfl rfl k
  have el : dot_S1000x248_S248x512_S1000x512_1_0_0_1_n_n.lhsIdx (ix2 r c) ((contrEquiv1 dot_S1000x248_S248x512_S1000x512_1_0_0_1_n_n 248 rfl rfl).symm k) = ix2 r k :=
    funext fun a => Fin.ext (by
      match a with
      | ⟨0, _⟩ => exact lhs_mm1_0 _ _
      | ⟨1, _⟩ => exact (lhs_mm1_1 _ _).trans hk)
  have er : dot_S1000x248_S248x512_S1000x512_1_0_0_1_n_n.rhsIdx (ix2 r c) ((contrEquiv1 dot_S1000x248_S248x512_S1000x512_1_0_0_1_n_n 248 rfl rfl).symm k) = ix2 k c :=
    funext fun a => Fin.ext (by
      match a with
      | ⟨0, _⟩ => exact (rhs_mm1_0 _ _).trans hk
      | ⟨1, _⟩ => exact rhs_mm1_1 _ _)
  rw [el, er]

theorem lhs_mm2_0 (i : S1000x248.Idx) (q : dot_S1000x512_S512x248_S1000x248_1_0_0_1_n_n.contr.Idx) :
    (dot_S1000x512_S512x248_S1000x248_1_0_0_1_n_n.lhsIdx i q 0).val = (i 0).val := by
  unfold DotDims.lhsIdx
  rw [dif_neg (show ¬(0 : Fin S1000x512.rank) ∈ dot_S1000x512_S512x248_S1000x248_1_0_0_1_n_n.lhsBatch by decide),
    dif_pos (show (0 : Fin S1000x512.rank) ∈ dot_S1000x512_S512x248_S1000x248_1_0_0_1_n_n.lhsNonContracting by decide)]
  rfl
theorem lhs_mm2_1 (i : S1000x248.Idx) (q : dot_S1000x512_S512x248_S1000x248_1_0_0_1_n_n.contr.Idx) :
    (dot_S1000x512_S512x248_S1000x248_1_0_0_1_n_n.lhsIdx i q 1).val = (q ⟨0, by decide⟩).val :=
  dot_S1000x512_S512x248_S1000x248_1_0_0_1_n_n.lhsIdx_val_of_single rfl i q
theorem rhs_mm2_0 (i : S1000x248.Idx) (q : dot_S1000x512_S512x248_S1000x248_1_0_0_1_n_n.contr.Idx) :
    (dot_S1000x512_S512x248_S1000x248_1_0_0_1_n_n.rhsIdx i q 0).val = (q ⟨0, by decide⟩).val :=
  dot_S1000x512_S512x248_S1000x248_1_0_0_1_n_n.rhsIdx_val_of_single rfl i q
theorem rhs_mm2_1 (i : S1000x248.Idx) (q : dot_S1000x512_S512x248_S1000x248_1_0_0_1_n_n.contr.Idx) :
    (dot_S1000x512_S512x248_S1000x248_1_0_0_1_n_n.rhsIdx i q 1).val = (i 1).val := by
  unfold DotDims.rhsIdx
  rw [dif_neg (show ¬(1 : Fin S512x248.rank) ∈ dot_S1000x512_S512x248_S1000x248_1_0_0_1_n_n.rhsBatch by decide),
    dif_pos (show (1 : Fin S512x248.rank) ∈ dot_S1000x512_S512x248_S1000x248_1_0_0_1_n_n.rhsNonContracting by decide)]
  rfl

/-- The second layer's product at `(r, c)`: row `r` of the activated block against column `c` of the transposed weight. -/
theorem mm2_apply (x : FVec Ideal S1000x512 .bf16) (w : FVec Ideal S512x248 .bf16) (r : Fin 1000) (c : Fin 248) :
    matmul dot_S1000x512_S512x248_S1000x248_1_0_0_1_n_n none x w (constant (F := Ideal) S1000x248 .f32 0x00000000#32) (ix2 r c)
      = ∑ k : Fin 512, x (ix2 r k) * w (ix2 k c) := by
  refine (Ideal.matmul_constant_zero_apply dot_S1000x512_S512x248_S1000x248_1_0_0_1_n_n none x w (ix2 r c)).trans ?_
  rw [← Equiv.sum_comp (contrEquiv1 dot_S1000x512_S512x248_S1000x248_1_0_0_1_n_n 512 rfl rfl).symm]
  refine Finset.sum_congr rfl fun k _ => ?_
  have hk := contrEquiv1_symm_val dot_S1000x512_S512x248_S1000x248_1_0_0_1_n_n 512 rfl rfl k
  have el : dot_S1000x512_S512x248_S1000x248_1_0_0_1_n_n.lhsIdx (ix2 r c) ((contrEquiv1 dot_S1000x512_S512x248_S1000x248_1_0_0_1_n_n 512 rfl rfl).symm k) = ix2 r k :=
    funext fun a => Fin.ext (by
      match a with
      | ⟨0, _⟩ => exact lhs_mm2_0 _ _
      | ⟨1, _⟩ => exact (lhs_mm2_1 _ _).trans hk)
  have er : dot_S1000x512_S512x248_S1000x248_1_0_0_1_n_n.rhsIdx (ix2 r c) ((contrEquiv1 dot_S1000x512_S512x248_S1000x248_1_0_0_1_n_n 512 rfl rfl).symm k) = ix2 k c :=
    funext fun a => Fin.ext (by
      match a with
      | ⟨0, _⟩ => exact (rhs_mm2_0 _ _).trans hk
      | ⟨1, _⟩ => exact rhs_mm2_1 _ _)
  rw [el, er]

/-! ## The payload in stages

The stages of the second payload as blocks, so that the payload is their composition as it stands and each is read at
an entry by itself. -/

/-- The hidden layer's block before its nonlinearity: the product with the first transposed weight plus the bias row. -/
def hid (x0 : FVec Ideal S1000x248 .f32) (x2 : FVec Ideal S248x512 .bf16) (x3 : FVec Ideal S1x512 .f32) :
    FVec Ideal S1000x512 .f32 :=
  addf (matmul dot_S1000x248_S248x512_S1000x512_1_0_0_1_n_n none
      (truncf .bf16 (shapeCast S1000x248 x0 shapeCasts_S1000x248_S1000x248 : FVec Ideal S1000x248 .f32) bitsLt_bf16_f32)
      (shapeCast S248x512 x2 shapeCasts_S248x512_S248x512 : FVec Ideal S248x512 .bf16)
      (constant S1000x512 .f32 0x00000000#32))
    (broadcastTo S1000x512 (shapeCast S1x512 x3 shapeCasts_S1x512_S1x512 : FVec Ideal S1x512 .f32) broadcasts_S1x512_S1000x512)

/-- The residual block: the features plus the second layer's output on the activated hidden block. -/
def resid (x0 x1 : FVec Ideal S1000x248 .f32) (x2 : FVec Ideal S248x512 .bf16) (x3 : FVec Ideal S1x512 .f32)
    (x4 : FVec Ideal S512x248 .bf16) (x5 : FVec Ideal S1x248 .f32) : FVec Ideal S1000x248 .f32 :=
  addf x1 (addf (matmul dot_S1000x512_S512x248_S1000x248_1_0_0_1_n_n none
      (truncf .bf16 (mulf (hid x0 x2 x3) (logistic (hid x0 x2 x3))) bitsLt_bf16_f32)
      (shapeCast S512x248 x4 shapeCasts_S512x248_S512x248 : FVec Ideal S512x248 .bf16)
      (constant S1000x248 .f32 0x00000000#32))
    (broadcastTo S1000x248 (shapeCast S1x248 x5 shapeCasts_S1x248_S1x248 : FVec Ideal S1x248 .f32) broadcasts_S1x248_S1000x248))

/-- The column of row means of a block: each row's lane sum divided by the row length. -/
def rowMean (y : FVec Ideal S1000x248 .f32) : FVec Ideal S1000x1 .f32 :=
  divf (shapeCast S1000x1 (multiReduction .add [1] S1000 y 0x00000000#32 reduces_S1000x248_S1000 (.inl rfl) rfl)
      shapeCasts_S1000_S1000x1 : FVec Ideal S1000x1 .f32)
    (broadcast S1000x1 (Scalar.ofBits .f32 0x43780000#32))

/-- A block with each row's mean subtracted. -/
def cent (y : FVec Ideal S1000x248 .f32) : FVec Ideal S1000x248 .f32 :=
  subf y (broadcastTo S1000x248 (rowMean y) broadcasts_S1000x1_S1000x248)

/-- A block centred along its rows and scaled by the reciprocal root of each row's floored variance. -/
def normedBlock (y : FVec Ideal S1000x248 .f32) : FVec Ideal S1000x248 .f32 :=
  mulf (cent y) (broadcastTo S1000x248
    (rsqrt (addf (rowMean (mulf (cent y) (cent y))) (broadcast S1000x1 (Scalar.ofBits .f32 0x3727C5AC#32))))
    broadcasts_S1000x1_S1000x248)

/-- The second payload is the normalised residual block: the printed sequence is this composition. -/
theorem pay2_eq (x0 x1 : Vec Ideal S1000x248 .f32) (x2 : Vec Ideal S248x512 .bf16) (x3 : Vec Ideal S1x512 .f32)
    (x4 : Vec Ideal S512x248 .bf16) (x5 : Vec Ideal S1x248 .f32) :
    k1_pay2 x0 x2 x3 x4 x5 x1 = normedBlock (resid x0 x1 x2 x3 x4 x5) := rfl

/-! ## Each stage at an entry -/

/-- The hidden unit at `(r, h)`. -/
theorem hid_apply (x0 : FVec Ideal S1000x248 .f32) (x2 : FVec Ideal S248x512 .bf16) (x3 : FVec Ideal S1x512 .f32)
    (r : Fin 1000) (h : Fin 512) :
    hid x0 x2 x3 (ix2 r h) = TailSpec.hidden (fun k => x0 (ix2 r k)) (fun k => x2 (ix2 k h)) (x3 (ix2 0 h)) := by
  unfold hid TailSpec.hidden
  rw [shapeCast_self, shapeCast_self, shapeCast_self]
  refine congrArg₂ (· + ·) ?_ ?_
  · exact mm1_apply _ _ r h
  · exact broadcastTo_1b_ab_apply _ _ r h

/-- The residual entry at `(r, q)`. -/
theorem resid_apply (x0 x1 : FVec Ideal S1000x248 .f32) (x2 : FVec Ideal S248x512 .bf16) (x3 : FVec Ideal S1x512 .f32)
    (x4 : FVec Ideal S512x248 .bf16) (x5 : FVec Ideal S1x248 .f32) (r : Fin 1000) (q : Fin 248) :
    resid x0 x1 x2 x3 x4 x5 (ix2 r q)
      = TailSpec.updated (fun k => x0 (ix2 r k)) (x1 (ix2 r q)) (fun h k => x2 (ix2 k h)) (fun h => x3 (ix2 0 h))
          (fun h => x4 (ix2 h q)) (x5 (ix2 0 q)) := by
  unfold resid TailSpec.updated
  rw [shapeCast_self, shapeCast_self]
  refine congrArg (x1 (ix2 r q) + ·) (congrArg₂ (· + ·) ?_ ?_)
  · refine (mm2_apply _ _ r q).trans (Finset.sum_congr rfl fun h _ => ?_)
    show hid x0 x2 x3 (ix2 r h) * Ideal.logistic (hid x0 x2 x3 (ix2 r h)) * x4 (ix2 h q) = _
    rw [hid_apply]
    rfl
  · exact broadcastTo_1b_ab_apply _ _ r q

/-- The row mean at row `r`. -/
theorem rowMean_apply (y : FVec Ideal S1000x248 .f32) (r : Fin 1000) (u : Fin 1) :
    rowMean y (ix2 r u) = Ideal.div (∑ q : Fin 248, y (ix2 r q)) TailSpec.n248 := by
  unfold rowMean TailSpec.n248
  show Ideal.div (shapeCast S1000x1 _ shapeCasts_S1000_S1000x1 (ix2 r u)) (Ideal.ofBits .f32 0x43780000#32) = _
  rw [shapeCast_a_a1_apply, lane_sum]

/-- The centred entry at `(r, j)`. -/
theorem cent_apply (y : FVec Ideal S1000x248 .f32) (r : Fin 1000) (j : Fin 248) :
    cent y (ix2 r j) = TailSpec.centred (fun q => y (ix2 r q)) j := by
  unfold cent TailSpec.centred
  show y (ix2 r j) - broadcastTo S1000x248 (rowMean y) broadcasts_S1000x1_S1000x248 (ix2 r j) = _
  rw [broadcastTo_a1_ab_apply, rowMean_apply]

/-- The normalised entry at `(r, j)`. -/
theorem normedBlock_apply (y : FVec Ideal S1000x248 .f32) (r : Fin 1000) (j : Fin 248) :
    normedBlock y (ix2 r j) = TailSpec.normed (fun q => y (ix2 r q)) j := by
  unfold normedBlock TailSpec.normed TailSpec.eps
  show cent y (ix2 r j) * broadcastTo S1000x248 _ broadcasts_S1000x1_S1000x248 (ix2 r j) = _
  rw [broadcastTo_a1_ab_apply]
  show cent y (ix2 r j)
      * Ideal.rsqrt (rowMean (mulf (cent y) (cent y)) (ix2 r (0 : Fin 1)) + Ideal.ofBits .f32 0x3727C5AC#32) = _
  rw [rowMean_apply, cent_apply]
  have e : (fun q : Fin 248 => mulf (cent y) (cent y) (ix2 r q))
      = fun q => TailSpec.centred (fun q => y (ix2 r q)) q * TailSpec.centred (fun q => y (ix2 r q)) q :=
    funext fun q => by rw [mulf_apply, cent_apply]
  rw [e]

/-- The first payload at `(r, j)`: the entry times the scale row's plus the shift row's. -/
theorem scale_shift_apply (v : FVec Ideal S1000x248 .f32) (x6 x7 : Vec Ideal S1x248 .f32) (r : Fin 1000) (j : Fin 248) :
    k1_pay1 v x6 x7 (ix2 r j) = v (ix2 r j) * x6 (ix2 0 j) + x7 (ix2 0 j) := by
  unfold k1_pay1
  rw [shapeCast_self, shapeCast_self]
  exact congrArg₂ (· + ·) (congrArg (v (ix2 r j) * ·) (broadcastTo_1b_ab_apply _ _ r j)) (broadcastTo_1b_ab_apply _ _ r j)

/-! ## The stored block at an entry -/

/-- Entry `(r, j)` of the stored block is the update of node `r` from its own two rows. -/
theorem node_block_apply (x0 x1 : Vec Ideal S1000x248 .f32) (x2 : Vec Ideal S248x512 .bf16) (x3 : Vec Ideal S1x512 .f32)
    (x4 : Vec Ideal S512x248 .bf16) (x5 x6 x7 : Vec Ideal S1x248 .f32) (r : Fin 1000) (j : Fin 248) :
    k1_pay1 (k1_pay2 x0 x2 x3 x4 x5 x1) x6 x7 (ix2 r j)
      = Cert.Hand.TailSpec.nodeOut (fun k => x0 (ix2 r k)) (fun q => x1 (ix2 r q)) (fun h k => x2 (ix2 k h))
          (fun h => x3 (ix2 0 h)) (fun q h => x4 (ix2 h q)) (fun q => x5 (ix2 0 q)) (fun q => x6 (ix2 0 q))
          (fun q => x7 (ix2 0 q)) j := by
  rw [scale_shift_apply, pay2_eq, normedBlock_apply]
  have e : (fun q : Fin 248 => resid x0 x1 x2 x3 x4 x5 (ix2 r q))
      = fun q => TailSpec.updated (fun k => x0 (ix2 r k)) (x1 (ix2 r q)) (fun h k => x2 (ix2 k h))
          (fun h => x3 (ix2 0 h)) (fun h => x4 (ix2 h q)) (x5 (ix2 0 q)) :=
    funext fun q => resid_apply x0 x1 x2 x3 x4 x5 r q
  rw [e]
  rfl

end Cert.KernelIdeal.Hand

end
-- ==== Proof.R1Value.lean ====
import proofs.«425772_j3977139716372_1_alg».proof.Proof.R1Body
import proofs.«425772_j3977139716372_1_alg».proof.Proof.R1Payload
import proofs.«425772_j3977139716372_1_alg».proof.Proof.TailSpec
import Idealize.ShloMosaic.Lib.Pipeline.Value
import Idealize.ShloMosaic.Lib.ValueIdx

/-!
# Region 1 of @main: from the blocks to the result array

The second kernel call runs over ten grid points.  Point `t` reads rows `1000 t … 1000 t + 999` of the aggregated
messages and of the features, the whole of the two weight matrices and of the four rows (bias, bias, scale, shift),
and writes rows `1000 t … 1000 t + 999` of the result.  Row `r` of the block a point writes is the node update of
row `r` of its two row blocks, so node `n` of the result is the node update of node `n`'s own rows: it is row
`n % 1000` of the block point `n / 1000` writes, and the ten blocks tile the array.

Stated at the contents `V` the buffers hold when the region is entered: the result array after the region, entry by
entry, as the node update of TailSpec on the eight arrays.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open Cert.Hand

-- the TensorCore's buffer contents when the region is entered, over the extended reals
variable (V : (c : Dev nD) → (b : Ref sig .tc) → Buf (Elt Ideal) ((c : Thread nD τ).loc b))

/-! ## The eight arrays and their blocks, each at its literal type -/

/-- The aggregated messages, one row of 248 per node. -/
abbrev msgArr (c : Dev nD) : S10000x248.Idx → EReal := V c main_v39
/-- The features, one row of 248 per node. -/
abbrev featArr (c : Dev nD) : S10000x248.Idx → EReal := V c main_arg0
/-- The first weight matrix, stored transposed: entry `(k, h)` weighs input `k` into hidden unit `h`. -/
abbrev w1Arr (c : Dev nD) : S248x512.Idx → EReal := V c main_v41
/-- The first bias, as a row. -/
abbrev b1Arr (c : Dev nD) : S1x512.Idx → EReal := V c main_v44
/-- The second weight matrix, stored transposed: entry `(h, q)` weighs hidden unit `h` into output `q`. -/
abbrev w2Arr (c : Dev nD) : S512x248.Idx → EReal := V c main_v43
/-- The second bias, as a row. -/
abbrev b2Arr (c : Dev nD) : S1x248.Idx → EReal := V c main_v45
/-- The scale, as a row. -/
abbrev scaleArr (c : Dev nD) : S1x248.Idx → EReal := V c main_v46
/-- The shift, as a row. -/
abbrev shiftArr (c : Dev nD) : S1x248.Idx → EReal := V c main_v47

/-- Point `t`'s block of the aggregated messages. -/
abbrev msgBlk (c : Dev nD) (t : Fin cfg1.N) : S1000x248.Idx → EReal := iblk1 V c 0 t
/-- Point `t`'s block of the features. -/
abbrev featBlk (c : Dev nD) (t : Fin cfg1.N) : S1000x248.Idx → EReal := iblk1 V c 1 t
/-- Point `t`'s block of the first weight matrix. -/
abbrev w1Blk (c : Dev nD) (t : Fin cfg1.N) : S248x512.Idx → EReal := iblk1 V c 2 t
/-- Point `t`'s block of the first bias row. -/
abbrev b1Blk (c : Dev nD) (t : Fin cfg1.N) : S1x512.Idx → EReal := iblk1 V c 3 t
/-- Point `t`'s block of the second weight matrix. -/
abbrev w2Blk (c : Dev nD) (t : Fin cfg1.N) : S512x248.Idx → EReal := iblk1 V c 4 t
/-- Point `t`'s block of the second bias row. -/
abbrev b2Blk (c : Dev nD) (t : Fin cfg1.N) : S1x248.Idx → EReal := iblk1 V c 5 t
/-- Point `t`'s block of the scale row. -/
abbrev scaleBlk (c : Dev nD) (t : Fin cfg1.N) : S1x248.Idx → EReal := iblk1 V c 6 t
/-- Point `t`'s block of the shift row. -/
abbrev shiftBlk (c : Dev nD) (t : Fin cfg1.N) : S1x248.Idx → EReal := iblk1 V c 7 t

/-! ## The result array as one function of the eight arrays -/

/-- Every node's row is the node update of that node's message row and feature row under the shared weights, biases,
    scale and shift. -/
def nodeArr (a0 a1 : S10000x248.Idx → EReal) (a2 : S248x512.Idx → EReal) (a3 : S1x512.Idx → EReal)
    (a4 : S512x248.Idx → EReal) (a5 a6 a7 : S1x248.Idx → EReal) : S10000x248.Idx → EReal := fun i =>
  TailSpec.nodeOut (fun k => a0 (ix2 (i 0 : Fin 10000) k)) (fun q => a1 (ix2 (i 0 : Fin 10000) q))
    (fun h k => a2 (ix2 k h)) (fun h => a3 (ix2 0 h)) (fun q h => a4 (ix2 h q))
    (fun q => a5 (ix2 0 q)) (fun q => a6 (ix2 0 q)) (fun q => a7 (ix2 0 q)) (i 1 : Fin 248)

/-! ## Where each window's block sits -/

/-- The grid has ten points. -/
theorem points1 : cfg1.N = 10 := by decide +kernel

/-- The printed index maps, decided over the grid: the two row-blocked inputs and the output take block `(t, 0)`,
    the six whole-array inputs block `(0, 0)`. -/
theorem index_facts1 : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- Row `r` of point `t`'s message block is row `1000 t + r` of the messages. -/
theorem msgBlk_apply (c : Dev nD) (t : Fin cfg1.N) (r : Fin 1000) (k : Fin 248) (n : Fin 10000)
    (hn : n.val = t.val * 1000 + r.val) : msgBlk V c t (ix2 r k) = msgArr V c (ix2 n k) := by
  obtain ⟨e0, e1, -⟩ := index_facts1 t
  show V c main_v39 (((cfg1.win 0).blk t).view.emb (ix2 r k)) = V c main_v39 (ix2 n k)
  congr 1
  funext a; apply Fin.ext
  match a with
  | ⟨0, _⟩ => show win1_0.index t (0 : Fin 2) * 1000 + 1 * r.val = n.val; omega
  | ⟨1, _⟩ => show win1_0.index t (1 : Fin 2) * 248 + 1 * k.val = k.val; omega

/-- Row `r` of point `t`'s feature block is row `1000 t + r` of the features. -/
theorem featBlk_apply (c : Dev nD) (t : Fin cfg1.N) (r : Fin 1000) (k : Fin 248) (n : Fin 10000)
    (hn : n.val = t.val * 1000 + r.val) : featBlk V c t (ix2 r k) = featArr V c (ix2 n k) := by
  obtain ⟨-, -, e0, e1, -⟩ := index_facts1 t
  show V c main_arg0 (((cfg1.win 1).blk t).view.emb (ix2 r k)) = V c main_arg0 (ix2 n k)
  congr 1
  funext a; apply Fin.ext
  match a with
  | ⟨0, _⟩ => show win1_1.index t (0 : Fin 2) * 1000 + 1 * r.val = n.val; omega
  | ⟨1, _⟩ => show win1_1.index t (1 : Fin 2) * 248 + 1 * k.val = k.val; omega

/-- A whole-array window's one block is the array: the first weight matrix. -/
theorem w1Blk_eq (c : Dev nD) (t : Fin cfg1.N) : w1Blk V c t = w1Arr V c := by
  obtain ⟨-, -, -, -, e0, e1, -⟩ := index_facts1 t
  funext x
  show V c main_v41 (((cfg1.win 2).blk t).view.emb x) = V c main_v41 x
  congr 1
  funext a; apply Fin.ext
  match a with
  | ⟨0, _⟩ => show win1_2.index t (0 : Fin 2) * 248 + 1 * (x 0).val = (x 0).val; omega
  | ⟨1, _⟩ => show win1_2.index t (1 : Fin 2) * 512 + 1 * (x 1).val = (x 1).val; omega

/-- The first bias row. -/
theorem b1Blk_eq (c : Dev nD) (t : Fin cfg1.N) : b1Blk V c t = b1Arr V c := by
  obtain ⟨-, -, -, -, -, -, e0, e1, -⟩ := index_facts1 t
  funext x
  show V c main_v44 (((cfg1.win 3).blk t).view.emb x) = V c main_v44 x
  congr 1
  funext a; apply Fin.ext
  match a with
  | ⟨0, _⟩ => show win1_3.index t (0 : Fin 2) * 1 + 1 * (x 0).val = (x 0).val; omega
  | ⟨1, _⟩ => show win1_3.index t (1 : Fin 2) * 512 + 1 * (x 1).val = (x 1).val; omega

/-- The second weight matrix. -/
theorem w2Blk_eq (c : Dev nD) (t : Fin cfg1.N) : w2Blk V c t = w2Arr V c := by
  obtain ⟨-, -, -, -, -, -, -, -, e0, e1, -⟩ := index_facts1 t
  funext x
  show V c main_v43 (((cfg1.win 4).blk t).view.emb x) = V c main_v43 x
  congr 1
  funext a; apply Fin.ext
  match a with
  | ⟨0, _⟩ => show win1_4.index t (0 : Fin 2) * 512 + 1 * (x 0).val = (x 0).val; omega
  | ⟨1, _⟩ => show win1_4.index t (1 : Fin 2) * 248 + 1 * (x 1).val = (x 1).val; omega

/-- The second bias row. -/
theorem b2Blk_eq (c : Dev nD) (t : Fin cfg1.N) : b2Blk V c t = b2Arr V c := by
  obtain ⟨-, -, -, -, -, -, -, -, -, -, e0, e1, -⟩ := index_facts1 t
  funext x
  show V c main_v45 (((cfg1.win 5).blk t).view.emb x) = V c main_v45 x
  congr 1
  funext a; apply Fin.ext
  match a with
  | ⟨0, _⟩ => show win1_5.index t (0 : Fin 2) * 1 + 1 * (x 0).val = (x 0).val; omega
  | ⟨1, _⟩ => show win1_5.index t (1 : Fin 2) * 248 + 1 * (x 1).val = (x 1).val; omega

/-- The scale row. -/
theorem scaleBlk_eq (c : Dev nD) (t : Fin cfg1.N) : scaleBlk V c t = scaleArr V c := by
  obtain ⟨-, -, -, -, -, -, -, -, -, -, -, -, e0, e1, -⟩ := index_facts1 t
  funext x
  show V c main_v46 (((cfg1.win 6).blk t).view.emb x) = V c main_v46 x
  congr 1
  funext a; apply Fin.ext
  match a with
  | ⟨0, _⟩ => show win1_6.index t (0 : Fin 2) * 1 + 1 * (x 0).val = (x 0).val; omega
  | ⟨1, _⟩ => show win1_6.index t (1 : Fin 2) * 248 + 1 * (x 1).val = (x 1).val; omega

/-- The shift row. -/
theorem shiftBlk_eq (c : Dev nD) (t : Fin cfg1.N) : shiftBlk V c t = shiftArr V c := by
  obtain ⟨-, -, -, -, -, -, -, -, -, -, -, -, -, -, e0, e1, -⟩ := index_facts1 t
  funext x
  show V c main_v47 (((cfg1.win 7).blk t).view.emb x) = V c main_v47 x
  congr 1
  funext a; apply Fin.ext
  match a with
  | ⟨0, _⟩ => show win1_7.index t (0 : Fin 2) * 1 + 1 * (x 0).val = (x 0).val; omega
  | ⟨1, _⟩ => show win1_7.index t (1 : Fin 2) * 248 + 1 * (x 1).val = (x 1).val; omega

/-- Entry `(r, q)` of the block point `t` writes sits at entry `(1000 t + r, q)` of the result. -/
theorem outBlk_emb (t : Fin cfg1.N) (r : Fin 1000) (q : Fin 248) (n : Fin 10000)
    (hn : n.val = t.val * 1000 + r.val) :
    (((cfg1.win 8).blk t).view.emb (ix2 r q) : S10000x248.Idx) = ix2 n q := by
  obtain ⟨-, -, -, -, -, -, -, -, -, -, -, -, -, -, -, -, e0, e1⟩ := index_facts1 t
  funext a; apply Fin.ext
  match a with
  | ⟨0, _⟩ => show win1_8.index t (0 : Fin 2) * 1000 + 1 * r.val = n.val; omega
  | ⟨1, _⟩ => show win1_8.index t (1 : Fin 2) * 248 + 1 * q.val = q.val; omega

/-! ## What a point writes back -/

/-- WHAT POINT `t` WRITES BACK is block `t` of the node update of the eight arrays as the region finds them. -/
theorem flushed1_8_eq (c : Dev nD) (t : Fin cfg1.N) :
    (dat1 (F := Ideal) V c).flushed 8 t = ((cfg1.win 8).blk t).view.read (Elt Ideal)
      (nodeArr (msgArr V c) (featArr V c) (w1Arr V c) (b1Arr V c) (w2Arr V c) (b2Arr V c) (scaleArr V c) (shiftArr V c)) := by
  show (cfg1.win 8).cut (grid1.coords t) ((dat1 (F := Ideal) V c).after 8 t) = _
  rw [after1_8]
  unfold out1_8
  funext y
  have ht : t.val < 10 := Nat.lt_of_lt_of_eq t.isLt points1
  obtain ⟨r, q, rfl⟩ : ∃ (r : Fin 1000) (q : Fin 248), y = ix2 r q := ⟨y 0, y 1, eq_ix2 y⟩
  show k1_pay1 (F := Ideal) (k1_pay2 (msgBlk V c t) (w1Blk V c t) (b1Blk V c t) (w2Blk V c t) (b2Blk V c t) (featBlk V c t)) (scaleBlk V c t) (shiftBlk V c t) (ix2 r q)
    = nodeArr (msgArr V c) (featArr V c) (w1Arr V c) (b1Arr V c) (w2Arr V c) (b2Arr V c) (scaleArr V c) (shiftArr V c) (((cfg1.win 8).blk t).view.emb (ix2 r q))
  obtain ⟨n, hn⟩ : ∃ n : Fin 10000, n.val = t.val * 1000 + r.val := ⟨⟨t.val * 1000 + r.val, by have := r.isLt; omega⟩, rfl⟩
  rw [node_block_apply, outBlk_emb t r q n hn, w1Blk_eq, b1Blk_eq, w2Blk_eq, b2Blk_eq, scaleBlk_eq, shiftBlk_eq]
  have hm : (fun k => msgBlk V c t (ix2 r k)) = fun k => msgArr V c (ix2 n k) := funext fun k => msgBlk_apply V c t r k n hn
  have hf : (fun p => featBlk V c t (ix2 r p)) = fun p => featArr V c (ix2 n p) := funext fun p => featBlk_apply V c t r p n hn
  rw [hm, hf]
  rfl

/-! ## The blocks tile the result -/

/-- An index of the result is in point `t`'s block iff each coordinate is in the block's range on its axis. -/
theorem mem_outBlk (t : Fin cfg1.N) (i : S10000x248.Idx) :
    i ∈ ((cfg1.win 8).blk t).view.set ↔ ∀ a : Fin 2, win1_8.index t a * S1000x248.size a ≤ (i a).val ∧ (i a).val < win1_8.index t a * S1000x248.size a + S1000x248.size a := by
  show i ∈ ((View.whole main_v48).slice (win1_8.rect t)).set ↔ _
  rw [View.set_slice_whole, Rect.mem_set_unit]
  exact Iff.rfl

/-- Every entry of the result is in some point's block: row `n` in that of point `n / 1000`. -/
theorem outBlk_cover (i : S10000x248.Idx) :
    ∃ t : Fin cfg1.N, (cfg1.win 8).flush t = true ∧ i ∈ ((cfg1.win 8).blk t).view.set := by
  have hi0 : (i 0).val < 10000 := (i 0).isLt
  have hi1 : (i 1).val < 248 := (i 1).isLt
  obtain ⟨t, htv⟩ : ∃ t : Fin cfg1.N, t.val = (i 0).val / 1000 := ⟨⟨(i 0).val / 1000, by rw [points1]; omega⟩, rfl⟩
  obtain ⟨-, -, -, -, -, -, -, -, -, -, -, -, -, -, -, -, e0, e1⟩ := index_facts1 t
  refine ⟨t, flush1_8 t, ?_⟩
  rw [mem_outBlk]
  intro a
  match a with
  | ⟨0, _⟩ => show win1_8.index t (0 : Fin 2) * 1000 ≤ (i 0).val ∧ (i 0).val < win1_8.index t (0 : Fin 2) * 1000 + 1000; omega
  | ⟨1, _⟩ => show win1_8.index t (1 : Fin 2) * 248 ≤ (i 1).val ∧ (i 1).val < win1_8.index t (1 : Fin 2) * 248 + 248; omega

/-! ## The result array after the region -/

/-- THE ARRAY after the region: the node update of the eight arrays as the region finds them. -/
theorem region1_array (c : Dev nD) : (dat1 (F := Ideal) V c).arrAt 8 cfg1.N
    = nodeArr (msgArr V c) (featArr V c) (w1Arr V c) (b1Arr V c) (w2Arr V c) (b2Arr V c) (scaleArr V c) (shiftArr V c) :=
  (dat1 (F := Ideal) V c).arrAt_eq_of_cover 8 _ (fun t _ => flushed1_8_eq V c t) outBlk_cover

/-- Entry `(n, j)` of the result after the region is entry `j` of the node update of node `n`'s message row and feature
    row, under the weights, biases, scale and shift the region finds. -/
theorem region1_value (c : Dev nD) (n : Fin 10000) (j : Fin 248) :
    ((dat1 (F := Ideal) V c).arrAt 8 cfg1.N : S10000x248.Idx → EReal) (ix2 n j)
      = Cert.Hand.TailSpec.nodeOut (fun k => V c main_v39 (ix2 n k)) (fun q => V c main_arg0 (ix2 n q))
          (fun h k => V c main_v41 (ix2 k h)) (fun h => V c main_v44 (ix2 0 h)) (fun q h => V c main_v43 (ix2 h q))
          (fun q => V c main_v45 (ix2 0 q)) (fun q => V c main_v46 (ix2 0 q)) (fun q => V c main_v47 (ix2 0 q)) j := by
  rw [region1_array]
  rfl

end Cert.KernelIdeal.Hand

end
-- ==== Proof.HostStages0.lean ====
/-
  What the host operations of the kernel program's entry function have put in the six input arrays of its
  first kernel region when that region is entered, over the extended reals.

  * the source and target feature rows: the feature matrix gathered at the edges' end points, the edge list's
    negative entries normalised first — the very operations the reference program applies, so these two arrays
    ARE the reference's gathered arrays;
  * the message weight, transposed: the reference's transposed weight;
  * the three one-hot matrices of the structure-constant tables: for the first two tables the matrix is
    transposed and padded with 80 zero columns, for the third it is scaled row by row by the coefficients and
    padded with 80 zero rows.
-/
import proofs.«425772_j3977139716372_1_alg».proof.Proof.Gen.KernelIdeal.Regions
import proofs.«425772_j3977139716372_1_alg».proof.Proof.Gen.ReferenceIdeal.Read
import proofs.«425772_j3977139716372_1_alg».proof.Proof.Spec
import Idealize.ShloMosaic.Lib.StableHlo.Predicate
import Idealize.ShloMosaic.Lib.KernelVsHost

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-! ## The arguments reach every host stretch as launched -/

theorem V1_arg9 (c : Dev nD) : V1 m c main_arg9 = m ((c : Thread nD τ).loc main_arg9) :=
  (V1_of m c main_arg9 (by decide)).trans rfl

theorem V2_arg10 (c : Dev nD) : V2 m c main_arg10 = m ((c : Thread nD τ).loc main_arg10) :=
  (V2_of m c main_arg10 (by decide)).trans <| (V1_of m c main_arg10 (by decide)).trans rfl

theorem V3_arg11 (c : Dev nD) : V3 m c main_arg11 = m ((c : Thread nD τ).loc main_arg11) :=
  (V3_of m c main_arg11 (by decide)).trans <| (V2_of m c main_arg11 (by decide)).trans <|
    (V1_of m c main_arg11 (by decide)).trans rfl

theorem V8_arg12 (c : Dev nD) : V8 m c main_arg12 = m ((c : Thread nD τ).loc main_arg12) :=
  (V8_of m c main_arg12 (by decide)).trans <| (V7_of m c main_arg12 (by decide)).trans <|
    (V6_of m c main_arg12 (by decide)).trans <| (V5_of m c main_arg12 (by decide)).trans <|
    (V4_of m c main_arg12 (by decide)).trans <| (V3_of m c main_arg12 (by decide)).trans <|
    (V2_of m c main_arg12 (by decide)).trans <| (V1_of m c main_arg12 (by decide)).trans rfl

theorem V10_arg2 (c : Dev nD) : V10 m c main_arg2 = m ((c : Thread nD τ).loc main_arg2) :=
  (V10_of m c main_arg2 (by decide)).trans <| (V9_of m c main_arg2 (by decide)).trans <|
    (V8_of m c main_arg2 (by decide)).trans <| (V7_of m c main_arg2 (by decide)).trans <|
    (V6_of m c main_arg2 (by decide)).trans <| (V5_of m c main_arg2 (by decide)).trans <|
    (V4_of m c main_arg2 (by decide)).trans <| (V3_of m c main_arg2 (by decide)).trans <|
    (V2_of m c main_arg2 (by decide)).trans <| (V1_of m c main_arg2 (by decide)).trans rfl

/-! ## The one-hot matrix of a table -/

/-- The table laid along the rows of a [2480 × 248] rectangle, compared for equality with the column number,
    the bit read as a number: entry `(t, k)` is one when the table's entry `t` is `k`, else zero. -/
def oneHot (T : IVec S2480 32) : FVec Ideal S2480x248 .f32 :=
  uitofp .f32 (cmpi .eq
    (broadcastInDim S2480x248 ![0, 1] bcast_S2480x1_S2480x248_0_1 (broadcastInDim S2480x1 ![0] bcast_S2480_S2480x1_0 T))
    (broadcastInDim S2480x248 ![0, 1] bcast_S1x248_S2480x248_0_1 (iotaInDim S1x248 32 1)))

/-- A word in `[0, 248)` is the word of a column number exactly when it names that column. -/
theorem word_eq_iff_col (T : IVec S2480 32) (hT : Cert.Hand.Spec.InRange T) (t : Fin 2480) (k : Fin 248) :
    T (ix1 t) = BitVec.ofNat 32 k.val ↔ (Cert.Hand.Spec.col T hT t).val = k.val := by
  have hc := Cert.Hand.Spec.col_val T hT t
  have hk : (BitVec.ofNat 32 k.val).toInt = (k.val : ℤ) :=
    StableHlo.Predicate.toInt_ofNat_small k.val (by have := k.isLt; omega)
  constructor
  · intro h
    rw [h, hk] at hc
    exact_mod_cast hc
  · intro h
    apply BitVec.eq_of_toInt_eq
    rw [hk, ← hc, h]

/-- A vector of 2480 entries laid along the rows of a [2480 × 248] rectangle reads, at `(t, k)`, its entry `t`. -/
theorem alongRows_apply {α : Type} (v : S2480.Idx → α) (t : Fin 2480) (k : Fin 248) :
    broadcastInDim S2480x248 ![0, 1] bcast_S2480x1_S2480x248_0_1
      (broadcastInDim S2480x1 ![0] bcast_S2480_S2480x1_0 v) (ix2 t k) = v (ix1 t) := by
  rw [broadcastInDim_apply _ bcast_S2480x1_S2480x248_0_1 _ (ix2 t k) (ix2 t (0 : Fin 1)) (fun a => match a with
    | ⟨0, _⟩ => by show t.val = if (2480 : Nat) = 1 then 0 else t.val; rw [if_neg (by decide)]
    | ⟨1, _⟩ => by show (0 : Nat) = if (1 : Nat) = 1 then 0 else k.val; rw [if_pos rfl])]
  exact broadcastInDim_apply _ bcast_S2480_S2480x1_0 v (ix2 t (0 : Fin 1)) (ix1 t) (fun a => match a with
    | ⟨0, _⟩ => by show t.val = if (2480 : Nat) = 1 then 0 else t.val; rw [if_neg (by decide)])

theorem oneHot_apply (T : IVec S2480 32) (hT : Cert.Hand.Spec.InRange T) (t : Fin 2480) (k : Fin 248) :
    oneHot T (ix2 t k) = if (Cert.Hand.Spec.col T hT t).val = k.val then (1 : EReal) else 0 := by
  have hl := alongRows_apply T t k
  have hr : broadcastInDim S2480x248 ![0, 1] bcast_S1x248_S2480x248_0_1 (iotaInDim S1x248 32 1) (ix2 t k)
      = BitVec.ofNat 32 k.val := by
    rw [broadcastInDim_apply _ bcast_S1x248_S2480x248_0_1 _ (ix2 t k) (ix2 (0 : Fin 1) k) (fun a => match a with
      | ⟨0, _⟩ => by show (0 : Nat) = if (1 : Nat) = 1 then 0 else t.val; rw [if_pos rfl]
      | ⟨1, _⟩ => by show k.val = if (248 : Nat) = 1 then 0 else k.val; rw [if_neg (by decide)])]
    rfl
  show FloatOps.uitofp (F := Ideal) .f32 (IntOp.cmpi .eq _ _) = _
  rw [hl, hr]
  by_cases h : T (ix1 t) = BitVec.ofNat 32 k.val
  · rw [if_pos ((word_eq_iff_col T hT t k).mp h), StableHlo.Predicate.cmpi_eq_iff.mpr h]
    show (((1#1 : BitVec 1).toNat : ℝ) : EReal) = 1
    norm_num
  · rw [if_neg (fun h' => h ((word_eq_iff_col T hT t k).mpr h')),
      eq_zero_of_ne_one (fun h' => h (StableHlo.Predicate.cmpi_eq_iff.mp h'))]
    show (((0#1 : BitVec 1).toNat : ℝ) : EReal) = 0
    norm_num

/-! ## The selector of a table: the one-hot matrix transposed and padded -/

/-- The padding value, the word zero converted, is zero. -/
theorem padValue_eq_zero (i : S_.Idx) : (sitofp .f32 (constantI S_ 32 0#32) : FVec Ideal S_ .f32) i = 0 := by
  show ((((0#32 : BitVec 32).toInt : ℤ) : ℝ) : EReal) = 0
  simp

/-- The one-hot matrix of a table transposed to [248 × 2480] and padded with 80 zero columns: entry `(d, s)` is one
    when `s` is a triple and the table names `d` there, zero otherwise. -/
theorem selector_apply (T : IVec S2480 32) (hT : Cert.Hand.Spec.InRange T) (d : Fin 248) (s : Fin 2560) :
    (truncf .bf16 (pad S248x2560 ![0, 0] ![0, 80] ![0, 0]
        (transpose S248x2480 [1, 0] (oneHot T) transposes_S2480x248_S248x2480_1_0)
        (sitofp .f32 (constantI S_ 32 0#32) : FVec Ideal S_ .f32) pads_S248x2480_S248x2560_000_0800 h_S_)
      bitsLt_bf16_f32 : FVec Ideal S248x2560 .bf16) (ix2 d s)
      = if h : s.val < 2480 then
          (if (Cert.Hand.Spec.col T hT ⟨s.val, h⟩).val = d.val then (1 : EReal) else 0)
        else (0 : EReal) := by
  rw [truncf_apply]
  by_cases h : s.val < 2480
  · rw [dif_pos h,
      pad_apply_of_inside _ _ _ _ _ pads_S248x2480_S248x2560_000_0800 h_S_ (ix2 d s) (ix2 d (⟨s.val, h⟩ : Fin 2480))
        (fun a => match a with
          | ⟨0, _⟩ => by show d.val = 0 + d.val * (0 + 1); omega
          | ⟨1, _⟩ => by show s.val = 0 + s.val * (0 + 1); omega),
      transpose_apply [1, 0] _ transposes_S2480x248_S248x2480_1_0 (ix2 d (⟨s.val, h⟩ : Fin 2480))
        (ix2 (⟨s.val, h⟩ : Fin 2480) d) (fun b => match b with
          | ⟨0, _⟩ => rfl
          | ⟨1, _⟩ => rfl)]
    exact oneHot_apply T hT ⟨s.val, h⟩ d
  · rw [dif_neg h,
      pad_apply_of_not_inside _ _ _ _ _ pads_S248x2480_S248x2560_000_0800 h_S_ (ix2 d s) (1 : Fin 2) (by
        show ¬(0 ≤ s.val ∧ (s.val - 0) % 1 = 0 ∧ (s.val - 0) / 1 < 2480)
        omega)]
    exact padValue_eq_zero _

/-! ## The stretches, one operation chain at a time

Each lemma reads one stretch's result off the valuation before it: the stretch's operations composed, over whatever the
earlier buffers hold. -/

theorem V11_v18 (c : Dev nD) : V11 m c main_v18 = V1 m c main_v18 :=
  (V11_of m c main_v18 (by decide)).trans <| (V10_of m c main_v18 (by decide)).trans <|
    (V9_of m c main_v18 (by decide)).trans <| (V8_of m c main_v18 (by decide)).trans <|
    (V7_of m c main_v18 (by decide)).trans <| (V6_of m c main_v18 (by decide)).trans <|
    (V5_of m c main_v18 (by decide)).trans <| (V4_of m c main_v18 (by decide)).trans <|
    (V3_of m c main_v18 (by decide)).trans <| (V2_of m c main_v18 (by decide))

theorem V11_v19 (c : Dev nD) : V11 m c main_v19 = V1 m c main_v19 :=
  (V11_of m c main_v19 (by decide)).trans <| (V10_of m c main_v19 (by decide)).trans <|
    (V9_of m c main_v19 (by decide)).trans <| (V8_of m c main_v19 (by decide)).trans <|
    (V7_of m c main_v19 (by decide)).trans <| (V6_of m c main_v19 (by decide)).trans <|
    (V5_of m c main_v19 (by decide)).trans <| (V4_of m c main_v19 (by decide)).trans <|
    (V3_of m c main_v19 (by decide)).trans <| (V2_of m c main_v19 (by decide))

/-- The first module-local call makes the first table's one-hot matrix. -/
theorem V2_v20_eq (c : Dev nD) :
    (V2 m c main_v20 : FVec Ideal S2480x248 .f32)
      = (oneHot (V1 m c main_arg9) : FVec Ideal S2480x248 .f32) := by
  dsimp only [V2, hostOps0_1]; generalize V1 m c = W; after_results <;> rfl

/-- The second module-local call makes the second table's one-hot matrix. -/
theorem V3_v21_eq (c : Dev nD) :
    (V3 m c main_v21 : FVec Ideal S2480x248 .f32)
      = (oneHot (V2 m c main_arg10) : FVec Ideal S2480x248 .f32) := by
  dsimp only [V3, hostOps0_2]; generalize V2 m c = W; after_results <;> rfl

/-- The third module-local call makes the third table's one-hot matrix. -/
theorem V4_v22_eq (c : Dev nD) :
    (V4 m c main_v22 : FVec Ideal S2480x248 .f32)
      = (oneHot (V3 m c main_arg11) : FVec Ideal S2480x248 .f32) := by
  dsimp only [V4, hostOps0_3]; generalize V3 m c = W; after_results <;> rfl

/-- The first one-hot matrix transposed. -/
theorem V5_v23_eq (c : Dev nD) :
    (V5 m c main_v23 : FVec Ideal S248x2480 .f32)
      = (transpose S248x2480 [1, 0] (V4 m c main_v20 : FVec Ideal S2480x248 .f32) transposes_S2480x248_S248x2480_1_0 : FVec Ideal S248x2480 .f32) := by
  dsimp only [V5, hostOps0_4]; generalize V4 m c = W; after_results <;> rfl

/-- The first padding word. -/
theorem V5_c_3_eq (c : Dev nD) :
    (V5 m c main_c_3 : IVec S_ 32)
      = (constantI S_ 32 0#32 : IVec S_ 32) := by
  dsimp only [V5, hostOps0_4]; generalize V4 m c = W; after_results <;> rfl

/-- The first transposed matrix padded with 80 columns of the converted padding word. -/
theorem V6_v24_eq (c : Dev nD) :
    (V6 m c main_v24 : FVec Ideal S248x2560 .f32)
      = (pad S248x2560 ![0, 0] ![0, 80] ![0, 0] (V5 m c main_v23 : FVec Ideal S248x2480 .f32)
          (sitofp .f32 (V5 m c main_c_3 : IVec S_ 32) : FVec Ideal S_ .f32) pads_S248x2480_S248x2560_000_0800 h_S_ : FVec Ideal S248x2560 .f32) := by
  dsimp only [V6, hostOps0_5]; generalize V5 m c = W; after_results <;> rfl

/-- The first selector's change of format. -/
theorem V7_v25_eq (c : Dev nD) :
    (V7 m c main_v25 : FVec Ideal S248x2560 .bf16)
      = (truncf .bf16 (V6 m c main_v24 : FVec Ideal S248x2560 .f32) bitsLt_bf16_f32 : FVec Ideal S248x2560 .bf16) := by
  dsimp only [V7, hostOps0_6]; generalize V6 m c = W; after_results <;> rfl

/-- The second one-hot matrix transposed. -/
theorem V7_v26_eq (c : Dev nD) :
    (V7 m c main_v26 : FVec Ideal S248x2480 .f32)
      = (transpose S248x2480 [1, 0] (V6 m c main_v21 : FVec Ideal S2480x248 .f32) transposes_S2480x248_S248x2480_1_0 : FVec Ideal S248x2480 .f32) := by
  dsimp only [V7, hostOps0_6]; generalize V6 m c = W; after_results <;> rfl

/-- The second padding word. -/
theorem V7_c_4_eq (c : Dev nD) :
    (V7 m c main_c_4 : IVec S_ 32)
      = (constantI S_ 32 0#32 : IVec S_ 32) := by
  dsimp only [V7, hostOps0_6]; generalize V6 m c = W; after_results <;> rfl

/-- The second transposed matrix padded with 80 columns of the converted padding word. -/
theorem V8_v27_eq (c : Dev nD) :
    (V8 m c main_v27 : FVec Ideal S248x2560 .f32)
      = (pad S248x2560 ![0, 0] ![0, 80] ![0, 0] (V7 m c main_v26 : FVec Ideal S248x2480 .f32)
          (sitofp .f32 (V7 m c main_c_4 : IVec S_ 32) : FVec Ideal S_ .f32) pads_S248x2480_S248x2560_000_0800 h_S_ : FVec Ideal S248x2560 .f32) := by
  dsimp only [V8, hostOps0_7]; generalize V7 m c = W; after_results <;> rfl

/-- The second selector's change of format. -/
theorem V9_v28_eq (c : Dev nD) :
    (V9 m c main_v28 : FVec Ideal S248x2560 .bf16)
      = (truncf .bf16 (V8 m c main_v27 : FVec Ideal S248x2560 .f32) bitsLt_bf16_f32 : FVec Ideal S248x2560 .bf16) := by
  dsimp only [V9, hostOps0_8]; generalize V8 m c = W; after_results <;> rfl

/-- The third one-hot matrix times the coefficients laid along its rows. -/
theorem V9_v31_eq (c : Dev nD) :
    (V9 m c main_v31 : FVec Ideal S2480x248 .f32)
      = (mulf (V8 m c main_v22 : FVec Ideal S2480x248 .f32)
          (broadcastInDim S2480x248 ![0, 1] bcast_S2480x1_S2480x248_0_1
            (broadcastInDim S2480x1 ![0] bcast_S2480_S2480x1_0 (V8 m c main_arg12 : FVec Ideal S2480 .f32))) : FVec Ideal S2480x248 .f32) := by
  dsimp only [V9, hostOps0_8]; generalize V8 m c = W; after_results <;> rfl

/-- The third padding word. -/
theorem V9_c_5_eq (c : Dev nD) :
    (V9 m c main_c_5 : IVec S_ 32)
      = (constantI S_ 32 0#32 : IVec S_ 32) := by
  dsimp only [V9, hostOps0_8]; generalize V8 m c = W; after_results <;> rfl

/-- The scaled one-hot matrix padded with 80 rows of the converted padding word. -/
theorem V10_v32_eq (c : Dev nD) :
    (V10 m c main_v32 : FVec Ideal S2560x248 .f32)
      = (pad S2560x248 ![0, 0] ![80, 0] ![0, 0] (V9 m c main_v31 : FVec Ideal S2480x248 .f32)
          (sitofp .f32 (V9 m c main_c_5 : IVec S_ 32) : FVec Ideal S_ .f32) pads_S2480x248_S2560x248_0800_000 h_S_ : FVec Ideal S2560x248 .f32) := by
  dsimp only [V10, hostOps0_9]; generalize V9 m c = W; after_results <;> rfl

/-- The scatter matrix's change of format. -/
theorem V11_v33_eq (c : Dev nD) :
    (V11 m c main_v33 : FVec Ideal S2560x248 .bf16)
      = (truncf .bf16 (V10 m c main_v32 : FVec Ideal S2560x248 .f32) bitsLt_bf16_f32 : FVec Ideal S2560x248 .bf16) := by
  dsimp only [V11, hostOps0_10]; generalize V10 m c = W; after_results <;> rfl

/-- The message weight transposed, its format changed. -/
theorem V11_v35_eq (c : Dev nD) :
    (V11 m c main_v35 : FVec Ideal S248x248 .bf16)
      = (truncf .bf16 (transpose S248x248 [1, 0] (V10 m c main_arg2 : FVec Ideal S248x248 .f32) transposes_S248x248_S248x248_1_0 : FVec Ideal S248x248 .f32) bitsLt_bf16_f32 : FVec Ideal S248x248 .bf16) := by
  dsimp only [V11, hostOps0_10]; generalize V10 m c = W; after_results <;> rfl

/-! ## The six arrays as the host operations compose them -/

/-- The first selector. -/
theorem V11_v25 (c : Dev nD) :
    (V11 m c main_v25 : FVec Ideal S248x2560 .bf16)
      = (truncf .bf16 (pad S248x2560 ![0, 0] ![0, 80] ![0, 0]
          (transpose S248x2480 [1, 0] (oneHot (m ((c : Thread nD τ).loc main_arg9))) transposes_S2480x248_S248x2480_1_0)
          (sitofp .f32 (constantI S_ 32 0#32) : FVec Ideal S_ .f32) pads_S248x2480_S248x2560_000_0800 h_S_)
        bitsLt_bf16_f32 : FVec Ideal S248x2560 .bf16) := by
  have e11 : V11 m c main_v25 = V7 m c main_v25 :=
    (V11_of m c main_v25 (by decide)).trans <| (V10_of m c main_v25 (by decide)).trans <|
      (V9_of m c main_v25 (by decide)).trans <| (V8_of m c main_v25 (by decide))
  have e4 : V4 m c main_v20 = V2 m c main_v20 :=
    (V4_of m c main_v20 (by decide)).trans (V3_of m c main_v20 (by decide))
  rw [e11, V7_v25_eq, V6_v24_eq, V5_v23_eq, V5_c_3_eq, e4, V2_v20_eq, V1_arg9]

/-- The second selector. -/
theorem V11_v28 (c : Dev nD) :
    (V11 m c main_v28 : FVec Ideal S248x2560 .bf16)
      = (truncf .bf16 (pad S248x2560 ![0, 0] ![0, 80] ![0, 0]
          (transpose S248x2480 [1, 0] (oneHot (m ((c : Thread nD τ).loc main_arg10))) transposes_S2480x248_S248x2480_1_0)
          (sitofp .f32 (constantI S_ 32 0#32) : FVec Ideal S_ .f32) pads_S248x2480_S248x2560_000_0800 h_S_)
        bitsLt_bf16_f32 : FVec Ideal S248x2560 .bf16) := by
  have e11 : V11 m c main_v28 = V9 m c main_v28 :=
    (V11_of m c main_v28 (by decide)).trans (V10_of m c main_v28 (by decide))
  have e6 : V6 m c main_v21 = V3 m c main_v21 :=
    (V6_of m c main_v21 (by decide)).trans <| (V5_of m c main_v21 (by decide)).trans (V4_of m c main_v21 (by decide))
  rw [e11, V9_v28_eq, V8_v27_eq, V7_v26_eq, V7_c_4_eq, e6, V3_v21_eq, V2_arg10]

/-- The scatter matrix: the third table's one-hot matrix times the coefficients laid along its rows, padded with 80
    zero rows. -/
theorem V11_v33 (c : Dev nD) :
    (V11 m c main_v33 : FVec Ideal S2560x248 .bf16)
      = (truncf .bf16 (pad S2560x248 ![0, 0] ![80, 0] ![0, 0]
          (mulf (oneHot (m ((c : Thread nD τ).loc main_arg11)))
            (broadcastInDim S2480x248 ![0, 1] bcast_S2480x1_S2480x248_0_1
              (broadcastInDim S2480x1 ![0] bcast_S2480_S2480x1_0
                (m ((c : Thread nD τ).loc main_arg12) : FVec Ideal S2480 .f32))) : FVec Ideal S2480x248 .f32)
          (sitofp .f32 (constantI S_ 32 0#32) : FVec Ideal S_ .f32) pads_S2480x248_S2560x248_0800_000 h_S_)
        bitsLt_bf16_f32 : FVec Ideal S2560x248 .bf16) := by
  have e8 : V8 m c main_v22 = V4 m c main_v22 :=
    (V8_of m c main_v22 (by decide)).trans <| (V7_of m c main_v22 (by decide)).trans <|
      (V6_of m c main_v22 (by decide)).trans (V5_of m c main_v22 (by decide))
  rw [V11_v33_eq, V10_v32_eq, V9_v31_eq, V9_c_5_eq, e8, V4_v22_eq, V3_arg11, V8_arg12]

/-! ## The statements -/

/-- The source feature rows are the reference's gathered source rows. -/
theorem stage_src (c : Dev nD) :
    (V11 m c main_v18 : S100000x248.Idx → EReal)
      = Cert.ReferenceIdeal.Read.val_main_v10 (F := Ideal) (m ((c : Thread nD τ).loc main_arg0)) (m ((c : Thread nD τ).loc main_arg1)) := by
  rw [V11_v18]
  have e : (V1 m c main_v18 : S100000x248.Idx → EReal)
      = Cert.ReferenceIdeal.Read.val_main_v10 (F := Ideal) (m ((c : Thread nD τ).loc main_arg0))
          (m ((c : Thread nD τ).loc main_arg1)) := by
    dsimp only [V1, hostOps0]; after_results
    rfl
  exact e

/-- The target feature rows are the reference's gathered target rows. -/
theorem stage_tgt (c : Dev nD) :
    (V11 m c main_v19 : S100000x248.Idx → EReal)
      = Cert.ReferenceIdeal.Read.val_main_v19 (F := Ideal) (m ((c : Thread nD τ).loc main_arg0)) (m ((c : Thread nD τ).loc main_arg1)) := by
  rw [V11_v19]
  have e : (V1 m c main_v19 : S100000x248.Idx → EReal)
      = Cert.ReferenceIdeal.Read.val_main_v19 (F := Ideal) (m ((c : Thread nD τ).loc main_arg0))
          (m ((c : Thread nD τ).loc main_arg1)) := by
    dsimp only [V1, hostOps0]; after_results
    rfl
  exact e

/-- The transposed message weight is the reference's. -/
theorem stage_wT (c : Dev nD) :
    (V11 m c main_v35 : S248x248.Idx → EReal)
      = Cert.ReferenceIdeal.Read.val_main_v11 (F := Ideal) (m ((c : Thread nD τ).loc main_arg2)) := by
  rw [V11_v35_eq, V10_arg2]
  rfl

/-- The first table's selector: entry `(d, s)` is one exactly when slot `s` is a triple whose first index is `d`. -/
theorem stage_GI (c : Dev nD) (hI : Cert.Hand.Spec.InRange (m ((c : Thread nD τ).loc main_arg9))) :
    ∀ (d : Fin 248) (s : Fin 2560), (V11 m c main_v25 : S248x2560.Idx → EReal) (ix2 d s)
      = if h : s.val < 2480 then
          (if (Cert.Hand.Spec.col (m ((c : Thread nD τ).loc main_arg9)) hI ⟨s.val, h⟩).val = d.val then (1 : EReal) else 0)
        else (0 : EReal) := by
  intro d s
  rw [V11_v25]
  exact selector_apply _ hI d s

/-- The second table's selector: entry `(d, s)` is one exactly when slot `s` is a triple whose second index is `d`. -/
theorem stage_GJ (c : Dev nD) (hJ : Cert.Hand.Spec.InRange (m ((c : Thread nD τ).loc main_arg10))) :
    ∀ (d : Fin 248) (s : Fin 2560), (V11 m c main_v28 : S248x2560.Idx → EReal) (ix2 d s)
      = if h : s.val < 2480 then
          (if (Cert.Hand.Spec.col (m ((c : Thread nD τ).loc main_arg10)) hJ ⟨s.val, h⟩).val = d.val then (1 : EReal) else 0)
        else (0 : EReal) := by
  intro d s
  rw [V11_v28]
  exact selector_apply _ hJ d s

/-- The scatter matrix: entry `(s, k)` is the coefficient of triple `s` when its output slot is `k`, zero otherwise,
    and zero on the 80 padding rows. -/
theorem stage_S (c : Dev nD) (hK : Cert.Hand.Spec.InRange (m ((c : Thread nD τ).loc main_arg11))) :
    ∀ (s : Fin 2560) (k : Fin 248), (V11 m c main_v33 : S2560x248.Idx → EReal) (ix2 s k)
      = if h : s.val < 2480 then
          (if (Cert.Hand.Spec.col (m ((c : Thread nD τ).loc main_arg11)) hK ⟨s.val, h⟩).val = k.val then (1 : EReal) else 0)
            * (m ((c : Thread nD τ).loc main_arg12) : S2480.Idx → EReal) (ix1 ⟨s.val, h⟩)
        else (0 : EReal) := by
  intro s k
  rw [V11_v33, truncf_apply]
  by_cases h : s.val < 2480
  · rw [dif_pos h,
      pad_apply_of_inside _ _ _ _ _ pads_S2480x248_S2560x248_0800_000 h_S_ (ix2 s k) (ix2 (⟨s.val, h⟩ : Fin 2480) k)
        (fun a => match a with
          | ⟨0, _⟩ => by show s.val = 0 + s.val * (0 + 1); omega
          | ⟨1, _⟩ => by show k.val = 0 + k.val * (0 + 1); omega),
      mulf_apply, oneHot_apply _ hK, alongRows_apply]
  · rw [dif_neg h,
      pad_apply_of_not_inside _ _ _ _ _ pads_S2480x248_S2560x248_0800_000 h_S_ (ix2 s k) (0 : Fin 2) (by
        show ¬(0 ≤ s.val ∧ (s.val - 0) % 1 = 0 ∧ (s.val - 0) / 1 < 2480)
        omega)]
    exact padValue_eq_zero _

end Cert.KernelIdeal.Hand

end
-- ==== Proof.SegSum.lean ====
/-
  The aggregation of edge messages onto their target nodes, named once.

  The reference sums the message rows of all edges that point at a node into that node's row: a scatter-add of the
  [100000, 248] messages into a zero [10000, 248] array along the edges' target indices.  `segSum tgt M` is that
  operation with the messages `M` left free, so that two programs which aggregate in the same way are compared by
  comparing what they aggregate.
-/
import proofs.«425772_j3977139716372_1_alg».proof.Proof.Gen.ReferenceIdeal.Read

noncomputable section

namespace Cert.Hand.SegSum

open Cert.ReferenceIdeal Cert.ReferenceIdeal.Read Idealize.ShloMosaic

variable {F : FTy → Type} [FloatOps F]

/-- The messages `M` summed onto the target nodes the edge list `x1` names, as the reference does it. -/
def segSum (x1 : (⟨S2x100000, .i32⟩ : BufTy).Contents (Elt F)) (M : (⟨S100000x248, .f32⟩ : BufTy).Contents (Elt F)) :
    (⟨S10000x248, .f32⟩ : BufTy).Contents (Elt F) :=
  Host.scatterAdd scatter_S10000x248_S100000x1_S100000x248_1_0_0_1 (val_main_v46 (F := F)) (val_main_v47 (F := F) x1) M

/-- The reference's aggregated array is `segSum` of its own messages. -/
theorem ref_agg_eq (x0 : (⟨S10000x248, .f32⟩ : BufTy).Contents (Elt F)) (x1 : (⟨S2x100000, .i32⟩ : BufTy).Contents (Elt F))
    (x2 : (⟨S248x248, .f32⟩ : BufTy).Contents (Elt F)) (x9 x10 x11 : (⟨S2480, .i32⟩ : BufTy).Contents (Elt F))
    (x12 : (⟨S2480, .f32⟩ : BufTy).Contents (Elt F)) :
    val_main_v48 (F := F) x0 x1 x2 x9 x10 x11 x12 = segSum x1 (val_main_v45 (F := F) x0 x1 x2 x9 x10 x11 x12) := rfl

end Cert.Hand.SegSum

end
-- ==== Proof.HostStages1.lean ====
/-
  What the host operations have put in the input arrays of the program's second kernel region when it is entered.

  Between the two kernel regions the program aggregates the messages the first region left: it sums the message rows
  of all edges that point at a node into that node's row (a scatter-add of the messages into a zero array along the
  edges' target indices), which is the same operation the reference performs on its own messages.  The remaining
  inputs of the second region are layout only: the two weight matrices transposed (and changed in format, which is
  the identity on ideal values), and the four parameter vectors viewed as one-row matrices.  The node features are
  passed through untouched.
-/
import proofs.«425772_j3977139716372_1_alg».proof.Proof.Gen.KernelIdeal.Regions
import proofs.«425772_j3977139716372_1_alg».proof.Proof.SegSum
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (outs : Outs (F := Ideal))

/-! ## What the second host stretch finds -/

/-- A buffer that, of everything before the second host stretch, only the first host stretch may have written still
    holds at the entry of the second host stretch what the first host stretch left in it. -/
private theorem V12_eq_V1 (c : Dev nD) (r : Ref sig .tc)
    (h1 : r ∉ hostOps0_1_W := by decide) (h2 : r ∉ hostOps0_2_W := by decide) (h3 : r ∉ hostOps0_3_W := by decide)
    (h4 : r ∉ hostOps0_4_W := by decide) (h5 : r ∉ hostOps0_5_W := by decide) (h6 : r ∉ hostOps0_6_W := by decide)
    (h7 : r ∉ hostOps0_7_W := by decide) (h8 : r ∉ hostOps0_8_W := by decide) (h9 : r ∉ hostOps0_9_W := by decide)
    (h10 : r ∉ hostOps0_10_W := by decide) (h11 : r ∉ ([main_v36] : List (Ref sig .tc)) := by decide) :
    V12 m outs c r = V1 m c r :=
  (V12_of m outs c r h11).trans <| (V11_of m c r h10).trans <| (V10_of m c r h9).trans <| (V9_of m c r h8).trans <|
    (V8_of m c r h7).trans <| (V7_of m c r h6).trans <| (V6_of m c r h5).trans <| (V5_of m c r h4).trans <|
    (V4_of m c r h3).trans <| (V3_of m c r h2).trans <| (V2_of m c r h1)

/-- A buffer nothing before the second host stretch writes holds its launch contents there. -/
private theorem V12_launch (c : Dev nD) (r : Ref sig .tc) (h0 : r ∉ hostOps0_W := by decide)
    (h1 : r ∉ hostOps0_1_W := by decide) (h2 : r ∉ hostOps0_2_W := by decide) (h3 : r ∉ hostOps0_3_W := by decide)
    (h4 : r ∉ hostOps0_4_W := by decide) (h5 : r ∉ hostOps0_5_W := by decide) (h6 : r ∉ hostOps0_6_W := by decide)
    (h7 : r ∉ hostOps0_7_W := by decide) (h8 : r ∉ hostOps0_8_W := by decide) (h9 : r ∉ hostOps0_9_W := by decide)
    (h10 : r ∉ hostOps0_10_W := by decide) (h11 : r ∉ ([main_v36] : List (Ref sig .tc)) := by decide) :
    V12 m outs c r = m ((c : Thread nD τ).loc r) :=
  (V12_eq_V1 m outs c r h1 h2 h3 h4 h5 h6 h7 h8 h9 h10 h11).trans <| (V1_of m c r h0).trans rfl

/-- The edges' target indices, as the first host stretch cut them out of the edge list: its second row, as a vector. -/
private theorem V12_targets (c : Dev nD) :
    (V12 m outs c main_v3 : S100000.Idx → BitVec 32)
      = shapeCast S100000 (extractStridedSlice S1x100000 ![1, 0] (m ((c : Thread nD τ).loc main_arg1) : S2x100000.Idx → BitVec 32)
          slices_S2x100000_S1x100000_1_0) shapeCasts_S1x100000_S100000 := by
  rw [V12_eq_V1 m outs c main_v3]
  dsimp only [V1, hostOps0]; after_results; rfl

/-! ## The aggregation -/

/-- The aggregated messages: the messages the first region left, summed onto the target nodes of the edge list. -/
theorem stage_agg (c : Dev nD) :
    (V13 m outs c main_v39 : S10000x248.Idx → EReal)
      = Cert.Hand.SegSum.segSum (F := Ideal) (m ((c : Thread nD τ).loc main_arg1)) (outs 12 main_v36 c) := by
  have e : (V13 m outs c main_v39 : S10000x248.Idx → EReal)
      = Host.scatterAdd (F := Ideal) scatter_S10000x248_S100000x1_S100000x248_1_0_0_1
          (broadcastInDim S10000x248 ![] bcast_S_S10000x248 (constant (F := Ideal) S_ .f32 0x00000000#32))
          (broadcastInDim S100000x1 ![0] bcast_S100000_S100000x1_0 (V12 m outs c main_v3))
          (V12 m outs c main_v36) := by
    dsimp only [V13, hostOps1]; after_results
  have e36 : V12 m outs c main_v36 = outs 12 main_v36 c := by
    simp only [V12, Function.update_self]
  rw [e, V12_targets m outs c, e36]; rfl

/-! ## The inputs that are layout only -/

/-- The node features reach the second region as launched. -/
theorem stage_feat (c : Dev nD) : V13 m outs c main_arg0 = m ((c : Thread nD τ).loc main_arg0) :=
  (V13_of m outs c main_arg0 (by decide)).trans (V12_launch m outs c main_arg0)

/-- The first weight matrix, transposed. -/
theorem stage_w1T (c : Dev nD) (k : Fin 248) (h : Fin 512) :
    (V13 m outs c main_v41 : S248x512.Idx → EReal) (ix2 k h) = m ((c : Thread nD τ).loc main_arg3) (ix2 h k) := by
  have e : (V13 m outs c main_v41 : S248x512.Idx → EReal)
      = truncf (F := Ideal) .bf16 (transpose S248x512 [1, 0] (V12 m outs c main_arg3 : S512x248.Idx → EReal)
          transposes_S512x248_S248x512_1_0) bitsLt_bf16_f32 := by
    dsimp only [V13, hostOps1]; after_results
  rw [e, truncf_apply, V12_launch m outs c main_arg3]
  exact transpose_ix2_apply _ transposes_S512x248_S248x512_1_0 k h

/-- The first bias, as a row. -/
theorem stage_b1 (c : Dev nD) (h : Fin 512) :
    (V13 m outs c main_v44 : S1x512.Idx → EReal) (ix2 0 h) = m ((c : Thread nD τ).loc main_arg4) (ix1 h) := by
  have e : (V13 m outs c main_v44 : S1x512.Idx → EReal)
      = shapeCast S1x512 (V12 m outs c main_arg4 : S512.Idx → EReal) shapeCasts_S512_S1x512 := by
    dsimp only [V13, hostOps1]; after_results; rfl
  rw [e, V12_launch m outs c main_arg4]
  exact shapeCast_a_1a_apply _ shapeCasts_S512_S1x512 0 h

/-- The second weight matrix, transposed. -/
theorem stage_w2T (c : Dev nD) (h : Fin 512) (q : Fin 248) :
    (V13 m outs c main_v43 : S512x248.Idx → EReal) (ix2 h q) = m ((c : Thread nD τ).loc main_arg5) (ix2 q h) := by
  have e : (V13 m outs c main_v43 : S512x248.Idx → EReal)
      = truncf (F := Ideal) .bf16 (transpose S512x248 [1, 0] (V12 m outs c main_arg5 : S248x512.Idx → EReal)
          transposes_S248x512_S512x248_1_0) bitsLt_bf16_f32 := by
    dsimp only [V13, hostOps1]; after_results
  rw [e, truncf_apply, V12_launch m outs c main_arg5]
  exact transpose_ix2_apply _ transposes_S248x512_S512x248_1_0 h q

/-- The second bias, as a row. -/
theorem stage_b2 (c : Dev nD) (q : Fin 248) :
    (V13 m outs c main_v45 : S1x248.Idx → EReal) (ix2 0 q) = m ((c : Thread nD τ).loc main_arg6) (ix1 q) := by
  have e : (V13 m outs c main_v45 : S1x248.Idx → EReal)
      = shapeCast S1x248 (V12 m outs c main_arg6 : S248.Idx → EReal) shapeCasts_S248_S1x248 := by
    dsimp only [V13, hostOps1]; after_results; rfl
  rw [e, V12_launch m outs c main_arg6]
  exact shapeCast_a_1a_apply _ shapeCasts_S248_S1x248 0 q

/-- The scale, as a row. -/
theorem stage_scale (c : Dev nD) (q : Fin 248) :
    (V13 m outs c main_v46 : S1x248.Idx → EReal) (ix2 0 q) = m ((c : Thread nD τ).loc main_arg7) (ix1 q) := by
  have e : (V13 m outs c main_v46 : S1x248.Idx → EReal)
      = shapeCast S1x248 (V12 m outs c main_arg7 : S248.Idx → EReal) shapeCasts_S248_S1x248 := by
    dsimp only [V13, hostOps1]; after_results; rfl
  rw [e, V12_launch m outs c main_arg7]
  exact shapeCast_a_1a_apply _ shapeCasts_S248_S1x248 0 q

/-- The shift, as a row. -/
theorem stage_shift (c : Dev nD) (q : Fin 248) :
    (V13 m outs c main_v47 : S1x248.Idx → EReal) (ix2 0 q) = m ((c : Thread nD τ).loc main_arg8) (ix1 q) := by
  have e : (V13 m outs c main_v47 : S1x248.Idx → EReal)
      = shapeCast S1x248 (V12 m outs c main_arg8 : S248.Idx → EReal) shapeCasts_S248_S1x248 := by
    dsimp only [V13, hostOps1]; after_results; rfl
  rw [e, V12_launch m outs c main_arg8]
  exact shapeCast_a_1a_apply _ shapeCasts_S248_S1x248 0 q

end Cert.KernelIdeal.Hand

end
-- ==== Proof.BlockedAlgebra.lean ====
/-
  The blocked dense form of the edge messages equals the sparse form, over ALL extended reals.

  The sparse form sums, over the 2480 structure-constant triples `(I_t, J_t, K_t, C_t)` whose output slot is `k`,
  the product `(sp e I_t · tg e J_t) · C_t`.  The blocked form pads the triples with 80 empty slots to
  2560 = 10 · 256, lays them out as 0/1 matrices `GI d s = [s < 2480 ∧ I_s = d]`, `GJ` likewise, and
  `S s k = [s < 2480 ∧ K_s = k] · C_s`, and sums `((∑_d sp e d · GI d s) · (∑_d tg e d · GJ d s)) · S s k` over ten
  blocks of 256 slots.

  No finiteness is assumed and none is needed.  The extended reals are a commutative monoid with zero under `·`
  and a commutative monoid under `+`; only `x · 1 = x`, `x · 0 = 0`, `1 · x = x`, `0 · x = 0` and `s + 0 = s`
  are used, all of which hold at `±∞`.  Distributivity, cancellation and subtraction — which fail at infinities —
  are never used:
    * each inner sum `∑_d x_d · GI d s` has at most one nonzero term, so it IS the selected feature
      (`sum_mul_onehot`);
    * `(b, u) ↦ 256·b + u` is a bijection of `Fin 10 × Fin 256` with the 2560 slots (`sum_blocks`);
    * an empty slot contributes `(…) · 0 = 0`, so only the first 2480 slots are summed (`sum_padded`);
    * at a triple, `(a · b) · (1 · c) = (a · b) · c` and `(a · b) · (0 · c) = 0`.
-/
import proofs.«425772_j3977139716372_1_alg».proof.Proof.Spec
import proofs.«425772_j3977139716372_1_alg».proof.Proof.KerSpec
import Mathlib.Algebra.BigOperators.Fin
import Mathlib.Logic.Equiv.Fin.Basic

noncomputable section

open scoped BigOperators

namespace Cert.Hand.Algebra

open Idealize.ShloMosaic Idealize.ShloMosaic.ValueIdx

/-- Contracting a row against a 0/1 column that is 1 exactly at `c` leaves the row's entry at `c`: every other
    term is `x · 0 = 0` and the one left is `x · 1 = x`, which hold for every extended real. -/
theorem sum_mul_onehot (f : Fin 248 → EReal) (c : Fin 248) :
    ∑ d : Fin 248, f d * (if c.val = d.val then (1 : EReal) else 0) = f c := by
  have hterm : ∀ d : Fin 248,
      f d * (if c.val = d.val then (1 : EReal) else 0) = if c = d then f d else 0 := by
    intro d
    by_cases h : c = d
    · rw [if_pos (congrArg Fin.val h), if_pos h, mul_one]
    · rw [if_neg (fun hv => h (Fin.ext hv)), if_neg h, mul_zero]
  rw [Finset.sum_congr rfl (fun d _ => hterm d), Finset.sum_ite_eq, if_pos (Finset.mem_univ c)]

/-- Ten blocks of 256 enumerate the 2560 slots: `(b, u) ↦ 256·b + u` is a bijection, so the blocked double sum is
    the sum over the slots. -/
theorem sum_blocks {M : Type*} [AddCommMonoid M] (F : Fin 2560 → M) :
    ∑ b : Fin 10, ∑ u : Fin 256, F (KerSpec.slot b u) = ∑ s : Fin 2560, F s := by
  refine (Fintype.sum_prod_type (fun p : Fin 10 × Fin 256 => F (KerSpec.slot p.1 p.2))).symm.trans ?_
  refine Fintype.sum_equiv (finProdFinEquiv : Fin 10 × Fin 256 ≃ Fin 2560) _ _ (fun p => congrArg F (Fin.ext ?_))
  show 256 * p.1.val + p.2.val = p.2.val + 256 * p.1.val
  exact Nat.add_comm _ _

/-- Of the 2560 slots the last 80 are empty: a summand that vanishes there is summed over the first 2480 only. -/
theorem sum_padded {M : Type*} [AddCommMonoid M] (F : Fin 2560 → M)
    (hF : ∀ s : Fin 2560, 2480 ≤ s.val → F s = 0) :
    ∑ s : Fin 2560, F s = ∑ t : Fin 2480, F ⟨t.val, by omega⟩ := by
  refine (Fin.sum_trunc (a := 2480) (b := 80) F (fun j => hF _ ?_)).trans ?_
  · show 2480 ≤ 2480 + j.val
    exact Nat.le_add_right _ _
  · exact Finset.sum_congr rfl (fun t _ => congrArg F (Fin.ext rfl))

theorem blocked_eq_sparse (sp tg : KerSpec.Arr2 100000 248) (I J K : IVec ⟨1, ![2480]⟩ 32)
    (hI : Spec.InRange I) (hJ : Spec.InRange J) (hK : Spec.InRange K) (C : FVec Ideal ⟨1, ![2480]⟩ .f32)
    (GI GJ : KerSpec.Arr2 248 2560) (S : KerSpec.Arr2 2560 248)
    (hGI : ∀ (d : Fin 248) (s : Fin 2560), GI (ix2 d s) =
      if h : s.val < 2480 then (if (Spec.col I hI ⟨s.val, h⟩).val = d.val then 1 else 0) else 0)
    (hGJ : ∀ (d : Fin 248) (s : Fin 2560), GJ (ix2 d s) =
      if h : s.val < 2480 then (if (Spec.col J hJ ⟨s.val, h⟩).val = d.val then 1 else 0) else 0)
    (hS : ∀ (s : Fin 2560) (k : Fin 248), S (ix2 s k) =
      if h : s.val < 2480 then (if (Spec.col K hK ⟨s.val, h⟩).val = k.val then 1 else 0) * C (ix1 ⟨s.val, h⟩) else 0) :
    KerSpec.messages sp tg GI GJ S = Spec.messages sp tg I J K hI hJ hK C := by
  funext i
  obtain ⟨e, k, rfl⟩ : ∃ (e : Fin 100000) (k : Fin 248), i = ix2 e k := ⟨i 0, i 1, eq_ix2 i⟩
  show (∑ b : Fin 10, ∑ u : Fin 256,
      ((∑ d : Fin 248, sp (ix2 e d) * GI (ix2 d (KerSpec.slot b u)))
        * (∑ d : Fin 248, tg (ix2 e d) * GJ (ix2 d (KerSpec.slot b u)))) * S (ix2 (KerSpec.slot b u) k))
    = ∑ t : Fin 2480, if (Spec.col K hK t).val = k.val then
        (sp (ix2 e (Spec.col I hI t)) * tg (ix2 e (Spec.col J hJ t))) * C (ix1 t) else 0
  -- the matrices at one of the first 2480 slots
  have eGI : ∀ (t : Fin 2480) (d : Fin 248),
      GI (ix2 d (⟨t.val, by omega⟩ : Fin 2560)) = if (Spec.col I hI t).val = d.val then 1 else 0 := by
    intro t d
    rw [hGI, dif_pos (show (⟨t.val, _⟩ : Fin 2560).val < 2480 from t.isLt)]
  have eGJ : ∀ (t : Fin 2480) (d : Fin 248),
      GJ (ix2 d (⟨t.val, by omega⟩ : Fin 2560)) = if (Spec.col J hJ t).val = d.val then 1 else 0 := by
    intro t d
    rw [hGJ, dif_pos (show (⟨t.val, _⟩ : Fin 2560).val < 2480 from t.isLt)]
  have eS : ∀ (t : Fin 2480),
      S (ix2 (⟨t.val, by omega⟩ : Fin 2560) k)
        = (if (Spec.col K hK t).val = k.val then 1 else 0) * C (ix1 t) := by
    intro t
    rw [hS, dif_pos (show (⟨t.val, _⟩ : Fin 2560).val < 2480 from t.isLt)]
  -- the blocks are the slots, and the empty slots contribute `(…) · 0 = 0`
  rw [sum_blocks (fun s => ((∑ d : Fin 248, sp (ix2 e d) * GI (ix2 d s))
        * (∑ d : Fin 248, tg (ix2 e d) * GJ (ix2 d s))) * S (ix2 s k)),
    sum_padded _ (fun s hs => by rw [hS, dif_neg (by omega), mul_zero])]
  refine Finset.sum_congr rfl (fun t _ => ?_)
  -- one triple: each contraction picks its feature, and the coefficient enters through `1 · c` or `0 · c`
  show ((∑ d : Fin 248, sp (ix2 e d) * GI (ix2 d (⟨t.val, by omega⟩ : Fin 2560)))
        * (∑ d : Fin 248, tg (ix2 e d) * GJ (ix2 d (⟨t.val, by omega⟩ : Fin 2560))))
        * S (ix2 (⟨t.val, by omega⟩ : Fin 2560) k) = _
  rw [Finset.sum_congr rfl (fun d _ => congrArg (sp (ix2 e d) * ·) (eGI t d)),
    Finset.sum_congr rfl (fun d _ => congrArg (tg (ix2 e d) * ·) (eGJ t d)), eS t,
    sum_mul_onehot (fun d => sp (ix2 e d)), sum_mul_onehot (fun d => tg (ix2 e d))]
  by_cases h : (Spec.col K hK t).val = k.val
  · rw [if_pos h, if_pos h, one_mul]
  · rw [if_neg h, if_neg h, zero_mul, mul_zero]

end Cert.Hand.Algebra

end
-- ==== Proof.RefMessages.lean ====
/-
  The reference's edge messages, read at an index.

  The reference forms, for every edge `e` and every structure-constant triple `t`, the product
  `src_proj e I_t · tgt_feats e J_t · C_t` — two COLUMN gathers (each picks, for every triple, one column of a
  `[edges, 248]` array), two elementwise products and a broadcast of the coefficients — and then adds the column
  `t` of that `[edges, 2480]` array into the column `K_t` of a zero `[edges, 248]` array (a COLUMN scatter-add).
  Before each table is used its negative entries are wrapped (`w < 0 ↦ w + 248`).

  Three facts, then the assembly:
  • the column gather read at an index: the entry at `(e, t)` is the operand at row `e` and at the column the
    table names at `t`, read signed and clamped into `[0, C − 1]`;
  • the column scatter-add read at an index, over the extended reals: the entry at `(e, k)` is the initial value
    plus the sum, over the triples `t` whose table entry (read signed, NOT clamped) is `k`, of the update at `(e, t)`;
  • a table entry in `[0, 248)` is left alone by the wrap, by the clamp, and lands inside the operand.
  Only `0 + x = x` and the re-indexing of a finite sum are used of the extended reals.
-/
import proofs.«425772_j3977139716372_1_alg».proof.Proof.Gen.ReferenceIdeal.Read
import proofs.«425772_j3977139716372_1_alg».proof.Proof.Spec
import Idealize.ShloMosaic.PureOps.Ideal
import Idealize.ShloMosaic.PureOps.Ideal.Laws
import Idealize.ShloMosaic.Lib.ValueIdx

noncomputable section

open scoped BigOperators

namespace Cert.Hand.RefMsg

open Cert.ReferenceIdeal Cert.ReferenceIdeal.Gen Cert.ReferenceIdeal.Read Cert.Hand.Spec
open Idealize.ShloMosaic Idealize.ShloMosaic.ValueIdx

/-! ## The column gather read at an index -/

section ColumnGather
variable {α : Type}

/-- The dimension numbers of `x[:, idx]` for an operand `[R, C]` and `n` start indices held as `[n, 1]`: the result
    `[R, n]` keeps the operand's rows (offset axis 0, slice size `R`) and collapses its column axis, which the one
    component of a start index addresses. -/
abbrev colGatherDims (R C n : Nat)
    (wf : GatherDims.WF ⟨2, ![R, C]⟩ ⟨2, ![n, 1]⟩ ⟨2, ![R, n]⟩ [0] [1] [] [1] [] 1 ![R, 1]) :
    GatherDims ⟨2, ![R, C]⟩ ⟨2, ![n, 1]⟩ ⟨2, ![R, n]⟩ where
  offsetDims := [0]
  collapsedSliceDims := [1]
  operandBatchingDims := []
  startIndicesBatchingDims := []
  startIndexMap := [1]
  indexVectorDim := 1
  sliceSizes := ![R, 1]
  wf := wf

/-- THE COLUMN GATHER READ AT `(e, t)`: the operand at row `e` and at the column `idx[t, 0]`, read signed and clamped
    into `[0, C − 1]`. On the row axis the start is `0` (the start index map does not name it) and the offset is
    `e`; on the column axis the start is the clamped index and the offset `0` (the axis is collapsed). -/
theorem gather_cols_apply {R C n w : Nat} (hC : 0 < C)
    (wf : GatherDims.WF ⟨2, ![R, C]⟩ ⟨2, ![n, 1]⟩ ⟨2, ![R, n]⟩ [0] [1] [] [1] [] 1 ![R, 1])
    (x : (⟨2, ![R, C]⟩ : Shape).Idx → α) (idx : IVec ⟨2, ![n, 1]⟩ w) (j : (⟨2, ![R, n]⟩ : Shape).Idx) :
    Host.gather (colGatherDims R C n wf) x idx j
      = x (ix2 (j 0) ⟨min (idx (ix2 (j 1) ⟨0, Nat.one_pos⟩)).toInt.toNat (C - 1), by omega⟩) := by
  unfold Host.gather
  congr 1
  funext a
  refine Fin.ext ?_
  show (colGatherDims R C n wf).start j idx a + (colGatherDims R C n wf).batchCoord j a
    + (colGatherDims R C n wf).offCoord j a = _
  rw [GatherDims.batchCoord_eq_zero _ _ _ List.not_mem_nil, Nat.add_zero]
  have hs0 : (colGatherDims R C n wf).start j idx 0 = 0 := by
    unfold GatherDims.start
    rw [dif_neg (show (0 : Fin 2) ∉ ([1] : List (Fin 2)) by decide)]
  have ho0 : (colGatherDims R C n wf).offCoord j 0 = (j 0).val := rfl
  have ho1 : (colGatherDims R C n wf).offCoord j 1 = 0 :=
    GatherDims.offCoord_eq_zero _ _ _ (fun h => ((GatherDims.mem_sKept _ _).mp h).1 (List.mem_singleton.mpr rfl))
  have hs1 : (colGatherDims R C n wf).start j idx 1
      = min (idx (ix2 (j 1) ⟨0, Nat.one_pos⟩)).toInt.toNat (C - 1) := by
    unfold GatherDims.start
    rw [dif_pos (show (1 : Fin 2) ∈ (colGatherDims R C n wf).startIndexMap from List.mem_singleton.mpr rfl)]
    have hsi : (colGatherDims R C n wf).siIdx j ⟨List.idxOf (1 : Fin 2) (colGatherDims R C n wf).startIndexMap,
        List.idxOf_lt_length_iff.2 (List.mem_singleton.mpr rfl)⟩ = ix2 (j 1) ⟨0, Nat.one_pos⟩ := by
      funext b; refine Fin.ext ?_
      match b with
      | ⟨0, _⟩ => rfl
      | ⟨1, _⟩ => rfl
    rw [hsi]
    rfl
  match a with
  | ⟨0, _⟩ =>
    show (colGatherDims R C n wf).start j idx 0 + (colGatherDims R C n wf).offCoord j 0 = (j 0).val
    rw [hs0, ho0, Nat.zero_add]
  | ⟨1, _⟩ =>
    show (colGatherDims R C n wf).start j idx 1 + (colGatherDims R C n wf).offCoord j 1
      = min (idx (ix2 (j 1) ⟨0, Nat.one_pos⟩)).toInt.toNat (C - 1)
    rw [hs1, ho1, Nat.add_zero]

end ColumnGather

/-! ## The column scatter-add read at an index -/

section ColumnScatter

/-- The dimension numbers of `x.at[:, idx].add(upd)` for an operand `[R, C]`, `n` scatter indices held as `[n, 1]`
    and updates `[R, n]`: the updates' axis 0 is the window axis (it runs over the operand's rows), the operand's
    column axis is inserted and is the one a scatter index addresses. -/
abbrev colScatterDims (R C n : Nat)
    (wf : ScatterDims.WF ⟨2, ![R, C]⟩ ⟨2, ![n, 1]⟩ ⟨2, ![R, n]⟩ [0] [1] [1] 1) :
    ScatterDims ⟨2, ![R, C]⟩ ⟨2, ![n, 1]⟩ ⟨2, ![R, n]⟩ where
  updateWindowDims := [0]
  insertedWindowDims := [1]
  scatterDimsToOperandDims := [1]
  indexVectorDim := 1
  wf := wf

/-- Where an update lands: the update at `(e', t)` lands on the operand's `(e, k)` exactly when `e' = e` and the
    scatter index `idx[t, 0]`, read signed, is `k`. (On the row axis the start is `0` and the window coordinate
    `e'`; on the column axis the start is the index, not clamped, and the window coordinate `0`; an index outside
    `[0, C)` lands nowhere.) -/
theorem colScatter_resultIdx_iff {R C n w : Nat}
    (wf : ScatterDims.WF ⟨2, ![R, C]⟩ ⟨2, ![n, 1]⟩ ⟨2, ![R, n]⟩ [0] [1] [1] 1)
    (idx : IVec ⟨2, ![n, 1]⟩ w) (j : (⟨2, ![R, n]⟩ : Shape).Idx) (i : (⟨2, ![R, C]⟩ : Shape).Idx) :
    (colScatterDims R C n wf).resultIdx? j idx = some i
      ↔ (j 0).val = (i 0).val ∧ (idx (ix2 (j 1) ⟨0, Nat.one_pos⟩)).toInt = ((i 1).val : ℤ) := by
  have hs0 : (colScatterDims R C n wf).start j idx 0 = 0 := by
    unfold ScatterDims.start
    rw [dif_neg (show (0 : Fin 2) ∉ ([1] : List (Fin 2)) by decide)]
  have hw0 : (colScatterDims R C n wf).window j 0 = (j 0).val := rfl
  have hw1 : (colScatterDims R C n wf).window j 1 = 0 := by
    unfold ScatterDims.window
    exact dif_neg (show (1 : Fin 2) ∉ ([0] : List (Fin 2)) by decide)
  have hs1 : (colScatterDims R C n wf).start j idx 1 = (idx (ix2 (j 1) ⟨0, Nat.one_pos⟩)).toInt := by
    unfold ScatterDims.start
    rw [dif_pos (show (1 : Fin 2) ∈ (colScatterDims R C n wf).scatterDimsToOperandDims from List.mem_singleton.mpr rfl)]
    have hsi : (colScatterDims R C n wf).siIdx j ⟨List.idxOf (1 : Fin 2) (colScatterDims R C n wf).scatterDimsToOperandDims,
        List.idxOf_lt_length_iff.2 (List.mem_singleton.mpr rfl)⟩ = ix2 (j 1) ⟨0, Nat.one_pos⟩ := by
      funext b; refine Fin.ext ?_
      match b with
      | ⟨0, _⟩ => rfl
      | ⟨1, _⟩ => rfl
    rw [hsi]
    rfl
  have hi0 : (i 0).val < R := idx2_lt0 i
  have hi1 : (i 1).val < C := idx2_lt1 i
  have hj0 : (j 0).val < R := idx2_lt0 j
  unfold ScatterDims.resultIdx?
  split
  · rename_i h
    rw [Option.some.injEq]
    have h1 : 0 ≤ (colScatterDims R C n wf).start j idx 1 + ((colScatterDims R C n wf).window j 1 : ℤ) := (h 1).1
    constructor
    · intro e
      have e0 : ((colScatterDims R C n wf).start j idx 0 + ((colScatterDims R C n wf).window j 0 : ℤ)).toNat = (i 0).val :=
        congrArg (fun f => (f 0).val) e
      have e1 : ((colScatterDims R C n wf).start j idx 1 + ((colScatterDims R C n wf).window j 1 : ℤ)).toNat = (i 1).val :=
        congrArg (fun f => (f 1).val) e
      rw [hs0, hw0] at e0
      rw [hs1, hw1] at e1 h1
      constructor <;> omega
    · rintro ⟨e0, e1⟩
      funext a
      refine Fin.ext ?_
      match a with
      | ⟨0, _⟩ =>
        show ((colScatterDims R C n wf).start j idx 0 + ((colScatterDims R C n wf).window j 0 : ℤ)).toNat = (i 0).val
        rw [hs0, hw0]; omega
      | ⟨1, _⟩ =>
        show ((colScatterDims R C n wf).start j idx 1 + ((colScatterDims R C n wf).window j 1 : ℤ)).toNat = (i 1).val
        rw [hs1, hw1]; omega
  · rename_i h
    constructor
    · intro e; exact absurd e (by simp)
    · rintro ⟨e0, e1⟩
      exfalso
      apply h
      intro a
      match a with
      | ⟨0, _⟩ =>
        show 0 ≤ (colScatterDims R C n wf).start j idx 0 + ((colScatterDims R C n wf).window j 0 : ℤ)
          ∧ (colScatterDims R C n wf).start j idx 0 + ((colScatterDims R C n wf).window j 0 : ℤ) < (R : ℤ)
        rw [hs0, hw0]; omega
      | ⟨1, _⟩ =>
        show 0 ≤ (colScatterDims R C n wf).start j idx 1 + ((colScatterDims R C n wf).window j 1 : ℤ)
          ∧ (colScatterDims R C n wf).start j idx 1 + ((colScatterDims R C n wf).window j 1 : ℤ) < (C : ℤ)
        rw [hs1, hw1]; omega

/-- THE COLUMN SCATTER-ADD READ AT `(e, k)`, over the extended reals: the initial value plus the sum, over the `t`
    whose scatter index is `k`, of the update at `(e, t)`. The sum over all updates `(e', t)` that land on `(e, k)`
    is split by coordinates; only the row `e' = e` contributes. -/
theorem scatterAdd_cols_apply {R C n w : Nat} {φ : FTy}
    (wf : ScatterDims.WF ⟨2, ![R, C]⟩ ⟨2, ![n, 1]⟩ ⟨2, ![R, n]⟩ [0] [1] [1] 1)
    (x : FVec Ideal ⟨2, ![R, C]⟩ φ) (idx : IVec ⟨2, ![n, 1]⟩ w) (upd : FVec Ideal ⟨2, ![R, n]⟩ φ)
    (i : (⟨2, ![R, C]⟩ : Shape).Idx) :
    Host.scatterAdd (F := Ideal) (colScatterDims R C n wf) x idx upd i
      = x i + ∑ t : Fin n,
          if (idx (ix2 t ⟨0, Nat.one_pos⟩)).toInt = ((i 1).val : ℤ) then upd (ix2 (i 0) t) else 0 := by
  unfold Host.scatterAdd
  rw [Ideal.hostScatterAdd_def]
  unfold Ideal.hostScatterAdd
  congr 1
  rw [Finset.sum_filter, sum_idx2]
  refine (Fintype.sum_eq_single (i 0 : Fin R) ?_).trans ?_
  · intro a ha
    refine Finset.sum_eq_zero (fun t _ => ?_)
    rw [if_neg]
    intro h
    exact ha (Fin.ext ((colScatter_resultIdx_iff wf idx (ix2 a t) i).mp h).1)
  · refine Finset.sum_congr rfl (fun t _ => ?_)
    have key := colScatter_resultIdx_iff wf idx (ix2 (i 0) t) i
    by_cases hc : (idx (ix2 t ⟨0, Nat.one_pos⟩)).toInt = ((i 1).val : ℤ)
    · rw [if_pos hc, if_pos (key.mpr ⟨rfl, hc⟩)]
    · rw [if_neg hc, if_neg (fun h => hc (key.mp h).2)]

end ColumnScatter

/-! ## A basis index survives the wrap of negative indices -/

/-- A word that is not negative is left alone by `select (w < 0) (w + c) w`. -/
theorem normalise_of_nonneg (w z c : BitVec 32) (hz : z = 0#32) (h : 0 ≤ w.toInt) :
    Scalar.select (IntOp.cmpi .slt w z) (IntOp.addi w c) w = w := by
  have hlt : w.slt z = false := by
    rw [hz, BitVec.slt_eq_decide, BitVec.toInt_zero]
    exact decide_eq_false (by omega)
  have hb : IntOp.cmpi .slt w z = 0#1 := by
    show BitVec.ofBool (w.slt z) = 0#1
    rw [hlt]
    rfl
  rw [hb, select_zero]

/-- The `[2480, 1]` index `(t, 0)` reads the table at `t`. -/
theorem idx_col_t (t : Fin 2480) : idx_main_v25 (ix2 t ⟨0, Nat.one_pos⟩) = ix1 t := by
  funext a; match a with | ⟨0, _⟩ => rfl

/-- The first table, wrapped and held as `[2480, 1]`, is the table itself at `t` when its entries are basis indices. -/
theorem norm_I (x9 : (⟨S2480, .i32⟩ : BufTy).Contents (Elt Ideal)) (hI : InRange x9) (t : Fin 2480) :
    val_main_v25 (F := Ideal) x9 (ix2 t ⟨0, Nat.one_pos⟩) = x9 (ix1 t) := by
  rw [val_main_v25_apply, val_main_v24_apply, val_main_v21_apply, val_main_v23_apply, idx_col_t]
  exact normalise_of_nonneg _ _ _ (by rw [val_main_v20_apply, val_main_c_3_apply]) (hI t).1

/-- The second table likewise. -/
theorem norm_J (x10 : (⟨S2480, .i32⟩ : BufTy).Contents (Elt Ideal)) (hJ : InRange x10) (t : Fin 2480) :
    val_main_v32 (F := Ideal) x10 (ix2 t ⟨0, Nat.one_pos⟩) = x10 (ix1 t) := by
  have hix : idx_main_v32 (ix2 t ⟨0, Nat.one_pos⟩) = ix1 t := idx_col_t t
  rw [val_main_v32_apply, val_main_v31_apply, val_main_v28_apply, val_main_v30_apply, hix]
  exact normalise_of_nonneg _ _ _ (by rw [val_main_v27_apply, val_main_c_5_apply]) (hJ t).1

/-- The third table likewise. -/
theorem norm_K (x11 : (⟨S2480, .i32⟩ : BufTy).Contents (Elt Ideal)) (hK : InRange x11) (t : Fin 2480) :
    val_main_v44 (F := Ideal) x11 (ix2 t ⟨0, Nat.one_pos⟩) = x11 (ix1 t) := by
  have hix : idx_main_v44 (ix2 t ⟨0, Nat.one_pos⟩) = ix1 t := idx_col_t t
  rw [val_main_v44_apply, val_main_v43_apply, val_main_v40_apply, val_main_v42_apply, hix]
  exact normalise_of_nonneg _ _ _ (by rw [val_main_v39_apply, val_main_c_7_apply]) (hK t).1

/-- The clamp into `[0, 247]` leaves a basis index alone: the clamped word is the column the table names. -/
theorem clamp_col (w : IVec ⟨1, ![2480]⟩ 32) (h : InRange w) (t : Fin 2480) :
    min (w (ix1 t)).toInt.toNat (248 - 1) = (col w h t).val := by
  show min (w (ix1 t)).toInt.toNat (248 - 1) = (w (ix1 t)).toInt.toNat
  have := h t
  omega

/-! ## The two gathered arrays at `(e, t)` -/

/-- The gathered projected source features at `(e, t)`: row `e`, column `I_t`. -/
theorem v26_apply (x0 : (⟨S10000x248, .f32⟩ : BufTy).Contents (Elt Ideal)) (x1 : (⟨S2x100000, .i32⟩ : BufTy).Contents (Elt Ideal))
    (x2 : (⟨S248x248, .f32⟩ : BufTy).Contents (Elt Ideal)) (x9 : (⟨S2480, .i32⟩ : BufTy).Contents (Elt Ideal))
    (hI : InRange x9) (e : Fin 100000) (t : Fin 2480) :
    val_main_v26 (F := Ideal) x0 x1 x2 x9 (ix2 e t)
      = val_main_v12 (F := Ideal) x0 x1 x2 (ix2 e (col x9 hI t)) := by
  unfold val_main_v26
  refine (gather_cols_apply (R := 100000) (C := 248) (n := 2480) (by decide)
    Facts₀.gather_S100000x248_S2480x1_S100000x2480_0_1_n_n_1_1_1000001_wf
    (val_main_v12 (F := Ideal) x0 x1 x2) (val_main_v25 (F := Ideal) x9) (ix2 e t)).trans ?_
  show val_main_v12 (F := Ideal) x0 x1 x2
      (ix2 e ⟨min (val_main_v25 (F := Ideal) x9 (ix2 t ⟨0, Nat.one_pos⟩)).toInt.toNat (248 - 1), _⟩) = _
  congr 2
  refine Fin.ext ?_
  show min (val_main_v25 (F := Ideal) x9 (ix2 t ⟨0, Nat.one_pos⟩)).toInt.toNat (248 - 1) = (col x9 hI t).val
  rw [norm_I x9 hI t]
  exact clamp_col x9 hI t

/-- The gathered target features at `(e, t)`: row `e`, column `J_t`. -/
theorem v33_apply (x0 : (⟨S10000x248, .f32⟩ : BufTy).Contents (Elt Ideal)) (x1 : (⟨S2x100000, .i32⟩ : BufTy).Contents (Elt Ideal))
    (x10 : (⟨S2480, .i32⟩ : BufTy).Contents (Elt Ideal))
    (hJ : InRange x10) (e : Fin 100000) (t : Fin 2480) :
    val_main_v33 (F := Ideal) x0 x1 x10 (ix2 e t)
      = val_main_v19 (F := Ideal) x0 x1 (ix2 e (col x10 hJ t)) := by
  unfold val_main_v33
  refine (gather_cols_apply (R := 100000) (C := 248) (n := 2480) (by decide)
    Facts₀.gather_S100000x248_S2480x1_S100000x2480_0_1_n_n_1_1_1000001_wf
    (val_main_v19 (F := Ideal) x0 x1) (val_main_v32 (F := Ideal) x10) (ix2 e t)).trans ?_
  show val_main_v19 (F := Ideal) x0 x1
      (ix2 e ⟨min (val_main_v32 (F := Ideal) x10 (ix2 t ⟨0, Nat.one_pos⟩)).toInt.toNat (248 - 1), _⟩) = _
  congr 2
  refine Fin.ext ?_
  show min (val_main_v32 (F := Ideal) x10 (ix2 t ⟨0, Nat.one_pos⟩)).toInt.toNat (248 - 1) = (col x10 hJ t).val
  rw [norm_J x10 hJ t]
  exact clamp_col x10 hJ t

/-! ## The messages -/

/-- THE REFERENCE'S EDGE MESSAGES: with the three tables made of basis indices, the scatter-added array is, at
    `(e, k)`, the sum over the triples with `K_t = k` of `src_proj e I_t · tgt_feats e J_t · C_t`. -/
theorem ref_messages (x0 : (⟨S10000x248, .f32⟩ : BufTy).Contents (Elt Ideal)) (x1 : (⟨S2x100000, .i32⟩ : BufTy).Contents (Elt Ideal))
    (x2 : (⟨S248x248, .f32⟩ : BufTy).Contents (Elt Ideal)) (x9 x10 x11 : (⟨S2480, .i32⟩ : BufTy).Contents (Elt Ideal))
    (x12 : (⟨S2480, .f32⟩ : BufTy).Contents (Elt Ideal))
    (hI : Cert.Hand.Spec.InRange x9) (hJ : Cert.Hand.Spec.InRange x10) (hK : Cert.Hand.Spec.InRange x11) :
    Cert.ReferenceIdeal.Read.val_main_v45 (F := Ideal) x0 x1 x2 x9 x10 x11 x12
      = Cert.Hand.Spec.messages (Cert.ReferenceIdeal.Read.val_main_v12 x0 x1 x2) (Cert.ReferenceIdeal.Read.val_main_v19 x0 x1)
          x9 x10 x11 hI hJ hK x12 := by
  funext i
  unfold val_main_v45
  refine (scatterAdd_cols_apply (R := 100000) (C := 248) (n := 2480)
    Facts₀.scatter_S100000x248_S2480x1_S100000x2480_0_1_1_1_wf
    (val_main_v38 (F := Ideal)) (val_main_v44 (F := Ideal) x11) (val_main_v37 (F := Ideal) x0 x1 x2 x9 x10 x12) i).trans ?_
  rw [val_main_v38_apply, val_main_cst_apply, Ideal.ofBits_def, Ideal.ofBits_zero_f32, zero_add]
  unfold messages
  refine Finset.sum_congr rfl (fun t _ => ?_)
  rw [norm_K x11 hK t]
  have hk := hK t
  have hidx : idx_main_v35 (idx_main_v36 (ix2 (i 0) t)) = ix1 t := by
    funext a; match a with | ⟨0, _⟩ => rfl
  by_cases hc : (x11 (ix1 t)).toInt = ((i 1).val : ℤ)
  · have hc' : (col x11 hK t).val = (i 1).val := by
      show (x11 (ix1 t)).toInt.toNat = (i 1).val
      omega
    have h26 := v26_apply x0 x1 x2 x9 hI (i 0) t
    have h33 := v33_apply x0 x1 x10 hJ (i 0) t
    rw [if_pos hc, if_pos hc', val_main_v37_apply, val_main_v34_apply, h26, h33, val_main_v36_apply,
      val_main_v35_apply, hidx]
    rfl
  · have hc' : ¬ (col x11 hK t).val = (i 1).val := by
      show ¬ (x11 (ix1 t)).toInt.toNat = (i 1).val
      omega
    rw [if_neg hc, if_neg hc']

end Cert.Hand.RefMsg

end
-- ==== Proof.RefTail.lean ====
/-
  The reference's node update, read at an index.

  After the aggregated messages the reference computes, for every node `n`, a hidden layer
  `(∑_k agg n k · W1 h k) + b1 h`, the sigmoid-weighted unit `x · 1/(1 + e^{-x})` of each hidden entry, a second
  layer `(∑_h · W2 q h) + b2 q` added to the node's own feature, and then normalises the row: subtract the row mean,
  multiply by the reciprocal root of the floored mean square, scale by `gamma` and shift by `beta`.

  Nothing is rearranged: each stage, at one index, is the corresponding stage of the row-wise update. What is
  identified is only a composed index map with the coordinates it denotes, the word `0x3F800000` with the real `1`,
  and a sum started from the zero word with the bare sum. The aggregated array enters only through its entries.
-/
import proofs.«425772_j3977139716372_1_alg».proof.Proof.Gen.ReferenceIdeal.Read
import proofs.«425772_j3977139716372_1_alg».proof.Proof.TailSpec
import Idealize.ShloMosaic.PureOps.Ideal
import Idealize.ShloMosaic.PureOps.Ideal.Laws
import Idealize.ShloMosaic.PureOps.IdealRules
import Idealize.ShloMosaic.Lib.ValueIdx

noncomputable section

open scoped BigOperators

namespace Cert.Hand.RefTail

open Cert.ReferenceIdeal Cert.ReferenceIdeal.Gen Cert.ReferenceIdeal.Read Cert.Hand.TailSpec
open Idealize.ShloMosaic Idealize.ShloMosaic.ValueIdx

variable (x0 : (⟨S10000x248, .f32⟩ : BufTy).Contents (Elt Ideal)) (x1 : (⟨S2x100000, .i32⟩ : BufTy).Contents (Elt Ideal))
  (x2 : (⟨S248x248, .f32⟩ : BufTy).Contents (Elt Ideal)) (x3 : (⟨S512x248, .f32⟩ : BufTy).Contents (Elt Ideal))
  (x4 : (⟨S512, .f32⟩ : BufTy).Contents (Elt Ideal)) (x5 : (⟨S248x512, .f32⟩ : BufTy).Contents (Elt Ideal))
  (x6 x7 x8 : (⟨S248, .f32⟩ : BufTy).Contents (Elt Ideal)) (x9 x10 x11 : (⟨S2480, .i32⟩ : BufTy).Contents (Elt Ideal))
  (x12 : (⟨S2480, .f32⟩ : BufTy).Contents (Elt Ideal))

/-! ## The word of the unit -/

/-- The binary32 word `0x3F800000` is the real `1`. -/
theorem one_word : Ideal.ofBits .f32 0x3F800000#32 = 1 := IdealRules.sign_bit.ideal_onePat .f32

/-! ## The composed index maps, as coordinates -/

section Indices
variable (n : Fin 10000) (h : Fin 512) (q j k : Fin 248) (z : Fin 1)

/-- First layer, left operand: row `n`, contraction position `k`. -/
theorem lidx50 : lidx_main_v50 (ix2 n h) k = ix2 n k :=
  funext fun a => Fin.ext (by match a with | ⟨0, _⟩ => rfl | ⟨1, _⟩ => rfl)
/-- First layer, right operand through the transpose: weight row `h`, column `k`. -/
theorem ridx50 : idx_main_v49 (ridx_main_v50 (ix2 n h) k) = ix2 h k :=
  funext fun a => Fin.ext (by match a with | ⟨0, _⟩ => rfl | ⟨1, _⟩ => rfl)
/-- First bias through its two broadcasts: entry `h`. -/
theorem bidx52 : idx_main_v51 (idx_main_v52 (ix2 n h)) = ix1 h :=
  funext fun a => Fin.ext (by match a with | ⟨0, _⟩ => rfl)
/-- Second layer, left operand: row `n`, contraction position `h`. -/
theorem lidx56 : lidx_main_v56 (ix2 n q) h = ix2 n h :=
  funext fun a => Fin.ext (by match a with | ⟨0, _⟩ => rfl | ⟨1, _⟩ => rfl)
/-- Second layer, right operand through the transpose: weight row `q`, column `h`. -/
theorem ridx56 : idx_main_v55 (ridx_main_v56 (ix2 n q) h) = ix2 q h :=
  funext fun a => Fin.ext (by match a with | ⟨0, _⟩ => rfl | ⟨1, _⟩ => rfl)
/-- Second bias through its two broadcasts: entry `q`. -/
theorem bidx58 : idx_main_v57 (idx_main_v58 (ix2 n q)) = ix1 q :=
  funext fun a => Fin.ext (by match a with | ⟨0, _⟩ => rfl)
/-- The row statistics are kept as a `[10000, 1]` column: every entry of row `n` reads its one entry. -/
theorem idx65 : idx_main_v65 (ix2 n j) = ix2 n (0 : Fin 1) :=
  funext fun a => Fin.ext (by match a with | ⟨0, _⟩ => rfl | ⟨1, _⟩ => rfl)
theorem idx75 : idx_main_v75 (ix2 n j) = ix2 n (0 : Fin 1) :=
  funext fun a => Fin.ext (by match a with | ⟨0, _⟩ => rfl | ⟨1, _⟩ => rfl)
/-- The column's entry of row `n` is the row sum's entry `n`. -/
theorem idx62 : idx_main_v62 (ix2 n z) = ix1 n :=
  funext fun a => Fin.ext (by match a with | ⟨0, _⟩ => rfl)
theorem idx69 : idx_main_v69 (ix2 n z) = ix1 n :=
  funext fun a => Fin.ext (by match a with | ⟨0, _⟩ => rfl)
/-- The row sum's entry `n` runs over the entries `(n, k)`. -/
theorem idx61 : idx_main_v61 (ix1 n) k = ix2 n k :=
  funext fun a => Fin.ext (by match a with | ⟨0, _⟩ => rfl | ⟨1, _⟩ => rfl)
theorem idx68 : idx_main_v68 (ix1 n) k = ix2 n k :=
  funext fun a => Fin.ext (by match a with | ⟨0, _⟩ => rfl | ⟨1, _⟩ => rfl)
/-- The scale and the shift through their two broadcasts: entry `j`. -/
theorem gidx78 : idx_main_v77 (idx_main_v78 (ix2 n j)) = ix1 j :=
  funext fun a => Fin.ext (by match a with | ⟨0, _⟩ => rfl)
theorem bidx81 : idx_main_v80 (idx_main_v81 (ix2 n j)) = ix1 j :=
  funext fun a => Fin.ext (by match a with | ⟨0, _⟩ => rfl)

end Indices

/-! ## The stages -/

/-- The hidden unit `h` of node `n`, before its nonlinearity. -/
theorem hidden_at (n : Fin 10000) (h : Fin 512) :
    val_main_v53 (F := Ideal) x0 x1 x2 x3 x4 x9 x10 x11 x12 (ix2 n h)
      = hidden (fun k => val_main_v48 (F := Ideal) x0 x1 x2 x9 x10 x11 x12 (ix2 n k)) (fun k => x3 (ix2 h k)) (x4 (ix1 h)) := by
  rw [val_main_v53_apply, val_main_v50_apply, val_main_v52_apply, val_main_v51_apply]
  simp only [val_main_v49_apply, lidx50, ridx50, bidx52, Ideal.addf_def]
  rfl

/-- The sigmoid-weighted unit at any entry: the printed `x · (1 / (1 + e^{-x}))`, the two units read as `1`. -/
theorem silu_at (i : S10000x512.Idx) :
    val_main_v54 (F := Ideal) x0 x1 x2 x3 x4 x9 x10 x11 x12 i = silu (val_main_v53 (F := Ideal) x0 x1 x2 x3 x4 x9 x10 x11 x12 i) := by
  rw [val_main_v54_apply, val_main_call0_v5_apply, val_main_call0_v4_apply, val_main_call0_cst_0_apply,
    val_main_call0_v3_apply, val_main_call0_v2_apply, val_main_call0_cst_apply, val_main_call0_v1_apply,
    val_main_call0_v0_apply]
  generalize val_main_v53 (F := Ideal) x0 x1 x2 x3 x4 x9 x10 x11 x12 i = x
  simp only [Ideal.mulf_def, Ideal.hostDivf_def, Ideal.addf_def, Ideal.hostUnary_exp_def, Ideal.hostNegf_def,
    Ideal.negf_def, Ideal.ofBits_def, one_word]
  rfl

/-- The residual entry `q` of node `n`: the feature plus the second layer there. -/
theorem updated_at (n : Fin 10000) (q : Fin 248) :
    val_main_v60 (F := Ideal) x0 x1 x2 x3 x4 x5 x6 x9 x10 x11 x12 (ix2 n q)
      = updated (fun k => val_main_v48 (F := Ideal) x0 x1 x2 x9 x10 x11 x12 (ix2 n k)) (x0 (ix2 n q)) (fun h k => x3 (ix2 h k))
          (fun h => x4 (ix1 h)) (fun h => x5 (ix2 q h)) (x6 (ix1 q)) := by
  rw [val_main_v60_apply, val_main_v59_apply, val_main_v56_apply, val_main_v58_apply, val_main_v57_apply]
  simp only [val_main_v55_apply, lidx56, ridx56, bidx58, silu_at, hidden_at, Ideal.addf_def]
  rfl

/-- The mean of row `n`: the sum from the zero word is the bare sum, divided by the printed row length. -/
theorem mean_at (n : Fin 10000) (z : Fin 1) :
    val_main_v64 (F := Ideal) x0 x1 x2 x3 x4 x5 x6 x9 x10 x11 x12 (ix2 n z)
      = Ideal.div (∑ q : Fin 248, val_main_v60 (F := Ideal) x0 x1 x2 x3 x4 x5 x6 x9 x10 x11 x12 (ix2 n q)) n248 := by
  rw [val_main_v64_apply, val_main_v62_apply, idx62, val_main_v61_apply, val_main_v63_apply, val_main_cst_11_apply,
    val_main_cst_10_apply]
  simp only [idx61, Ideal.hostDivf_def, Ideal.ofBits_def, Ideal.ofBits_zero_f32, zero_add]
  rfl

/-- The centred entry `j` of row `n`. -/
theorem centred_at (n : Fin 10000) (j : Fin 248) :
    val_main_v66 (F := Ideal) x0 x1 x2 x3 x4 x5 x6 x9 x10 x11 x12 (ix2 n j) = centred (fun q => val_main_v60 (F := Ideal) x0 x1 x2 x3 x4 x5 x6 x9 x10 x11 x12 (ix2 n q)) j := by
  rw [val_main_v66_apply, val_main_v65_apply, idx65, mean_at]
  rfl

/-- The scale of row `n`: the reciprocal root of the mean square of the centred row plus the printed floor. -/
theorem scale_at (n : Fin 10000) (z : Fin 1) :
    val_main_v74 (F := Ideal) x0 x1 x2 x3 x4 x5 x6 x9 x10 x11 x12 (ix2 n z)
      = Ideal.rsqrt (Ideal.div (∑ q : Fin 248, centred (fun q => val_main_v60 (F := Ideal) x0 x1 x2 x3 x4 x5 x6 x9 x10 x11 x12 (ix2 n q)) q * centred (fun q => val_main_v60 (F := Ideal) x0 x1 x2 x3 x4 x5 x6 x9 x10 x11 x12 (ix2 n q)) q) n248 + eps) := by
  rw [val_main_v74_apply, val_main_v73_apply, val_main_v71_apply, val_main_v69_apply, idx69, val_main_v68_apply,
    val_main_v70_apply, val_main_cst_13_apply, val_main_v72_apply, val_main_cst_14_apply, val_main_cst_12_apply]
  simp only [idx68, val_main_v67_apply, centred_at, Ideal.hostDivf_def, Ideal.hostUnary_rsqrt_def, Ideal.addf_def,
    Ideal.mulf_def, Ideal.ofBits_def, Ideal.ofBits_zero_f32, zero_add]
  rfl

/-- The normalised entry `j` of row `n`. -/
theorem normed_at (n : Fin 10000) (j : Fin 248) :
    val_main_v76 (F := Ideal) x0 x1 x2 x3 x4 x5 x6 x9 x10 x11 x12 (ix2 n j) = normed (fun q => val_main_v60 (F := Ideal) x0 x1 x2 x3 x4 x5 x6 x9 x10 x11 x12 (ix2 n q)) j := by
  rw [val_main_v76_apply, val_main_v75_apply, idx75, scale_at, centred_at]
  rfl

/-! ## The result -/

/-- THE REFERENCE'S RESULT AT `(n, j)` is the node update of the aggregated row `n` and the feature row `n`. -/
theorem ref_tail (n : Fin 10000) (j : Fin 248) :
    val_main_v82 (F := Ideal) x0 x1 x2 x3 x4 x5 x6 x7 x8 x9 x10 x11 x12 (ix2 n j)
      = nodeOut (fun k => val_main_v48 (F := Ideal) x0 x1 x2 x9 x10 x11 x12 (ix2 n k)) (fun q => x0 (ix2 n q))
          (fun h k => x3 (ix2 h k)) (fun h => x4 (ix1 h)) (fun q h => x5 (ix2 q h)) (fun q => x6 (ix1 q))
          (fun q => x7 (ix1 q)) (fun q => x8 (ix1 q)) j := by
  rw [val_main_v82_apply, val_main_v79_apply, val_main_v78_apply, val_main_v77_apply, gidx78, val_main_v81_apply,
    val_main_v80_apply, bidx81, normed_at,
    show (fun q => val_main_v60 (F := Ideal) x0 x1 x2 x3 x4 x5 x6 x9 x10 x11 x12 (ix2 n q))
        = fun q => updated (fun k => val_main_v48 (F := Ideal) x0 x1 x2 x9 x10 x11 x12 (ix2 n k)) (x0 (ix2 n q))
            (fun h k => x3 (ix2 h k)) (fun h => x4 (ix1 h)) (fun h => x5 (ix2 q h)) (x6 (ix1 q))
      from funext (updated_at x0 x1 x2 x3 x4 x5 x6 x9 x10 x11 x12 n)]
  rfl

end Cert.Hand.RefTail

end
-- ==== Proof.ProjEq.lean ====
/-
  The reference's projected source features are a plain matrix product.

  The reference multiplies the gathered source rows by the transposed message weight with one contraction; read at an
  entry that is the row of the gathered array times the column of the transposed weight, which is how the blocked form
  of the messages (`KerSpec.proj`) writes the same product.
-/
import proofs.«425772_j3977139716372_1_alg».proof.Proof.Gen.ReferenceIdeal.Read
import proofs.«425772_j3977139716372_1_alg».proof.Proof.KerSpec

noncomputable section

open scoped BigOperators

namespace Cert.Hand.Bridge

open Cert.ReferenceIdeal Cert.ReferenceIdeal.Read Idealize.ShloMosaic Idealize.ShloMosaic.ValueIdx

/-- Entry (e, d) of the projected source features is the sum over j of the gathered source row's entry j times the
    transposed weight's entry (j, d). -/
theorem proj_eq (x0 : (⟨S10000x248, .f32⟩ : BufTy).Contents (Elt Ideal)) (x1 : (⟨S2x100000, .i32⟩ : BufTy).Contents (Elt Ideal))
    (x2 : (⟨S248x248, .f32⟩ : BufTy).Contents (Elt Ideal)) :
    Cert.Hand.KerSpec.proj (val_main_v10 (F := Ideal) x0 x1) (val_main_v11 (F := Ideal) x2)
      = val_main_v12 (F := Ideal) x0 x1 x2 := by
  funext i
  rw [val_main_v12_apply]
  unfold Cert.Hand.KerSpec.proj
  refine Finset.sum_congr rfl fun k _ => ?_
  have el : (ix2 (i 0) k : (⟨2, ![100000, 248]⟩ : Shape).Idx) = lidx_main_v12 i k :=
    funext fun a => Fin.ext (by match a with | ⟨0, _⟩ => rfl | ⟨1, _⟩ => rfl)
  have er : (ix2 k (i 1) : (⟨2, ![248, 248]⟩ : Shape).Idx) = ridx_main_v12 i k :=
    funext fun a => Fin.ext (by match a with | ⟨0, _⟩ => rfl | ⟨1, _⟩ => rfl)
  rw [el, er]

end Cert.Hand.Bridge

end
-- ==== Proof.Bridge.lean ====
/-
  The two programs compute one function: the kernel program's result array is the reference's.

  Region 0 leaves the edge messages in their blocked dense form; with the dense matrices read off the host
  operations that build them (one-hot rows of the three index tables, padded with empty slots) that form is the
  sparse sum over the structure-constant triples, which is what the reference's column gathers and column
  scatter-add compute when every table entry is a basis index.  Both programs then sum the messages onto the
  target nodes by the same operation, so the aggregated arrays agree.  Region 1 updates each node from its
  aggregated row, its feature row and the weights as they reach it (transposed weights, biases as rows); read
  through the host operations these are the reference's own arguments, and both sides are the same node update.
-/
import proofs.«425772_j3977139716372_1_alg».proof.Proof.Run
import proofs.«425772_j3977139716372_1_alg».proof.Proof.R0Value
import proofs.«425772_j3977139716372_1_alg».proof.Proof.R1Value
import proofs.«425772_j3977139716372_1_alg».proof.Proof.HostStages0
import proofs.«425772_j3977139716372_1_alg».proof.Proof.HostStages1
import proofs.«425772_j3977139716372_1_alg».proof.Proof.BlockedAlgebra
import proofs.«425772_j3977139716372_1_alg».proof.Proof.RefMessages
import proofs.«425772_j3977139716372_1_alg».proof.Proof.RefTail
import proofs.«425772_j3977139716372_1_alg».proof.Proof.SegSum
import proofs.«425772_j3977139716372_1_alg».proof.Proof.ProjEq

noncomputable section

namespace Cert.Hand.Bridge

open Cert.KernelIdeal Cert.KernelIdeal.Gen Cert.KernelIdeal.Hand
open Idealize.ShloMosaic Idealize.ShloMosaic.TcCoe Idealize.SL.Sem Idealize.ShloMosaic.ValueIdx

variable (m : (ℓ : Loc nD τ sig) → Buf (Elt Ideal) ℓ) (c : Dev nD)

/-- Core `c`'s launch contents of an argument buffer. -/
abbrev arg (b : Ref sig .tc) : Buf (Elt Ideal) ((c : Thread nD τ).loc b) := m ((c : Thread nD τ).loc b)

/-- With every table entry a basis index, the messages region 0 leaves are the reference's messages of the same
    arguments: the blocked dense form equals the sparse sum, the gathered rows and the transposed weight being the
    reference's own terms. -/
theorem messages_eq (hI : Cert.Hand.Spec.InRange (arg m c main_arg9)) (hJ : Cert.Hand.Spec.InRange (arg m c main_arg10))
    (hK : Cert.Hand.Spec.InRange (arg m c main_arg11)) :
    ((dat0 (F := Ideal) (VA m) c).arrAt 6 cfg0.N : S100000x248.Idx → EReal)
      = Cert.ReferenceIdeal.Read.val_main_v45 (F := Ideal) (arg m c main_arg0) (arg m c main_arg1) (arg m c main_arg2)
          (arg m c main_arg9) (arg m c main_arg10) (arg m c main_arg11) (arg m c main_arg12) := by
  rw [region0_value (VA m) c, Cert.Hand.RefMsg.ref_messages _ _ _ _ _ _ _ hI hJ hK]
  show Cert.Hand.KerSpec.messages (Cert.Hand.KerSpec.proj (V11 m c main_v18) (V11 m c main_v35)) (V11 m c main_v19)
      (V11 m c main_v25) (V11 m c main_v28) (V11 m c main_v33) = _
  rw [stage_src m c, stage_wT m c, stage_tgt m c, proj_eq]
  exact Cert.Hand.Algebra.blocked_eq_sparse _ _ _ _ _ hI hJ hK _ _ _ _ (stage_GI m c hI) (stage_GJ m c hJ) (stage_S m c hK)

/-- The aggregated messages entering region 1 are the reference's aggregated messages. -/
theorem agg_eq (hI : Cert.Hand.Spec.InRange (arg m c main_arg9)) (hJ : Cert.Hand.Spec.InRange (arg m c main_arg10))
    (hK : Cert.Hand.Spec.InRange (arg m c main_arg11)) :
    (VB m c main_v39 : S10000x248.Idx → EReal)
      = Cert.ReferenceIdeal.Read.val_main_v48 (F := Ideal) (arg m c main_arg0) (arg m c main_arg1) (arg m c main_arg2)
          (arg m c main_arg9) (arg m c main_arg10) (arg m c main_arg11) (arg m c main_arg12) := by
  show (V13 m (outsA m) c main_v39 : S10000x248.Idx → EReal) = _
  rw [stage_agg m (outsA m) c, Cert.Hand.SegSum.ref_agg_eq, ← outsOf_12 m main_v36 c, outsOf_main_v36 m c,
    messages_eq m c hI hJ hK]

/-- The kernel program's result array is the reference's result of the same arguments. -/
theorem result_eq (hI : Cert.Hand.Spec.InRange (arg m c main_arg9)) (hJ : Cert.Hand.Spec.InRange (arg m c main_arg10))
    (hK : Cert.Hand.Spec.InRange (arg m c main_arg11)) :
    ((dat1 (F := Ideal) (VB m) c).arrAt 8 cfg1.N : S10000x248.Idx → EReal)
      = Cert.ReferenceIdeal.Read.val_main_v82 (F := Ideal) (arg m c main_arg0) (arg m c main_arg1) (arg m c main_arg2)
          (arg m c main_arg3) (arg m c main_arg4) (arg m c main_arg5) (arg m c main_arg6) (arg m c main_arg7)
          (arg m c main_arg8) (arg m c main_arg9) (arg m c main_arg10) (arg m c main_arg11) (arg m c main_arg12) := by
  funext i
  obtain ⟨n, j, rfl⟩ : ∃ (n : Fin 10000) (j : Fin 248), i = ix2 n j := ⟨i 0, i 1, eq_ix2 i⟩
  rw [region1_value (VB m) c n j, Cert.Hand.RefTail.ref_tail _ _ _ _ _ _ _ _ _ _ _ _ _ n j]
  have e1 : (fun k : Fin 248 => (VB m c main_v39 : S10000x248.Idx → EReal) (ix2 n k))
      = fun k : Fin 248 => Cert.ReferenceIdeal.Read.val_main_v48 (F := Ideal) (arg m c main_arg0) (arg m c main_arg1)
          (arg m c main_arg2) (arg m c main_arg9) (arg m c main_arg10) (arg m c main_arg11) (arg m c main_arg12) (ix2 n k) := by
    rw [agg_eq m c hI hJ hK]
  have e2 : (fun q : Fin 248 => (VB m c main_arg0 : S10000x248.Idx → EReal) (ix2 n q))
      = fun q : Fin 248 => (arg m c main_arg0 : S10000x248.Idx → EReal) (ix2 n q) := by
    funext q
    show (V13 m (outsA m) c main_arg0 : S10000x248.Idx → EReal) (ix2 n q) = _
    rw [stage_feat m (outsA m) c]
  have e3 : (fun (h : Fin 512) (k : Fin 248) => (VB m c main_v41 : S248x512.Idx → EReal) (ix2 k h))
      = fun (h : Fin 512) (k : Fin 248) => (arg m c main_arg3 : S512x248.Idx → EReal) (ix2 h k) := by
    funext h k; exact stage_w1T m (outsA m) c k h
  have e4 : (fun h : Fin 512 => (VB m c main_v44 : S1x512.Idx → EReal) (ix2 0 h))
      = fun h : Fin 512 => (arg m c main_arg4 : S512.Idx → EReal) (ix1 h) := by
    funext h; exact stage_b1 m (outsA m) c h
  have e5 : (fun (q : Fin 248) (h : Fin 512) => (VB m c main_v43 : S512x248.Idx → EReal) (ix2 h q))
      = fun (q : Fin 248) (h : Fin 512) => (arg m c main_arg5 : S248x512.Idx → EReal) (ix2 q h) := by
    funext q h; exact stage_w2T m (outsA m) c h q
  have e6 : (fun q : Fin 248 => (VB m c main_v45 : S1x248.Idx → EReal) (ix2 0 q))
      = fun q : Fin 248 => (arg m c main_arg6 : S248.Idx → EReal) (ix1 q) := by
    funext q; exact stage_b2 m (outsA m) c q
  have e7 : (fun q : Fin 248 => (VB m c main_v46 : S1x248.Idx → EReal) (ix2 0 q))
      = fun q : Fin 248 => (arg m c main_arg7 : S248.Idx → EReal) (ix1 q) := by
    funext q; exact stage_scale m (outsA m) c q
  have e8 : (fun q : Fin 248 => (VB m c main_v47 : S1x248.Idx → EReal) (ix2 0 q))
      = fun q : Fin 248 => (arg m c main_arg8 : S248.Idx → EReal) (ix1 q) := by
    funext q; exact stage_shift m (outsA m) c q
  rw [e1, e2, e3, e4, e5, e6, e7, e8]

end Cert.Hand.Bridge

end
-- ==== Proof.lean ====
/-
  The certificate of a message-passing layer on a graph: a blocked dense kernel program against its sparse reference.

  THE TWO PROGRAMS.  For every edge the reference gathers the source node's features, projects them by a weight, and
  forms a sparse bilinear bracket with the target node's features: 2480 structure-constant triples (I_t, J_t, K_t) with
  coefficients C_t send the product of entry I_t of the projected source and entry J_t of the target, times C_t, to
  slot K_t of the edge's message.  The messages are summed onto their target nodes, and each node is updated by a
  two-layer perceptron with a sigmoid-weighted unit, a residual connection and a normalisation of its row.  The kernel
  program replaces the bracket's gathers and scatter by three matrix products against 0/1 matrices built from the
  tables (padded from 2480 to 2560 slots and visited in ten blocks of 256, the partial products accumulated in a
  buffer kept between grid points), and fuses the node update into a second kernel over blocks of 1000 nodes.

  THE DOMAIN.  A table entry outside [0, 248) is not a basis index: the reference wraps or clamps it where the 0/1
  matrices simply have an empty row, so the claim is stated for tables in range (the precondition's last three
  conjuncts, decoded in Proof/PreDecode.lean).  Nothing else of the precondition is used: the equality below holds on
  all extended reals, because no step distributes, cancels or subtracts — a sum with at most one nonzero term is that
  term, a product with 0 is 0, and finite sums may be regrouped.

  THE PROOF.  Frames: both kernel regions are run point by point (Proof/R0Body.lean: three control cases and the two
  buffers carried across the ten points of a row block; Proof/R1Body.lean), each made a segment between the host
  stretches, and the program launched (Proof/Run.lean); the word-level program is the same text at the other
  instance.  Values, at the ideal instance: region 0's array is the blocked form of the messages (Proof/R0Value.lean over
  Proof/R0Payload.lean), equal to the sparse form (Proof/BlockedAlgebra.lean) once the dense matrices are read off the host
  operations (Proof/HostStages0.lean), which is the reference's array (Proof/RefMessages.lean); both programs aggregate
  alike (Proof/SegSum.lean); region 1's array is the node update of its inputs (Proof/R1Value.lean over
  Proof/R1Payload.lean, Proof/HostStages1.lean) and so is the reference's result (Proof/RefTail.lean); Proof/Bridge.lean
  joins them.  The idealization rewrote nothing, so its ledger is empty.
-/
import proofs.«425772_j3977139716372_1_alg».proof.Defs
import proofs.«425772_j3977139716372_1_alg».proof.Proof.Gen.Kernel
import proofs.«425772_j3977139716372_1_alg».proof.Proof.Gen.KernelIdeal
import proofs.«425772_j3977139716372_1_alg».proof.Proof.Gen.ReferenceIdeal
import proofs.«425772_j3977139716372_1_alg».proof.Proof.Gen.ReferenceIdeal.Run
import proofs.«425772_j3977139716372_1_alg».proof.Proof.Gen.ReferenceIdeal.Read
import proofs.«425772_j3977139716372_1_alg».proof.Proof.Gen.Pre_finite_inputs
import proofs.«425772_j3977139716372_1_alg».proof.Proof.KRun
import proofs.«425772_j3977139716372_1_alg».proof.Proof.Run
import proofs.«425772_j3977139716372_1_alg».proof.Proof.PreDecode
import proofs.«425772_j3977139716372_1_alg».proof.Proof.Bridge
import Idealize.ShloMosaic.Adequacy
import Idealize.ShloMosaic.Init

noncomputable section

namespace Cert.Proof

open Idealize.ShloMosaic Idealize.ShloMosaic.TcCoe Idealize.SL.Sem

/-- The word-level program runs to the end and leaves its arguments as launched: its run with the result dropped. -/
theorem frame_kernel : Cert.frame_Kernel := fun m ρ _ =>
  (θ_run Cert.Kernel.defs _ _).mono (fun _ h c => (h c).2) (Cert.Kernel.Hand.run_main (F := Bits) m ρ)

/-- The same of the idealized program. -/
theorem frame_kernelIdeal : Cert.frame_KernelIdeal := fun m ρ _ =>
  (θ_run Cert.KernelIdeal.defs _ _).mono (fun _ h c => (h c).2) (Cert.KernelIdeal.Hand.run_main (F := Ideal) m ρ)

/-- The reference is a straight line of host operations: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments, with the tables in range, both programs end with the same result:
    the kernel program's result array is the reference's result of the same arguments (Proof/Bridge.lean), and the
    reference's run ends at that term of its own arguments. -/
theorem algebraic : Cert.algebraic_KernelIdeal_ReferenceIdeal := by
  intro m ρ m' ρ' hpre hagree
  refine ⟨fun c => (Cert.KernelIdeal.Hand.dat1 (F := Ideal) (Cert.KernelIdeal.Hand.VB m) c).arrAt 8 Cert.KernelIdeal.cfg1.N,
    Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hI, hJ, hK⟩ := Cert.Hand.Pre.tables_in_range _ _ _ _ _ _ _ _ _ _ _ _ _ (hpre c)
  rw [Cert.ReferenceIdeal.Read.val_main_v82_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2.1, (hagree c).2.2.2.2.2.2.2.2.2.2.1,
    (hagree c).2.2.2.2.2.2.2.2.2.2.2.1, (hagree c).2.2.2.2.2.2.2.2.2.2.2.2]
  exact (Cert.Hand.Bridge.result_eq m c hI hJ hK).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
